-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S512x2048 : Shape := ⟨2, ![512, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_

variable [Facts]

def fn_part1 {F : FTy → Type} [FloatOps F] (main_arg4 : FVec F S512x2048 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S512x2048 .f32) (main_arg3 : FVec F S512x2048 .f32) (main_arg4 : FVec F S512x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_v13 main_v16
-- ==== Kernel.lean ====
abbrev S8192x2048 : Shape := ⟨2, ![8192, 2048]⟩
abbrev S512x2048 : Shape := ⟨2, ![512, 2048]⟩
abbrev S8 : Shape := ⟨1, ![8]⟩
abbrev S8192x512 : Shape := ⟨2, ![8192, 512]⟩
abbrev S512x512 : Shape := ⟨2, ![512, 512]⟩
abbrev S1024x512 : Shape := ⟨2, ![1024, 512]⟩
abbrev S1 : Shape := ⟨1, ![1]⟩
abbrev S1024x1024 : Shape := ⟨2, ![1024, 1024]⟩

abbrev nBuf : Space → Nat
  | .hbm => 12
  | .vmem => 22
  | .smem => 1
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .bf16⟩
  | .hbm, ⟨6, _⟩ => ⟨S512x2048, .bf16⟩
  | .hbm, ⟨7, _⟩ => ⟨S512x2048, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x512, .bf16⟩
  | .local _ .vmem, ⟨4, _⟩ => ⟨S512x512, .bf16⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .f32⟩
  | .local _ .vmem, ⟨20, _⟩ => ⟨S1024x512, .f32⟩
  | .local _ .vmem, ⟨21, _⟩ => ⟨S1024x512, .f32⟩
  | .local _ .smem, ⟨0, _⟩ => ⟨S8, .i32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 8], ![false, false]⟩

abbrev pre2 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_cond4 (i : grid2.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_3 : BitVec 32 := 0#32
  let v13 : BitVec 1 := Scalar.cmpi .ne v12 c0_i32_3
  v13

def cc2_transform_0 (k2_off1_inb : ∀ i : grid2.Coords, ∀ a, (k2_off1 i) a + S1.size a ≤ S8.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k2_off1_inb i)) numel1_S1
  let c0_i32 : BitVec 32 := 0#32
  let c0_i32_0 : BitVec 32 := 0#32
  ![v1.toNat, c0_i32.toNat]

def cc2_transform_1 (k2_off1_inb : ∀ i : grid2.Coords, ∀ a, (k2_off1 i) a + S1.size a ≤ S8.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k2_off1_inb i)) numel1_S1
  let v2 : BitVec 32 := Scalar.minsi v1 arg1
  let c0_i32 : BitVec 32 := 0#32
  let c0_i32_0 : BitVec 32 := 0#32
  ![v2.toNat, c0_i32.toNat]

def cc2_transform_2 (k2_off1_inb : ∀ i : grid2.Coords, ∀ a, (k2_off1 i) a + S1.size a ≤ S8.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k2_off1_inb i)) numel1_S1
  let v2 : BitVec 32 := Scalar.minsi v1 arg1
  let c0_i32 : BitVec 32 := 0#32
  let c0_i32_0 : BitVec 32 := 0#32
  ![v2.toNat, c0_i32.toNat]

def cc2_transform_3 (k2_off1_inb : ∀ i : grid2.Coords, ∀ a, (k2_off1 i) a + S1.size a ≤ S8.size a) (numel1_S1 : S1.numel = 1) (pf : pre2.Contents (Elt F)) (i : grid2.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k2_off1_inb i)) numel1_S1
  let c0_i32 : BitVec 32 := 0#32
  let c0_i32_0 : BitVec 32 := 0#32
  ![v1.toNat, c0_i32.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  numel1_S1 : S1.numel = 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  iota_S1024x1024_d0_w32 : S1024x1024.Iotas .tc 32 [0]
  iota_S1024x1024_d1_w32 : S1024x1024.Iotas .tc 32 [1]
  dot_S512x2048_S512x2048_S512x512_1_1_0_0_n_n_wf : DotDims.WF S512x2048 S512x2048 S512x512 [1] [1] [0] [0] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .bf16 = 32 ∨ (Rect.block (s := S8192x512) S512x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S512x2048.size a
  hwx1_1 : ∀ i : grid1.Coords, EltTy.bits .bf16 = 32 ∨ (Rect.block (s := S512x2048) S512x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S512x2048.size a
  hwx1_2 : ∀ i : grid1.Coords, EltTy.bits .bf16 = 32 ∨ (Rect.block (s := S512x2048) S512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x512.size a
  hwx1_3 : ∀ i : grid1.Coords, EltTy.bits .bf16 = 32 ∨ (Rect.block (s := S8192x512) S512x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S8192x512.size a
  hwx1_4 : ∀ i : grid1.Coords, EltTy.bits .bf16 = 32 ∨ (Rect.block (s := S8192x512) S512x512.size (cc1_transform_4 i) (hinb1_4 i)).WholeWords (EltTy.packing .bf16)
  hrank2 : 0 < grid2.rank
  k2_off1_inb : ∀ i : grid2.Coords, ∀ a, (k2_off1 i) a + S1.size a ≤ S8.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 false = 2
  hreads2_2 : ∀ {F : FTy → Type} [FloatOps F] (pf : pre2.Contents (Elt F)) (i i' : grid2.Coords), (∀ a, reads2_2 a = true → i a = i' a) → cc2_transform_2 k2_off1_inb numel1_S1 pf i = cc2_transform_2 k2_off1_inb numel1_S1 pf i'
  hstage2_3 : ∀ j, (stage2_3 j).IsWhole
  nbuf2_3 : grid2.bufCount reads2_3 false = 2
  hreads2_3 : ∀ {F : FTy → Type} [FloatOps F] (pf : pre2.Contents (Elt F)) (i i' : grid2.Coords), (∀ a, reads2_3 a = true → i a = i' a) → cc2_transform_3 k2_off1_inb numel1_S1 pf i = cc2_transform_3 k2_off1_inb numel1_S1 pf i'

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S512x512.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev spec2_0 : Pipeline.WinSpec sig grid2.rank :=
  Pipeline.WinSpec.ofSpec (Memref.whole main_v3) S1024x512.size reads2_0 false false 2 stage2_0 sem2_0 nbuf2_0 hstage2_0

abbrev spec2_1 : Pipeline.WinSpec sig grid2.rank :=
  Pipeline.WinSpec.ofSpec (Memref.whole main_v4_0) S1024x512.size reads2_1 false false 2 stage2_1 sem2_1 nbuf2_1 hstage2_1

abbrev spec2_2 : Pipeline.WinSpec sig grid2.rank :=
  Pipeline.WinSpec.ofSpec (Memref.whole main_v4_1) S1024x512.size reads2_2 false false 2 stage2_2 sem2_2 nbuf2_2 hstage2_2

abbrev spec2_3 : Pipeline.WinSpec sig grid2.rank :=
  Pipeline.WinSpec.ofSpec (Memref.whole main_v5) S1024x512.size reads2_3 true false 2 stage2_3 sem2_3 nbuf2_3 hstage2_3

abbrev spec2 : Fin 4 → Pipeline.WinSpec sig grid2.rank := fun | 0 => spec2_0 | 1 => spec2_1 | 2 => spec2_2 | 3 => spec2_3 | ⟨_ + 4, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | ⟨_ + 4, h⟩ => absurd h (Nat.not_lt.2 (Nat.le_add_left _ _))
abbrev ix2 (pf : pre2.Contents (Elt F)) : (w : Fin 4) → grid2.Coords → Fin (spec2 w).shape.rank → Nat := fun | 0 => cc2_transform_0 k2_off1_inb numel1_S1 pf | 1 => cc2_transform_1 k2_off1_inb numel1_S1 pf | 2 => cc2_transform_2 k2_off1_inb numel1_S1 pf | 3 => cc2_transform_3 k2_off1_inb numel1_S1 pf | ⟨_ + 4, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 pf | 3 => hreads2_3 pf | ⟨_ + 4, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1024x512.size a ≤ S8192x512.size a), EltTy.bits .bf16 = 32 ∨ (Rect.block (s := S8192x512) S1024x512.size (cc2_transform_0 k2_off1_inb numel1_S1 pf i) h).WholeWords (EltTy.packing .bf16)) ∧
  (∀ i : grid2.Coords, ∃ h : (∀ a, (cc2_transform_1 k2_off1_inb numel1_S1 pf i a + 1) * S1024x512.size a ≤ S8192x512.size a), EltTy.bits .bf16 = 32 ∨ (Rect.block (s := S8192x512) S1024x512.size (cc2_transform_1 k2_off1_inb numel1_S1 pf i) h).WholeWords (EltTy.packing .bf16)) ∧
  (∀ i : grid2.Coords, ∃ h : (∀ a, (cc2_transform_2 k2_off1_inb numel1_S1 pf i a + 1) * S1024x512.size a ≤ S8192x512.size a), EltTy.bits .bf16 = 32 ∨ (Rect.block (s := S8192x512) S1024x512.size (cc2_transform_2 k2_off1_inb numel1_S1 pf i) h).WholeWords (EltTy.packing .bf16)) ∧
  (∀ i : grid2.Coords, ∃ h : (∀ a, (cc2_transform_3 k2_off1_inb numel1_S1 pf i a + 1) * S1024x512.size a ≤ S8192x512.size a), EltTy.bits .f32 = 32 ∨ (Rect.block (s := S8192x512) S1024x512.size (cc2_transform_3 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle2 : Fin 4 → grid2.Coords → Bool := fun | 0 => fun _ => false | 1 => fun _ => false | 2 => fun _ => false | 3 => fun i => !(k2_cond4 i == 1#1) | ⟨_ + 4, h⟩ => absurd h (Nat.not_lt.2 (Nat.le_add_left _ _))

class Facts : Prop extends Facts₀ where
  harr2 : ∀ w, (spec2 w).arr.IsWhole

variable [Facts]
-- ==== ReferenceIdeal.lean ====
abbrev S8192x2048 : Shape := ⟨2, ![8192, 2048]⟩
abbrev S512x2048 : Shape := ⟨2, ![512, 2048]⟩
abbrev S2048x512 : Shape := ⟨2, ![2048, 512]⟩
abbrev S8192x512 : Shape := ⟨2, ![8192, 512]⟩
abbrev S512x8192 : Shape := ⟨2, ![512, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S2048x512, .f32⟩
  | .hbm, ⟨6, _⟩ => ⟨S8192x512, .f32⟩
  | .hbm, ⟨7, _⟩ => ⟨S2048x512, .f32⟩
  | .hbm, ⟨8, _⟩ => ⟨S8192x512, .f32⟩
  | .hbm, ⟨9, _⟩ => ⟨S2048x512, .f32⟩
  | .hbm, ⟨10, _⟩ => ⟨S8192x512, .f32⟩
  | .hbm, ⟨11, _⟩ => ⟨S512x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192, .i32⟩
  | .hbm, ⟨17, _⟩ => ⟨S8192x1, .i32⟩
  | .hbm, ⟨18, _⟩ => ⟨S8192, .i32⟩
  | .hbm, ⟨19, _⟩ => ⟨S1x8192, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x512, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  transposes_S512x2048_S2048x512_1_0 : S512x2048.Transposes [1, 0] S2048x512
  transposes_S8192x512_S512x8192_1_0 : S8192x512.Transposes [1, 0] S512x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  dot_S8192x2048_S2048x512_S8192x512_1_0_0_1_n_n_wf : DotDims.WF S8192x2048 S2048x512 S8192x512 [1] [0] [0] [1] [] []
  dot_S8192x512_S512x8192_S8192x8192_1_0_0_1_n_n_wf : DotDims.WF S8192x512 S512x8192 S8192x8192 [1] [0] [0] [1] [] []
  dot_S8192x8192_S8192x512_S8192x512_1_0_0_1_n_n_wf : DotDims.WF S8192x8192 S8192x512 S8192x512 [1] [0] [0] [1] [] []

variable [Facts₀]

def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.Spec.lean ====
/-
  The mathematics of the claim, with no program in sight.

  Inputs: x, y : [8192, 2048]; Wq, Wk, Wv : [512, 2048], entries extended reals.
  A projection is proj a w [r, f] = sum over d of a[r, d] * w[f, d].
  With q = proj x Wq, k = proj y Wk, v = proj y Wv and the scale s (one binary32 word, the same on both sides):

  * the reference-shaped result   attnR [r, e] = sum over c < 8192 of (if c >= r then 0 else (sum_f q[r,f] k[c,f]) * s) * v[c, e];
  * the kernel-shaped result is stated over three arrays qs, kk, vv of shape [8192, 512] (what the three projection
    kernels leave): the key axis is cut into 8 tiles of 1024 columns; row r lies in query tile r / 1024; the
    accumulator starts at zero, adds tile j's full product for j < r / 1024, the strictly-lower-triangular product for
    j = r / 1024, and nothing for later tiles (attnTiles).  attnK is attnTiles at qs = q * s, kk = k, vv = v.

  attnK = attnR needs one law beyond commutativity and associativity: sum_f (q[r,f] * s) * k[c,f] = (sum_f q[r,f] * k[c,f]) * s,
  which holds when q, k and s are real (finite inputs).
-/
import Idealize.ShloMosaic.PureOps.Ideal
import Idealize.ShloMosaic.Lib.ValueIdx

noncomputable section

namespace Cert.Spec

open Idealize.ShloMosaic Idealize.ShloMosaic.ValueIdx

abbrev SX : Shape := ⟨2, ![8192, 2048]⟩
abbrev SW : Shape := ⟨2, ![512, 2048]⟩
abbrev SO : Shape := ⟨2, ![8192, 512]⟩

/-- The scale: the binary32 word both programs multiply by. -/
def scale : EReal := Ideal.ofBits .f32 0x3D3504F3#32

/-- proj a w [r, f] = sum over d of a[r, d] * w[f, d]. -/
def proj (a : SX.Idx → EReal) (w : SW.Idx → EReal) : SO.Idx → EReal :=
  fun i => ∑ d : Fin 2048, a (ix2 (i 0) d) * w (ix2 (i 1) d)

/-- The projection times the scale, entry by entry. -/
def projS (a : SX.Idx → EReal) (w : SW.Idx → EReal) : SO.Idx → EReal :=
  fun i => proj a w i * scale

/-- The reference's result from the three projections: masked scaled scores times values. -/
def attnOf (q k v : SO.Idx → EReal) : SO.Idx → EReal :=
  fun i => ∑ c : Fin 8192,
    (if (i 0).val ≤ c.val then (0 : EReal) else (∑ f : Fin 512, q (ix2 (i 0) f) * k (ix2 c f)) * scale) * v (ix2 c (i 1))

def attnR (x y : SX.Idx → EReal) (wq wk wv : SW.Idx → EReal) : SO.Idx → EReal :=
  attnOf (proj x wq) (proj y wk) (proj y wv)

/-- Column c' of key tile j as a column of the whole key axis. -/
def col (j : Fin 8) (c' : Fin 1024) : Fin 8192 := ⟨1024 * j.val + c'.val, by omega⟩

/-- Tile j's full contribution to row r, column e: sum over the tile's 1024 keys of score times value. -/
def tileFull (qs kk vv : SO.Idx → EReal) (j : Fin 8) (r : Fin 8192) (e : Fin 512) : EReal :=
  ∑ c' : Fin 1024, (∑ f : Fin 512, qs (ix2 r f) * kk (ix2 (col j c') f)) * vv (ix2 (col j c') e)

/-- The diagonal tile's contribution: only keys strictly before the query inside the tile (c' < r mod 1024). -/
def tileDiag (qs kk vv : SO.Idx → EReal) (j : Fin 8) (r : Fin 8192) (e : Fin 512) : EReal :=
  ∑ c' : Fin 1024, (if c'.val < r.val % 1024 then (∑ f : Fin 512, qs (ix2 r f) * kk (ix2 (col j c') f)) else 0) * vv (ix2 (col j c') e)

/-- The accumulator for row r, column e after key tiles 0 .. n-1 (n ≤ 8), starting from zero. -/
def accTiles (qs kk vv : SO.Idx → EReal) (r : Fin 8192) (e : Fin 512) : ℕ → EReal
  | 0 => 0
  | n + 1 =>
    if h : n < 8 then
      (if n < r.val / 1024 then accTiles qs kk vv r e n + tileFull qs kk vv ⟨n, h⟩ r e
       else if n = r.val / 1024 then accTiles qs kk vv r e n + tileDiag qs kk vv ⟨n, h⟩ r e
       else accTiles qs kk vv r e n)
    else accTiles qs kk vv r e n

/-- The kernel-shaped result over the three projected arrays. -/
def attnTiles (qs kk vv : SO.Idx → EReal) : SO.Idx → EReal :=
  fun i => accTiles qs kk vv (i 0) (i 1) 8

def attnK (x y : SX.Idx → EReal) (wq wk wv : SW.Idx → EReal) : SO.Idx → EReal :=
  attnTiles (projS x wq) (proj y wk) (proj y wv)

/-- Every entry of an array is a real number. -/
def Real' {s : Shape} (a : s.Idx → EReal) : Prop := ∀ i, ∃ r : ℝ, a i = (r : EReal)

/-! ### Real witnesses -/

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The scale is a real number: its exponent field is 122, not 255. -/
theorem scale_real : ∃ s : ℝ, scale = (s : EReal) := by
  unfold scale Ideal.ofBits Ideal.ieee
  have hex : ((0x3D3504F3#32 : BitVec 32).extractLsb' 23 8).toNat = 122 := by decide
  simp only [hex]
  norm_num

/-- A projection of real arrays is a real array. -/
theorem real_proj {a : SX.Idx → EReal} {w : SW.Idx → EReal} (ha : Real' a) (hw : Real' w) :
    Real' (proj a w) := by
  intro i
  choose a' ha' using ha
  choose w' hw' using hw
  refine ⟨∑ d : Fin 2048, a' (ix2 (i 0) d) * w' (ix2 (i 1) d), ?_⟩
  simp only [proj, ha', hw', ← EReal.coe_mul]
  exact coe_sum _ _

/-- The one law beyond commutativity and associativity: on real q, k the scale moves out of the contraction. -/
theorem scaled_dot {q k : SO.Idx → EReal} (hq : Real' q) (hk : Real' k) (r c : Fin 8192) :
    ∑ f : Fin 512, (q (ix2 r f) * scale) * k (ix2 c f)
      = (∑ f : Fin 512, q (ix2 r f) * k (ix2 c f)) * scale := by
  obtain ⟨s, hs⟩ := scale_real
  choose q' hq' using hq
  choose k' hk' using hk
  simp only [hq', hk', hs, ← EReal.coe_mul]
  rw [coe_sum, coe_sum, ← EReal.coe_mul, Finset.sum_mul]
  congr 1
  exact Finset.sum_congr rfl fun f _ => mul_right_comm _ _ _

/-! ### The key axis as eight tiles -/

/-- A key column is a tile and a column inside the tile. -/
def tileEquiv : Fin 8 × Fin 1024 ≃ Fin 8192 where
  toFun p := col p.1 p.2
  invFun c := (⟨c.val / 1024, by omega⟩, ⟨c.val % 1024, by omega⟩)
  left_inv p := by
    rcases p with ⟨j, c'⟩
    have hj := j.isLt
    have hc := c'.isLt
    refine Prod.ext (Fin.ext ?_) (Fin.ext ?_)
    · show (1024 * j.val + c'.val) / 1024 = j.val
      omega
    · show (1024 * j.val + c'.val) % 1024 = c'.val
      omega
  right_inv c := by
    refine Fin.ext ?_
    show 1024 * (c.val / 1024) + c.val % 1024 = c.val
    omega

/-- A sum over the key axis is the sum over the tiles of the sums inside each tile. -/
theorem sum_tiles {M : Type*} [AddCommMonoid M] (t : Fin 8192 → M) :
    ∑ c, t c = ∑ j : Fin 8, ∑ c' : Fin 1024, t (col j c') := by
  rw [← Equiv.sum_comp tileEquiv t, Fintype.sum_prod_type]
  rfl

/-- What key tile n adds to the accumulator of row r, column e. -/
def tileAdd (qs kk vv : SO.Idx → EReal) (r : Fin 8192) (e : Fin 512) (n : ℕ) : EReal :=
  if h : n < 8 then
    (if n < r.val / 1024 then tileFull qs kk vv ⟨n, h⟩ r e
     else if n = r.val / 1024 then tileDiag qs kk vv ⟨n, h⟩ r e
     else 0)
  else 0

/-- The accumulator after n tiles is the sum of what the first n tiles add. -/
theorem accTiles_eq_sum (qs kk vv : SO.Idx → EReal) (r : Fin 8192) (e : Fin 512) (n : ℕ) :
    accTiles qs kk vv r e n = ∑ j ∈ Finset.range n, tileAdd qs kk vv r e j := by
  induction n with
  | zero => simp [accTiles]
  | succ n ih =>
    rw [Finset.sum_range_succ, ← ih]
    simp only [accTiles, tileAdd]
    split_ifs <;> simp

/-- Tile j's slice of the masked sum over the key axis is what tile j adds: the mask r ≤ 1024 j + c' is false on
    the whole tile when j < r / 1024, is ¬ c' < r % 1024 when j = r / 1024, and is true on the whole tile (every
    term 0 * v = 0) when j > r / 1024. -/
theorem tile_slice (qs kk vv : SO.Idx → EReal) (r : Fin 8192) (e : Fin 512) (j : Fin 8) :
    ∑ c' : Fin 1024,
        (if r.val ≤ (col j c').val then (0 : EReal) else ∑ f : Fin 512, qs (ix2 r f) * kk (ix2 (col j c') f))
          * vv (ix2 (col j c') e)
      = tileAdd qs kk vv r e j.val := by
  have hj := j.isLt
  have hr := r.isLt
  unfold tileAdd
  rw [dif_pos j.isLt]
  by_cases h1 : j.val < r.val / 1024
  · rw [if_pos h1]
    unfold tileFull
    refine Finset.sum_congr rfl fun c' _ => ?_
    have hc := c'.isLt
    have hm : ¬ r.val ≤ (col j c').val := by
      show ¬ r.val ≤ 1024 * j.val + c'.val
      omega
    rw [if_neg hm]
  · rw [if_neg h1]
    by_cases h2 : j.val = r.val / 1024
    · rw [if_pos h2]
      unfold tileDiag
      refine Finset.sum_congr rfl fun c' _ => ?_
      have hc := c'.isLt
      by_cases h3 : c'.val < r.val % 1024
      · have hm : ¬ r.val ≤ (col j c').val := by
          show ¬ r.val ≤ 1024 * j.val + c'.val
          omega
        rw [if_neg hm, if_pos h3]
      · have hm : r.val ≤ (col j c').val := by
          show r.val ≤ 1024 * j.val + c'.val
          omega
        rw [if_pos hm, if_neg h3]
    · rw [if_neg h2]
      refine Finset.sum_eq_zero fun c' _ => ?_
      have hc := c'.isLt
      have hm : r.val ≤ (col j c').val := by
        show r.val ≤ 1024 * j.val + c'.val
        omega
      rw [if_pos hm, zero_mul]

/-- The tiled accumulation is the masked sum over the whole key axis. -/
theorem attnTiles_eq (qs kk vv : SO.Idx → EReal) (i : SO.Idx) :
    attnTiles qs kk vv i
      = ∑ c : Fin 8192,
          (if (i 0).val ≤ c.val then (0 : EReal) else ∑ f : Fin 512, qs (ix2 (i 0) f) * kk (ix2 c f))
            * vv (ix2 c (i 1)) := by
  refine (accTiles_eq_sum qs kk vv (i 0) (i 1) 8).trans ?_
  refine (Finset.sum_range _).trans ?_
  refine Eq.trans ?_ (sum_tiles _).symm
  exact Finset.sum_congr rfl fun j _ => (tile_slice qs kk vv (i 0) (i 1) j).symm

/-- The two shapes of the result agree on real inputs. -/
theorem attnK_eq_attnR (x y : SX.Idx → EReal) (wq wk wv : SW.Idx → EReal)
    (hx : Real' x) (hy : Real' y) (hq : Real' wq) (hk : Real' wk) (hv : Real' wv) :
    attnK x y wq wk wv = attnR x y wq wk wv := by
  funext i
  unfold attnK attnR
  rw [attnTiles_eq]
  unfold attnOf
  refine Finset.sum_congr rfl fun c _ => ?_
  by_cases h : (i 0).val ≤ c.val
  · rw [if_pos h, if_pos h]
  · rw [if_neg h, if_neg h]
    congr 1
    exact scaled_dot (real_proj hx hq) (real_proj hy hk) (i 0) c

end Cert.Spec

end
-- ==== Proof.Finite.lean ====
/-
  Finite inputs are real arrays.

  The precondition says, of each of the five argument arrays, that every entry x has |x| < +∞ (the conjunction of five
  "all" reductions of the comparison |x| < the binary32 word of +∞). At the extended reals |x| = max x (-x), and
  max x (-x) < ⊤ excludes x = ⊤ and x = ⊥, so x is a real number.
-/
import proofs.«425182_j55671366091048_3_alg».proof.Defs
import proofs.«425182_j55671366091048_3_alg».proof.Proof.Gen.Pre_finite_inputs
import proofs.«425182_j55671366091048_3_alg».proof.Proof.Spec
import Idealize.ShloMosaic.Lib.ReduceAll
import Idealize.ShloMosaic.Lib.IdealHost

noncomputable section

namespace Cert.Finite

open Idealize.ShloMosaic Idealize.ShloMosaic.TcCoe Idealize.SL.Sem Idealize.ShloMosaic.ValueIdx

/-- The rank-0 shape has one index. -/
instance : Subsingleton Cert.Pre_finite_inputs.S_.Idx := ⟨fun _ _ => funext fun d => d.elim0⟩

/-- The binary32 word 0x7F800000 (exponent field all ones, fraction zero, sign clear) is +∞. -/
theorem inf_word : Ideal.ofBits .f32 0x7F800000#32 = (⊤ : EReal) := by
  unfold Ideal.ofBits Ideal.ieee
  have hex : ((0x7F800000#32 : BitVec 32).extractLsb' 23 8).toNat = 255 := by decide
  have hfr : ((0x7F800000#32 : BitVec 32).extractLsb' 0 23).toNat = 0 := by decide
  have hsg : ((0x7F800000#32 : BitVec 32).extractLsb' (8 + 23) 1 == 1#1) = false := by decide
  simp only [hex, hfr, hsg]
  norm_num

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison bit |x| < +∞ being set says x is a real number. -/
theorem real_of_bit (x : EReal) (h : Ideal.cmp .olt (max x (-x)) (Ideal.ofBits .f32 0x7F800000#32) = 1#1) :
    ∃ r : ℝ, x = (r : EReal) := by
  rw [inf_word] at h
  refine real_of_abs_lt_top x ?_
  by_contra hn
  have h0 : Ideal.cmp .olt (max x (-x)) (⊤ : EReal) = 0#1 := by
    show BitVec.ofBool (decide (max x (-x) < (⊤ : EReal))) = 0#1
    rw [decide_eq_false hn]
    rfl
  rw [h0] at h
  exact absurd h (by decide)

/-- One conjunct of the precondition: the "all" of |x| < +∞ over an array says the array is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
        (cmpf .olt (Host.absf x) (broadcastInDim s ![] hb (constant Cert.Pre_finite_inputs.S_ .f32 0x7F800000#32)))
        init hr hu ix0 = 1#1) :
    ∀ i : s.Idx, ∃ r : ℝ, x i = (r : EReal) := by
  intro i
  have e := Host.reduce_andi_all _ _ hr hu ix0 h i
  rw [cmpf_apply, broadcastInDim_scalar_apply] at e
  exact real_of_bit (x i) e

/-- Under the precondition the five argument arrays are real. -/
theorem real_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.Real' (s := Cert.Spec.SX) (m ((c.tc : Thread Cert.KernelIdeal.nD Cert.KernelIdeal.τ).loc Cert.KernelIdeal.main_arg0))
    ∧ Cert.Spec.Real' (s := Cert.Spec.SX) (m ((c.tc : Thread Cert.KernelIdeal.nD Cert.KernelIdeal.τ).loc Cert.KernelIdeal.main_arg1))
    ∧ Cert.Spec.Real' (s := Cert.Spec.SW) (m ((c.tc : Thread Cert.KernelIdeal.nD Cert.KernelIdeal.τ).loc Cert.KernelIdeal.main_arg2))
    ∧ Cert.Spec.Real' (s := Cert.Spec.SW) (m ((c.tc : Thread Cert.KernelIdeal.nD Cert.KernelIdeal.τ).loc Cert.KernelIdeal.main_arg3))
    ∧ Cert.Spec.Real' (s := Cert.Spec.SW) (m ((c.tc : Thread Cert.KernelIdeal.nD Cert.KernelIdeal.τ).loc Cert.KernelIdeal.main_arg4)) := by
  have h0 := congrFun (h c) ix0
  dsimp only [Cert.Pre_finite_inputs.fn, Cert.Pre_finite_inputs.fn_part1] at h0
  obtain ⟨h1, h22⟩ := IntOp.andi_eq_one.1 h0
  obtain ⟨h2, h17⟩ := IntOp.andi_eq_one.1 h1
  obtain ⟨h3, h12⟩ := IntOp.andi_eq_one.1 h2
  obtain ⟨h4, h7⟩ := IntOp.andi_eq_one.1 h3
  exact ⟨real_of_all _ _ _ _ _ h4, real_of_all _ _ _ _ _ h7, real_of_all _ _ _ _ _ h12,
    real_of_all _ _ _ _ _ h17, real_of_all _ _ _ _ _ h22⟩

end Cert.Finite

end
-- ==== Proof.RefValue.lean ====
/-
  The reference's run read back: its result buffer holds attnR of the argument arrays.

  The reference computes, stage by stage: three projections (each a transpose of a weight followed by a contraction
  over the 2048 input features), the score contraction over the 512 head features, the product with the scale, the
  mask (column number ≥ row number, a signed comparison of two words below 2¹³, selects zero), and the contraction of
  the masked scores with the values over the 8192 keys. Read at an index, each stage is the matching piece of attnR.
-/
import proofs.«425182_j55671366091048_3_alg».proof.Proof.Gen.ReferenceIdeal.Run
import proofs.«425182_j55671366091048_3_alg».proof.Proof.Gen.ReferenceIdeal.Read
import proofs.«425182_j55671366091048_3_alg».proof.Proof.Spec
import Idealize.ShloMosaic.Lib.StableHlo.Predicate
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ### The three projections -/

/-- The query projection: x contracted with the transposed weight is proj. -/
theorem v1_eq (x0 : (⟨S8192x2048, .f32⟩ : BufTy).Contents (Elt Ideal)) (x2 : (⟨S512x2048, .f32⟩ : BufTy).Contents (Elt Ideal)) :
    val_main_v1 (F := Ideal) x0 x2 = Cert.Spec.proj x0 x2 := by
  funext j
  rw [val_main_v1_apply]
  show _ = ∑ d : Fin 2048, x0 (ix2 (j 0) d) * x2 (ix2 (j 1) d)
  refine Finset.sum_congr rfl fun k _ => ?_
  rw [val_main_v0_apply]
  have e1 : lidx_main_v1 j k = ix2 (j 0) k := funext fun a => by
    match a with
    | ⟨0, _⟩ => rfl
    | ⟨1, _⟩ => rfl
  have e2 : idx_main_v0 (ridx_main_v1 j k) = ix2 (j 1) k := funext fun a => by
    match a with
    | ⟨0, _⟩ => rfl
    | ⟨1, _⟩ => rfl
  rw [e1, e2]
  rfl

/-- The key projection. -/
theorem v3_eq (x1 : (⟨S8192x2048, .f32⟩ : BufTy).Contents (Elt Ideal)) (x3 : (⟨S512x2048, .f32⟩ : BufTy).Contents (Elt Ideal)) :
    val_main_v3 (F := Ideal) x1 x3 = Cert.Spec.proj x1 x3 := by
  funext j
  rw [val_main_v3_apply]
  show _ = ∑ d : Fin 2048, x1 (ix2 (j 0) d) * x3 (ix2 (j 1) d)
  refine Finset.sum_congr rfl fun k _ => ?_
  rw [val_main_v2_apply]
  have e1 : lidx_main_v3 j k = ix2 (j 0) k := funext fun a => by
    match a with
    | ⟨0, _⟩ => rfl
    | ⟨1, _⟩ => rfl
  have e2 : idx_main_v2 (ridx_main_v3 j k) = ix2 (j 1) k := funext fun a => by
    match a with
    | ⟨0, _⟩ => rfl
    | ⟨1, _⟩ => rfl
  rw [e1, e2]
  rfl

/-- The value projection. -/
theorem v5_eq (x1 : (⟨S8192x2048, .f32⟩ : BufTy).Contents (Elt Ideal)) (x4 : (⟨S512x2048, .f32⟩ : BufTy).Contents (Elt Ideal)) :
    val_main_v5 (F := Ideal) x1 x4 = Cert.Spec.proj x1 x4 := by
  funext j
  rw [val_main_v5_apply]
  show _ = ∑ d : Fin 2048, x1 (ix2 (j 0) d) * x4 (ix2 (j 1) d)
  refine Finset.sum_congr rfl fun k _ => ?_
  rw [val_main_v4_apply]
  have e1 : lidx_main_v5 j k = ix2 (j 0) k := funext fun a => by
    match a with
    | ⟨0, _⟩ => rfl
    | ⟨1, _⟩ => rfl
  have e2 : idx_main_v4 (ridx_main_v5 j k) = ix2 (j 1) k := funext fun a => by
    match a with
    | ⟨0, _⟩ => rfl
    | ⟨1, _⟩ => rfl
  rw [e1, e2]
  rfl

/-! ### The scores, the mask, the masked scores -/

/-- The score at (r, c): the query row r against the key row c, over the 512 head features. -/
theorem v7_eq (x0 x1 : (⟨S8192x2048, .f32⟩ : BufTy).Contents (Elt Ideal)) (x2 x3 : (⟨S512x2048, .f32⟩ : BufTy).Contents (Elt Ideal))
    (p : S8192x8192.Idx) :
    val_main_v7 (F := Ideal) x0 x1 x2 x3 p
      = ∑ f : Fin 512, Cert.Spec.proj x0 x2 (ix2 (p 0) f) * Cert.Spec.proj x1 x3 (ix2 (p 1) f) := by
  rw [val_main_v7_apply]
  refine Finset.sum_congr rfl fun k _ => ?_
  rw [val_main_v6_apply, v1_eq, v3_eq]
  have e1 : lidx_main_v7 p k = ix2 (p 0) k := funext fun a => by
    match a with
    | ⟨0, _⟩ => rfl
    | ⟨1, _⟩ => rfl
  have e2 : idx_main_v6 (ridx_main_v7 p k) = ix2 (p 1) k := funext fun a => by
    match a with
    | ⟨0, _⟩ => rfl
    | ⟨1, _⟩ => rfl
  rw [e1, e2]
  rfl

/-- The mask's bit: the signed comparison "column ≥ row" of two words below 2¹³ is the comparison of the numbers. -/
theorem mask_bit (r c : Fin 8192) :
    IntOp.cmpi .sge (BitVec.ofNat 32 c.val) (BitVec.ofNat 32 r.val) = 1#1 ↔ r.val ≤ c.val := by
  have hr := r.isLt
  have hc := c.isLt
  have tr : (BitVec.ofNat 32 r.val).toNat = r.val := by rw [BitVec.toNat_ofNat]; omega
  have tc : (BitVec.ofNat 32 c.val).toNat = c.val := by rw [BitVec.toNat_ofNat]; omega
  rw [Predicate.sge_iff_toNat (by omega) (by omega), tr, tc]

/-- A select on the mask's bit is an if on the comparison of the numbers. -/
theorem select_mask {α : Type} (r c : Fin 8192) (a b : α) :
    Scalar.select (IntOp.cmpi .sge (BitVec.ofNat 32 c.val) (BitVec.ofNat 32 r.val)) a b
      = if r.val ≤ c.val then a else b := by
  by_cases h : r.val ≤ c.val
  · rw [if_pos h, (mask_bit r c).2 h, select_one]
  · rw [if_neg h, eq_zero_of_ne_one (fun hb => h ((mask_bit r c).1 hb)), select_zero]

/-- The masked scaled score at (r, c): zero where c ≥ r, else the score times the scale. -/
theorem v17_eq (x0 x1 : (⟨S8192x2048, .f32⟩ : BufTy).Contents (Elt Ideal)) (x2 x3 : (⟨S512x2048, .f32⟩ : BufTy).Contents (Elt Ideal))
    (p : S8192x8192.Idx) :
    val_main_v17 (F := Ideal) x0 x1 x2 x3 p
      = if (p 0).val ≤ (p 1).val then (0 : EReal)
        else (∑ f : Fin 512, Cert.Spec.proj x0 x2 (ix2 (p 0) f) * Cert.Spec.proj x1 x3 (ix2 (p 1) f)) * Cert.Spec.scale := by
  rw [val_main_v17_apply, val_main_v16_apply, val_main_v14_apply, val_main_v13_apply, val_main_v12_apply,
    val_main_v15_apply, val_main_v11_apply, val_main_v10_apply, val_main_call0_v1_apply, val_main_call0_v0_apply,
    val_main_cst_0_apply, val_main_v9_apply, val_main_v8_apply, val_main_cst_apply, v7_eq]
  refine (select_mask (p 0) (p 1) _ _).trans ?_
  by_cases h : (p 0).val ≤ (p 1).val
  · rw [if_pos h, if_pos h]
    exact Ideal.ofBits_zero_f32
  · rw [if_neg h, if_neg h]
    rfl

/-! ### The result -/

/-- The reference's last stage is attnR of the five arrays. -/
theorem result_eq (x0 x1 : (⟨S8192x2048, .f32⟩ : BufTy).Contents (Elt Ideal)) (x2 x3 x4 : (⟨S512x2048, .f32⟩ : BufTy).Contents (Elt Ideal)) :
    val_main_v18 (F := Ideal) x0 x1 x2 x3 x4 = Cert.Spec.attnR x0 x1 x2 x3 x4 := by
  funext i
  rw [val_main_v18_apply]
  show _ = ∑ c : Fin 8192,
    (if (i 0).val ≤ c.val then (0 : EReal)
      else (∑ f : Fin 512, Cert.Spec.proj x0 x2 (ix2 (i 0) f) * Cert.Spec.proj x1 x3 (ix2 c f)) * Cert.Spec.scale)
      * Cert.Spec.proj x1 x4 (ix2 c (i 1))
  refine Finset.sum_congr rfl fun c _ => ?_
  rw [v17_eq, v5_eq]
  have e2 : ridx_main_v18 i c = ix2 c (i 1) := funext fun a => by
    match a with
    | ⟨0, _⟩ => rfl
    | ⟨1, _⟩ => rfl
  rw [e2]
  rfl

/-- The reference's run: every weakly fair execution ends with the result buffer at attnR of the five argument
    arrays, the arguments unchanged. -/
theorem run_attnR (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread Cert.ReferenceIdeal.nD Cert.ReferenceIdeal.τ).loc main_v18)
          = Cert.Spec.attnR (m ((c.tc : Thread Cert.ReferenceIdeal.nD Cert.ReferenceIdeal.τ).loc main_arg0))
              (m ((c.tc : Thread Cert.ReferenceIdeal.nD Cert.ReferenceIdeal.τ).loc main_arg1))
              (m ((c.tc : Thread Cert.ReferenceIdeal.nD Cert.ReferenceIdeal.τ).loc main_arg2))
              (m ((c.tc : Thread Cert.ReferenceIdeal.nD Cert.ReferenceIdeal.τ).loc main_arg3))
              (m ((c.tc : Thread Cert.ReferenceIdeal.nD Cert.ReferenceIdeal.τ).loc main_arg4))
      ∧ r.2.mem ((c.tc : Thread Cert.ReferenceIdeal.nD Cert.ReferenceIdeal.τ).loc main_arg0) = m ((c.tc : Thread Cert.ReferenceIdeal.nD Cert.ReferenceIdeal.τ).loc main_arg0)
      ∧ r.2.mem ((c.tc : Thread Cert.ReferenceIdeal.nD Cert.ReferenceIdeal.τ).loc main_arg1) = m ((c.tc : Thread Cert.ReferenceIdeal.nD Cert.ReferenceIdeal.τ).loc main_arg1)
      ∧ r.2.mem ((c.tc : Thread Cert.ReferenceIdeal.nD Cert.ReferenceIdeal.τ).loc main_arg2) = m ((c.tc : Thread Cert.ReferenceIdeal.nD Cert.ReferenceIdeal.τ).loc main_arg2)
      ∧ r.2.mem ((c.tc : Thread Cert.ReferenceIdeal.nD Cert.ReferenceIdeal.τ).loc main_arg3) = m ((c.tc : Thread Cert.ReferenceIdeal.nD Cert.ReferenceIdeal.τ).loc main_arg3)
      ∧ r.2.mem ((c.tc : Thread Cert.ReferenceIdeal.nD Cert.ReferenceIdeal.τ).loc main_arg4) = m ((c.tc : Thread Cert.ReferenceIdeal.nD Cert.ReferenceIdeal.τ).loc main_arg4) :=
  (θ_run (Cert.ReferenceIdeal.defs (F := Ideal)) _ _).mono
    (fun _ h c => ⟨((h c).1.trans (val_main_v18_eq _ _ _ _ _)).trans (result_eq _ _ _ _ _), (h c).2⟩)
    (Cert.ReferenceIdeal.Value.run (F := Ideal) m ρ)

end Cert.ReferenceIdeal.RefValue

end
-- ==== Proof.AttnData.lean ====
/-
  The third call: the causal product.  Its grid is 8 x 8; grid row g works on query tile perm(g), where
  perm = 0, 7, 1, 6, 2, 5, 3, 4 is a table the call reads; the inner coordinate j runs over the key tiles.  The body
  keeps an accumulator across the inner axis: zeroed at j = 0, the full product of the query tile with key tile j added
  for j < perm(g), the strictly-lower-triangular product for j = perm(g), nothing after; the output block is stored at
  j = 7 only.  Here: the table, the pipeline at it, the body's branch conditions, one step of the accumulator as a
  function of what it held and the three input blocks, its trajectory over the 64 grid points, and the pipeline's
  proof data (each input buffer keeps its block; the output buffer ends a grid row at the accumulator).
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝔽" => Idealize.ShloMosaic.Ideal
local notation "𝕄" => MT nD τ sig Unit (Elt 𝔽) ℕ (UR sig nD τ) ℕ

/-- The table the third call reads: the balanced order 0, 7, 1, 6, 2, 5, 3, 4 of the query tiles. -/
def tbl : pre2.Contents (Elt 𝔽) := fun | ⟨0, _⟩ => fun i => lit0 (S8.rowMajor i)

theorem tbl_ok : ok2 (F := 𝔽) tbl := by decide +kernel

def adm2 : (pcfg2 (F := 𝔽)).Adm := ⟨tbl, tbl_ok⟩

def adm : (p : Fin 3) → (pcfgs (F := 𝔽) p).Adm
  | ⟨0, _⟩ => cfg0.toPCfg_adm
  | ⟨1, _⟩ => cfg1.toPCfg_adm
  | ⟨2, _⟩ => adm2

abbrev cfgA : Pipeline.Cfg sig Λ₀ := cfg2 (F := 𝔽) adm2

/-- The scratch accumulator as a memref. -/
abbrev scM : Memref sig .tc .vmem S1024x512 .f32 := Memref.whole cc2_scratch0
/-- The table as the body is handed it. -/
abbrev tbM : Memref sig .tc .smem S8 .i32 := Memref.whole main_c

/-- The body's four branch conditions at grid coordinates i, the second and third over the table's word w. -/
abbrev isFirst (i : grid2.Coords) : Prop := Scalar.cmpi .ne (Scalar.extui (Scalar.cmpi .eq (BitVec.ofNat 32 (i 1).val) 0#32)) 0#32 = 1#1
abbrev isBelow (i : grid2.Coords) (w : BitVec 32) : Prop := Scalar.cmpi .ne (Scalar.extui (Scalar.cmpi .slt (BitVec.ofNat 32 (i 1).val) w)) 0#32 = 1#1
abbrev isDiag (i : grid2.Coords) (w : BitVec 32) : Prop := Scalar.cmpi .ne (Scalar.extui (Scalar.cmpi .eq (BitVec.ofNat 32 (i 1).val) w)) 0#32 = 1#1
abbrev isLast (i : grid2.Coords) : Prop := k2_cond4 i = 1#1

/-- The table's word the body loads at grid coordinates i: the query tile this grid row works on. -/
abbrev qtile (i : grid2.Coords) : BitVec 32 :=
  View.readAt (Elt 𝔽) tbM.view (Rect.unit (s := S8) (k2_off1 i) S1.size (k2_off1_inb i)).toLoadRect
    ((Memref.isWhole_whole main_c).unread (tbl 0)) (Shape.Idx.first (numel1_S1.symm ▸ Nat.one_pos))

/-- What one run of the body leaves in the accumulator, from what it found there (a) and the three input blocks:
    reset at the first key tile, the full product added below the diagonal tile, the masked product on it. -/
def accStep (i : grid2.Coords) (a : Vec 𝔽 S1024x512 .f32) (q k v : Vec 𝔽 S1024x512 .bf16) : Vec 𝔽 S1024x512 .f32 :=
  let s1 := if isFirst i then k2_pay1 (F := 𝔽) else a
  let s2 := if isBelow i (qtile i) then k2_pay2 q k v s1 else s1
  if isDiag i (qtile i) then k2_pay3 q k v s2 else s2

variable (V : (c : Dev nD) → (b : Ref sig .tc) → Buf (Elt 𝔽) ((c : Thread nD τ).loc b))

/-- Window w's block at grid point t, read off the array as the call finds it. -/
def ablk (c : Dev nD) (w : Fin cfgA.W) (t : Fin cfgA.N) : ((cfgA.win w).xblock (cfgA.grid.coords t)).Idx → Elt 𝔽 (cfgA.win w).elt :=
  ((cfgA.win w).blk t).view.read (Elt 𝔽) (V c (Pipeline.arrRef cfgA.spec w))

/-- The accumulator after grid points 0 .. n-1 (before point 0 a placeholder: the first point resets it). -/
def accUpTo (c : Dev nD) : ℕ → Vec 𝔽 S1024x512 .f32
  | 0 => k2_pay1 (F := 𝔽)
  | n + 1 =>
    if h : n < cfgA.N then
      accStep (cfgA.grid.coords ⟨n, h⟩) (accUpTo c n) (ablk V c 0 ⟨n, h⟩) (ablk V c 1 ⟨n, h⟩) (ablk V c 2 ⟨n, h⟩)
    else accUpTo c n

theorem accUpTo_succ (c : Dev nD) (t : Fin cfgA.N) :
    accUpTo V c (t.val + 1) = accStep (cfgA.grid.coords t) (accUpTo V c t.val) (ablk V c 0 t) (ablk V c 1 t) (ablk V c 2 t) := by
  rw [accUpTo, dif_pos t.isLt]

/-- The core's scoped buffers that are neither a staging buffer of this call nor its accumulator, each at some contents. -/
def otherScoped (c : Dev nD) : sProp 𝕄 :=
  iprop((∃ f : Buf (Elt 𝔽) ((c : Thread nD τ).loc cc0_stg0_0), ((c : Thread nD τ).loc cc0_stg0_0) ↦{fullShare} f)
      ∗ (∃ f : Buf (Elt 𝔽) ((c : Thread nD τ).loc cc0_stg0_1), ((c : Thread nD τ).loc cc0_stg0_1) ↦{fullShare} f)
      ∗ (∃ f : Buf (Elt 𝔽) ((c : Thread nD τ).loc cc0_stg1_0), ((c : Thread nD τ).loc cc0_stg1_0) ↦{fullShare} f)
      ∗ (∃ f : Buf (Elt 𝔽) ((c : Thread nD τ).loc cc0_stg2_0), ((c : Thread nD τ).loc cc0_stg2_0) ↦{fullShare} f)
      ∗ (∃ f : Buf (Elt 𝔽) ((c : Thread nD τ).loc cc0_stg2_1), ((c : Thread nD τ).loc cc0_stg2_1) ↦{fullShare} f)
      ∗ (∃ f : Buf (Elt 𝔽) ((c : Thread nD τ).loc cc1_stg0_0), ((c : Thread nD τ).loc cc1_stg0_0) ↦{fullShare} f)
      ∗ (∃ f : Buf (Elt 𝔽) ((c : Thread nD τ).loc cc1_stg0_1), ((c : Thread nD τ).loc cc1_stg0_1) ↦{fullShare} f)
      ∗ (∃ f : Buf (Elt 𝔽) ((c : Thread nD τ).loc cc1_stg1_0), ((c : Thread nD τ).loc cc1_stg1_0) ↦{fullShare} f)
      ∗ (∃ f : Buf (Elt 𝔽) ((c : Thread nD τ).loc cc1_stg2_0), ((c : Thread nD τ).loc cc1_stg2_0) ↦{fullShare} f)
      ∗ (∃ f : Buf (Elt 𝔽) ((c : Thread nD τ).loc cc1_stg3_0), ((c : Thread nD τ).loc cc1_stg3_0) ↦{fullShare} f)
      ∗ (∃ f : Buf (Elt 𝔽) ((c : Thread nD τ).loc cc1_stg3_1), ((c : Thread nD τ).loc cc1_stg3_1) ↦{fullShare} f)
      ∗ (∃ f : Buf (Elt 𝔽) ((c : Thread nD τ).loc cc1_stg4_0), ((c : Thread nD τ).loc cc1_stg4_0) ↦{fullShare} f)
      ∗ (∃ f : Buf (Elt 𝔽) ((c : Thread nD τ).loc cc1_stg4_1), ((c : Thread nD τ).loc cc1_stg4_1) ↦{fullShare} f))

/-- What the body carries between grid points: the scoped buffers it does not touch and the generator register at
    anything, the table at its contents, the accumulator at acc once some point has stored it (known). -/
def attnInv (c : Dev nD) (acc : Vec 𝔽 S1024x512 .f32) (known : Prop) : sProp 𝕄 :=
  iprop(otherScoped c ∗ (∃ r, prngReg c r) ∗ owns (c : Thread nD τ) tbM fullShare (tbl 0)
    ∗ ∃ a, ⌜known → a = acc⌝ ∗ owns (c : Thread nD τ) scM fullShare a)

/-- Per core: the arrays as found; after the body each input buffer at its block and the output buffer at the
    accumulator (what the last point of a grid row stores; elsewhere the window is idle); the invariant above with
    the accumulator's trajectory, known from the first point on. -/
def adat (c : Dev nD) : Dat τ (Elt 𝔽) Unit ℕ (UR sig nD τ) ℕ cfgA c where
  A w := V c (Pipeline.arrRef cfgA.spec w)
  after w t := match w with
    | ⟨0, _⟩ => ablk V c 0 t
    | ⟨1, _⟩ => ablk V c 1 t
    | ⟨2, _⟩ => ablk V c 2 t
    | ⟨3, _⟩ => accUpTo V c (t.val + 1)
  Φ t := attnInv c (accUpTo V c t.val) (t.val ≠ 0)
  q _ := fullShare
  owed _ := 0

theorem adat_A (c : Dev nD) (w : Fin cfgA.W) : (adat V c).A w = V c (Pipeline.arrRef cfgA.spec w) := by
  dsimp only [adat]
theorem adat_after0 (c : Dev nD) (t : Fin cfgA.N) : (adat V c).after 0 t = ablk V c 0 t := by dsimp only [adat]
theorem adat_after1 (c : Dev nD) (t : Fin cfgA.N) : (adat V c).after 1 t = ablk V c 1 t := by dsimp only [adat]
theorem adat_after2 (c : Dev nD) (t : Fin cfgA.N) : (adat V c).after 2 t = ablk V c 2 t := by dsimp only [adat]
theorem adat_after3 (c : Dev nD) (t : Fin cfgA.N) : (adat V c).after 3 t = accUpTo V c (t.val + 1) := by dsimp only [adat]
theorem adat_Φ (c : Dev nD) (t : Fin (cfgA.N + 1)) : (adat V c).Φ t = attnInv c (accUpTo V c t.val) (t.val ≠ 0) := by dsimp only [adat]

end Cert.KernelIdeal.Hand

end
-- ==== Proof.AttnFrame.lean ====
/-
  The third call's body obligation: one run of the body, whatever its four branch conditions, takes the accumulator
  from a to accStep of a and the three input blocks, leaves the inputs and the table alone, and stores the
  accumulator into the output buffer exactly when the key coordinate is the last; so at every grid point the body
  leaves each window's buffer at what the proof data says and the invariant at the next point's.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import proofs.«425182_j55671366091048_3_alg».proof.Proof.AttnData
import Idealize.ShloMosaic.Lib.Pipeline.Value
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝔽" => Idealize.ShloMosaic.Ideal
local notation "𝕄" => MT nD τ sig Unit (Elt 𝔽) ℕ (UR sig nD τ) ℕ

variable (V : (c : Dev nD) → (b : Ref sig .tc) → Buf (Elt 𝔽) ((c : Thread nD τ).loc b))

/-! ## Loading and storing a whole staging buffer -/

/-- The two zero offsets, as the constant function. -/
theorem origin2 : (![0, 0] : Fin 2 → Nat) = fun _ => 0 := funext fun a => by fin_cases a <;> rfl

section WholeBuffer

variable {Val : EltTy → Type} {sg : RefSig} {κ : Kind} {sp : Space} {S : Shape} {e : EltTy}

/-- A load of the whole buffer, through the rectangle of the buffer's own sizes at the origin, reads what the
    buffer reads. -/
theorem readAt_origin (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- A store of the whole buffer made last reads back as the stored value, whatever was stored before it and
    whatever the buffer held. -/
theorem read_store_last [∀ e, Nonempty (Val e)] (v : View sg κ sp S e) (f : v.ty.Contents Val) {off : Fin S.rank → Nat}
    (h : off = fun _ => 0) (inb : ∀ a, off a + S.size a ≤ S.size a) (p : S.Idx → Val e) (L : List (View.Piece Val S e)) :
    v.read Val (v.writes Val f ((⟨Rect.unit off S.size inb, p⟩ : View.Piece Val S e) :: L)) = p := by
  rw [View.read_writes_eq_canon v f _ (fun y => ⟨_, List.mem_cons_self, View.mem_set_unit_zero h inb y⟩),
    View.canon_cons_unit_zero h inb p L]

end WholeBuffer

/-! ## One run of the body, its four conditions decided

The body's control is four conditionals in sequence, so a run is settled once each condition is: sixteen runs, each
through the same steps. The first condition overwrites the accumulator with zeros, the second and the third load it
(what was just stored, or what it held) and the three inputs and overwrite it with the stepped value, the fourth loads
it and overwrites the output buffer with it. Every load and store is of a whole buffer, so a load after a store reads
that store's value and the last store is what the buffer holds. -/

section Runs

variable (c : Dev nD) (E : Set ℕ) (i : grid2.Coords)
  (arg3 : Memref sig .tc .vmem S1024x512 .bf16) (h3 : arg3.IsWhole) (arg4 : Memref sig .tc .vmem S1024x512 .bf16) (h4 : arg4.IsWhole)
  (arg5 : Memref sig .tc .vmem S1024x512 .bf16) (h5 : arg5.IsWhole) (arg6 : Memref sig .tc .vmem S1024x512 .f32) (h6 : arg6.IsWhole)
  (q k v : Vec 𝔽 S1024x512 .bf16) (a o : Vec 𝔽 S1024x512 .f32) (K : PUnit → sProp 𝕄)

/-- The body's triple, as a proposition of its parameters: what each of the sixteen runs proves. -/
def AttnTriple : Prop :=
  iprop(owns (c : Thread nD τ) tbM fullShare (tbl 0)
      ∗ owns (c : Thread nD τ) arg3 fullShare q ∗ owns (c : Thread nD τ) arg4 fullShare k ∗ owns (c : Thread nD τ) arg5 fullShare v
      ∗ owns (c : Thread nD τ) arg6 fullShare o ∗ owns (c : Thread nD τ) scM fullShare a
      ∗ (iprop(owns (c : Thread nD τ) tbM fullShare (tbl 0)
          ∗ owns (c : Thread nD τ) arg3 fullShare q ∗ owns (c : Thread nD τ) arg4 fullShare k ∗ owns (c : Thread nD τ) arg5 fullShare v
          ∗ owns (c : Thread nD τ) arg6 fullShare (if isLast i then accStep i a q k v else o)
          ∗ owns (c : Thread nD τ) scM fullShare (accStep i a q k v)) -∗ K ⟨⟩))
    ⊢ wp frame (wpE (defs₀ (F := 𝔽)) Variants.none c none) E
        (cc2__attn_kernel i tbM (Memref.isWhole_whole _) arg3 h3 arg4 h4 arg5 h5 arg6 h6 scM (Memref.isWhole_whole _)) K

set_option hygiene false in
/-- One run of the body with its four conditions decided (hc1 … hc4, each either way); e1 … e4 are the matching
    evaluations of the four conditionals. -/
local macro "attn_run " e1:term:max e2:term:max e3:term:max e4:term:max : tactic => `(tactic| (
  unfold AttnTriple
  simp only [cc2__attn_kernel_eq_skeleton]; unfold cc2__attn_kernel_skel
  unfold owns
  iintro ⟨⟨%fT, %hfT, HT⟩, ⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  obtain rfl := (Memref.isWhole_whole main_c).eq_unread hfT
  sl_exec (disch := first | sl_exact hc1 | sl_exact hc2 | sl_exact hc3 | sl_exact hc4)
  sl_step
  iapply Hk
  isplitl [HT]
  · iexists _; isplitr; · ipureintro; exact (Memref.isWhole_whole main_c).read_unread _
    iexact HT
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    simp only [accStep, $e1:term, $e2:term, $e3:term, $e4:term, read_store_last (S := S1024x512) _ _ origin2,
      readAt_origin (S := S1024x512) _ _ origin2, View.readCov_cons_toLoadRect]
  iexists _; isplitr
  swap; · iexact H7
  ipureintro
  sl_unfold_words
  simp only [accStep, $e1:term, $e2:term, $e3:term, read_store_last (S := S1024x512) _ _ origin2,
    readAt_origin (S := S1024x512) _ _ origin2, View.readCov_cons_toLoadRect]))

set_option maxHeartbeats 1000000 in
theorem run_tttt (hc1 : isFirst i) (hc2 : isBelow i (qtile i)) (hc3 : isDiag i (qtile i)) (hc4 : isLast i) :
    AttnTriple c E i arg3 h3 arg4 h4 arg5 h5 arg6 h6 q k v a o K := by
  attn_run (if_pos hc1) (if_pos hc2) (if_pos hc3) (if_pos hc4)

set_option maxHeartbeats 1000000 in
theorem run_tttf (hc1 : isFirst i) (hc2 : isBelow i (qtile i)) (hc3 : isDiag i (qtile i)) (hc4 : ¬ isLast i) :
    AttnTriple c E i arg3 h3 arg4 h4 arg5 h5 arg6 h6 q k v a o K := by
  attn_run (if_pos hc1) (if_pos hc2) (if_pos hc3) (if_neg hc4)

set_option maxHeartbeats 1000000 in
theorem run_ttft (hc1 : isFirst i) (hc2 : isBelow i (qtile i)) (hc3 : ¬ isDiag i (qtile i)) (hc4 : isLast i) :
    AttnTriple c E i arg3 h3 arg4 h4 arg5 h5 arg6 h6 q k v a o K := by
  attn_run (if_pos hc1) (if_pos hc2) (if_neg hc3) (if_pos hc4)

set_option maxHeartbeats 1000000 in
theorem run_ttff (hc1 : isFirst i) (hc2 : isBelow i (qtile i)) (hc3 : ¬ isDiag i (qtile i)) (hc4 : ¬ isLast i) :
    AttnTriple c E i arg3 h3 arg4 h4 arg5 h5 arg6 h6 q k v a o K := by
  attn_run (if_pos hc1) (if_pos hc2) (if_neg hc3) (if_neg hc4)

set_option maxHeartbeats 1000000 in
theorem run_tftt (hc1 : isFirst i) (hc2 : ¬ isBelow i (qtile i)) (hc3 : isDiag i (qtile i)) (hc4 : isLast i) :
    AttnTriple c E i arg3 h3 arg4 h4 arg5 h5 arg6 h6 q k v a o K := by
  attn_run (if_pos hc1) (if_neg hc2) (if_pos hc3) (if_pos hc4)

set_option maxHeartbeats 1000000 in
theorem run_tftf (hc1 : isFirst i) (hc2 : ¬ isBelow i (qtile i)) (hc3 : isDiag i (qtile i)) (hc4 : ¬ isLast i) :
    AttnTriple c E i arg3 h3 arg4 h4 arg5 h5 arg6 h6 q k v a o K := by
  attn_run (if_pos hc1) (if_neg hc2) (if_pos hc3) (if_neg hc4)

set_option maxHeartbeats 1000000 in
theorem run_tfft (hc1 : isFirst i) (hc2 : ¬ isBelow i (qtile i)) (hc3 : ¬ isDiag i (qtile i)) (hc4 : isLast i) :
    AttnTriple c E i arg3 h3 arg4 h4 arg5 h5 arg6 h6 q k v a o K := by
  attn_run (if_pos hc1) (if_neg hc2) (if_neg hc3) (if_pos hc4)

set_option maxHeartbeats 1000000 in
theorem run_tfff (hc1 : isFirst i) (hc2 : ¬ isBelow i (qtile i)) (hc3 : ¬ isDiag i (qtile i)) (hc4 : ¬ isLast i) :
    AttnTriple c E i arg3 h3 arg4 h4 arg5 h5 arg6 h6 q k v a o K := by
  attn_run (if_pos hc1) (if_neg hc2) (if_neg hc3) (if_neg hc4)

set_option maxHeartbeats 1000000 in
theorem run_fttt (hc1 : ¬ isFirst i) (hc2 : isBelow i (qtile i)) (hc3 : isDiag i (qtile i)) (hc4 : isLast i) :
    AttnTriple c E i arg3 h3 arg4 h4 arg5 h5 arg6 h6 q k v a o K := by
  attn_run (if_neg hc1) (if_pos hc2) (if_pos hc3) (if_pos hc4)

set_option maxHeartbeats 1000000 in
theorem run_fttf (hc1 : ¬ isFirst i) (hc2 : isBelow i (qtile i)) (hc3 : isDiag i (qtile i)) (hc4 : ¬ isLast i) :
    AttnTriple c E i arg3 h3 arg4 h4 arg5 h5 arg6 h6 q k v a o K := by
  attn_run (if_neg hc1) (if_pos hc2) (if_pos hc3) (if_neg hc4)

set_option maxHeartbeats 1000000 in
theorem run_ftft (hc1 : ¬ isFirst i) (hc2 : isBelow i (qtile i)) (hc3 : ¬ isDiag i (qtile i)) (hc4 : isLast i) :
    AttnTriple c E i arg3 h3 arg4 h4 arg5 h5 arg6 h6 q k v a o K := by
  attn_run (if_neg hc1) (if_pos hc2) (if_neg hc3) (if_pos hc4)

set_option maxHeartbeats 1000000 in
theorem run_ftff (hc1 : ¬ isFirst i) (hc2 : isBelow i (qtile i)) (hc3 : ¬ isDiag i (qtile i)) (hc4 : ¬ isLast i) :
    AttnTriple c E i arg3 h3 arg4 h4 arg5 h5 arg6 h6 q k v a o K := by
  attn_run (if_neg hc1) (if_pos hc2) (if_neg hc3) (if_neg hc4)

set_option maxHeartbeats 1000000 in
theorem run_fftt (hc1 : ¬ isFirst i) (hc2 : ¬ isBelow i (qtile i)) (hc3 : isDiag i (qtile i)) (hc4 : isLast i) :
    AttnTriple c E i arg3 h3 arg4 h4 arg5 h5 arg6 h6 q k v a o K := by
  attn_run (if_neg hc1) (if_neg hc2) (if_pos hc3) (if_pos hc4)

set_option maxHeartbeats 1000000 in
theorem run_fftf (hc1 : ¬ isFirst i) (hc2 : ¬ isBelow i (qtile i)) (hc3 : isDiag i (qtile i)) (hc4 : ¬ isLast i) :
    AttnTriple c E i arg3 h3 arg4 h4 arg5 h5 arg6 h6 q k v a o K := by
  attn_run (if_neg hc1) (if_neg hc2) (if_pos hc3) (if_neg hc4)

set_option maxHeartbeats 1000000 in
theorem run_ffft (hc1 : ¬ isFirst i) (hc2 : ¬ isBelow i (qtile i)) (hc3 : ¬ isDiag i (qtile i)) (hc4 : isLast i) :
    AttnTriple c E i arg3 h3 arg4 h4 arg5 h5 arg6 h6 q k v a o K := by
  attn_run (if_neg hc1) (if_neg hc2) (if_neg hc3) (if_pos hc4)

set_option maxHeartbeats 1000000 in
theorem run_ffff (hc1 : ¬ isFirst i) (hc2 : ¬ isBelow i (qtile i)) (hc3 : ¬ isDiag i (qtile i)) (hc4 : ¬ isLast i) :
    AttnTriple c E i arg3 h3 arg4 h4 arg5 h5 arg6 h6 q k v a o K := by
  attn_run (if_neg hc1) (if_neg hc2) (if_neg hc3) (if_neg hc4)

end Runs

/-- The body on whole staging memrefs: the table at its contents, the three inputs at q, k, v, the output buffer at o,
    the accumulator at a; it runs to the continuation with the inputs and the table as they were, the accumulator
    stepped, and the output buffer at the stepped accumulator when the key coordinate is the last, else as it was. -/
theorem attn_body (c : Dev nD) (E : Set ℕ) (i : grid2.Coords)
    (arg3 : Memref sig .tc .vmem S1024x512 .bf16) (h3 : arg3.IsWhole) (arg4 : Memref sig .tc .vmem S1024x512 .bf16) (h4 : arg4.IsWhole)
    (arg5 : Memref sig .tc .vmem S1024x512 .bf16) (h5 : arg5.IsWhole) (arg6 : Memref sig .tc .vmem S1024x512 .f32) (h6 : arg6.IsWhole)
    (q k v : Vec 𝔽 S1024x512 .bf16) (a o : Vec 𝔽 S1024x512 .f32) (K : PUnit → sProp 𝕄) :
    iprop(owns (c : Thread nD τ) tbM fullShare (tbl 0)
        ∗ owns (c : Thread nD τ) arg3 fullShare q ∗ owns (c : Thread nD τ) arg4 fullShare k ∗ owns (c : Thread nD τ) arg5 fullShare v
        ∗ owns (c : Thread nD τ) arg6 fullShare o ∗ owns (c : Thread nD τ) scM fullShare a
        ∗ (iprop(owns (c : Thread nD τ) tbM fullShare (tbl 0)
            ∗ owns (c : Thread nD τ) arg3 fullShare q ∗ owns (c : Thread nD τ) arg4 fullShare k ∗ owns (c : Thread nD τ) arg5 fullShare v
            ∗ owns (c : Thread nD τ) arg6 fullShare (if isLast i then accStep i a q k v else o)
            ∗ owns (c : Thread nD τ) scM fullShare (accStep i a q k v)) -∗ K ⟨⟩))
      ⊢ wp frame (wpE (defs₀ (F := 𝔽)) Variants.none c none) E
          (cc2__attn_kernel i tbM (Memref.isWhole_whole _) arg3 h3 arg4 h4 arg5 h5 arg6 h6 scM (Memref.isWhole_whole _)) K := by
  by_cases hc1 : isFirst i <;> by_cases hc2 : isBelow i (qtile i) <;> by_cases hc3 : isDiag i (qtile i) <;>
    by_cases hc4 : isLast i
  · exact run_tttt c E i arg3 h3 arg4 h4 arg5 h5 arg6 h6 q k v a o K hc1 hc2 hc3 hc4
  · exact run_tttf c E i arg3 h3 arg4 h4 arg5 h5 arg6 h6 q k v a o K hc1 hc2 hc3 hc4
  · exact run_ttft c E i arg3 h3 arg4 h4 arg5 h5 arg6 h6 q k v a o K hc1 hc2 hc3 hc4
  · exact run_ttff c E i arg3 h3 arg4 h4 arg5 h5 arg6 h6 q k v a o K hc1 hc2 hc3 hc4
  · exact run_tftt c E i arg3 h3 arg4 h4 arg5 h5 arg6 h6 q k v a o K hc1 hc2 hc3 hc4
  · exact run_tftf c E i arg3 h3 arg4 h4 arg5 h5 arg6 h6 q k v a o K hc1 hc2 hc3 hc4
  · exact run_tfft c E i arg3 h3 arg4 h4 arg5 h5 arg6 h6 q k v a o K hc1 hc2 hc3 hc4
  · exact run_tfff c E i arg3 h3 arg4 h4 arg5 h5 arg6 h6 q k v a o K hc1 hc2 hc3 hc4
  · exact run_fttt c E i arg3 h3 arg4 h4 arg5 h5 arg6 h6 q k v a o K hc1 hc2 hc3 hc4
  · exact run_fttf c E i arg3 h3 arg4 h4 arg5 h5 arg6 h6 q k v a o K hc1 hc2 hc3 hc4
  · exact run_ftft c E i arg3 h3 arg4 h4 arg5 h5 arg6 h6 q k v a o K hc1 hc2 hc3 hc4
  · exact run_ftff c E i arg3 h3 arg4 h4 arg5 h5 arg6 h6 q k v a o K hc1 hc2 hc3 hc4
  · exact run_fftt c E i arg3 h3 arg4 h4 arg5 h5 arg6 h6 q k v a o K hc1 hc2 hc3 hc4
  · exact run_fftf c E i arg3 h3 arg4 h4 arg5 h5 arg6 h6 q k v a o K hc1 hc2 hc3 hc4
  · exact run_ffft c E i arg3 h3 arg4 h4 arg5 h5 arg6 h6 q k v a o K hc1 hc2 hc3 hc4
  · exact run_ffff c E i arg3 h3 arg4 h4 arg5 h5 arg6 h6 q k v a o K hc1 hc2 hc3 hc4

/-! ## The schedule at the pinned table, decided over the 64 grid points -/

/-- A grid point is the last of its row exactly when its number is 7 modulo 8. -/
theorem isLast_iff : ∀ t : Fin cfgA.N, isLast (cfgA.grid.coords t) ↔ t.val % 8 = 7 :=
  (by decide +kernel : ∀ t : Fin cfgA.N, k2_cond4 (cfgA.grid.coords t) = 1#1 ↔ t.val % 8 = 7)

/-- The output window is not written back at a point that is not the last of its row. -/
theorem flush3_of_not_last : ∀ t : Fin cfgA.N, ¬ isLast (cfgA.grid.coords t) → (cfgA.win 3).flush t = false :=
  (by decide +kernel : ∀ t : Fin cfgA.N, ¬ (k2_cond4 (cfgA.grid.coords t) = 1#1) → (cfgA.win 3).flush t = false)

/-- The first grid point is the first of its row. -/
theorem isFirst_of_zero : ∀ t : Fin cfgA.N, t.val = 0 → isFirst (cfgA.grid.coords t) :=
  (by decide +kernel : ∀ t : Fin cfgA.N, t.val = 0 →
    Scalar.cmpi .ne (Scalar.extui (Scalar.cmpi .eq (BitVec.ofNat 32 ((cfgA.grid.coords t) 1).val) 0#32)) 0#32 = 1#1)

/-- The output window is idle exactly where the key coordinate is not the last. -/
theorem idle3_of_not_last {i : grid2.Coords} (h : ¬ isLast i) : cfgA.idle 3 i = true := by
  show (!(k2_cond4 i == 1#1)) = true
  rw [Bool.not_eq_true', beq_eq_false_iff_ne]; exact h

theorem idle3_of_last {i : grid2.Coords} (h : isLast i) : cfgA.idle 3 i = false := by
  show (!(k2_cond4 i == 1#1)) = false
  rw [show k2_cond4 i = 1#1 from h]; rfl

/-- At the first key tile the step forgets what the accumulator held. -/
theorem accStep_first {i : grid2.Coords} (hf : isFirst i) (a a' : Vec 𝔽 S1024x512 .f32) (q k v : Vec 𝔽 S1024x512 .bf16) :
    accStep i a q k v = accStep i a' q k v := by
  simp only [accStep, if_pos hf]

/-- The accumulator found at point t, the one the invariant describes from the second point on, steps to the
    trajectory's next value: at the first point the step resets it. -/
theorem accStep_found (c : Dev nD) (t : Fin cfgA.N) (a : Vec 𝔽 S1024x512 .f32) (ha : t.val ≠ 0 → a = accUpTo V c t.val) :
    accStep (cfgA.grid.coords t) a (ablk V c 0 t) (ablk V c 1 t) (ablk V c 2 t) = accUpTo V c (t.val + 1) := by
  rw [accUpTo_succ]
  by_cases h0 : t.val = 0
  · exact accStep_first (isFirst_of_zero t h0) _ _ _ _ _
  · rw [ha h0]

/-! ## The three input windows: each buffer holds its block at every point -/

theorem a_before0 (c : Dev nD) (t : Fin cfgA.N) (d) : (adat V c).before 0 t d = ablk V c 0 t :=
  ((adat V c).before_in_eq_fetched 0 rfl (fun _ => rfl) (fun _ _ _ => rfl)
    (fun t => by rw [adat_after0]; unfold Dat.blockOf ablk; rw [adat_A]) t d).trans
    (by unfold Dat.fetched Dat.blockOf ablk; rw [adat_A]; rfl)

theorem a_before1 (c : Dev nD) (t : Fin cfgA.N) (d) : (adat V c).before 1 t d = ablk V c 1 t :=
  ((adat V c).before_in_eq_fetched 1 rfl (fun _ => rfl) (fun _ _ _ => rfl)
    (fun t => by rw [adat_after1]; unfold Dat.blockOf ablk; rw [adat_A]) t d).trans
    (by unfold Dat.fetched Dat.blockOf ablk; rw [adat_A]; rfl)

theorem a_before2 (c : Dev nD) (t : Fin cfgA.N) (d) : (adat V c).before 2 t d = ablk V c 2 t :=
  ((adat V c).before_in_eq_fetched 2 rfl (fun _ => rfl) (fun _ _ _ => rfl)
    (fun t => by rw [adat_after2]; unfold Dat.blockOf ablk; rw [adat_A]) t d).trans
    (by unfold Dat.fetched Dat.blockOf ablk; rw [adat_A]; rfl)

/-! ## The body obligation at a grid point -/

/-- Window w's current staging buffer at point t. -/
abbrev st2 (w : Fin cfgA.W) (t : Fin cfgA.N) := (cfgA.win w).stage (cfgA.slots t w)

/-- The body as the pipeline calls it at point t. -/
abbrev bodyAt2 (t : Fin cfgA.N) : Prog (TpuEff nD τ sig (Elt 𝔽) Λ₀ .tc) PUnit :=
  cc2__attn_kernel (grid2.coords t) tbM (Memref.isWhole_whole _)
    (spec2_0.stage (cfgA.slots t 0)) (hstage2_0 ((cfgA.slots t 0).cast nbuf2_0))
    (spec2_1.stage (cfgA.slots t 1)) (hstage2_1 ((cfgA.slots t 1).cast nbuf2_1))
    (spec2_2.stage (cfgA.slots t 2)) (hstage2_2 ((cfgA.slots t 2).cast nbuf2_2))
    (spec2_3.stage (cfgA.slots t 3)) (hstage2_3 ((cfgA.slots t 3).cast nbuf2_3))
    scM (Memref.isWhole_whole _)

/-- What the output window's buffer is left at: the accumulator at the last point of a row, else what it held. -/
theorem leaves3 (c : Dev nD) (t : Fin cfgA.N) (a : Vec 𝔽 S1024x512 .f32) (ha : t.val ≠ 0 → a = accUpTo V c t.val) (d) :
    owns (c : Thread nD τ) (st2 3 t) fullShare
        (if isLast (cfgA.grid.coords t) then accStep (cfgA.grid.coords t) a (ablk V c 0 t) (ablk V c 1 t) (ablk V c 2 t)
          else (adat V c).before 3 t d)
      ⊢ ((adat V c).leavesExact 3 t : sProp 𝕄) := by
  by_cases hl : isLast (cfgA.grid.coords t)
  · rw [if_pos hl, accStep_found V c t a ha]
    unfold Dat.leavesExact
    rw [idle3_of_last hl, adat_after3]
  · rw [if_neg hl, (adat V c).leavesExact_idle 3 t (idle3_of_not_last hl) (flush3_of_not_last t hl)]
    iintro H; iexists d; iexact H

theorem attn_point (c : Dev nD) (t : Fin cfgA.N) :
    iprop((adat V c).Φ t.castSucc ∗ (adat V c).owesAt () t.castSucc
        ∗ (∃ d, owns (c : Thread nD τ) (st2 0 t) fullShare ((adat V c).before 0 t d))
        ∗ (∃ d, owns (c : Thread nD τ) (st2 1 t) fullShare ((adat V c).before 1 t d))
        ∗ (∃ d, owns (c : Thread nD τ) (st2 2 t) fullShare ((adat V c).before 2 t d))
        ∗ (∃ d, owns (c : Thread nD τ) (st2 3 t) fullShare ((adat V c).before 3 t d)))
      ⊢ wp frame (wpE (defs₀ (F := 𝔽)) Variants.none c none) Set.univ (bodyAt2 t) (fun _ =>
          iprop((adat V c).Φ t.succ ∗ (adat V c).owesAt () t.succ
            ∗ owns (c : Thread nD τ) (st2 0 t) fullShare ((adat V c).after 0 t)
            ∗ owns (c : Thread nD τ) (st2 1 t) fullShare ((adat V c).after 1 t)
            ∗ owns (c : Thread nD τ) (st2 2 t) fullShare ((adat V c).after 2 t)
            ∗ (adat V c).leavesExact 3 t)) := by
  unfold bodyAt2
  simp only [a_before0, a_before1, a_before2]
  rw [adat_Φ, adat_Φ, show (adat V c).owesAt () t.succ = (adat V c).owesAt () t.castSucc from rfl,
    adat_after0, adat_after1, adat_after2]
  unfold attnInv
  iintro ⟨⟨Hrest, Hreg, HT, ⟨%a, %ha, Hs⟩⟩, Howe, ⟨%d0, Hq⟩, ⟨%d1, Hk⟩, ⟨%d2, Hv⟩, ⟨%d3, Ho⟩⟩
  iapply (attn_body c Set.univ (cfgA.grid.coords t) _ _ _ _ _ _ _ _ (ablk V c 0 t) (ablk V c 1 t) (ablk V c 2 t) a
    ((adat V c).before 3 t d3) _)
  isplitl [HT]; · iexact HT
  isplitl [Hq]; · iexact Hq
  isplitl [Hk]; · iexact Hk
  isplitl [Hv]; · iexact Hv
  isplitl [Ho]; · iexact Ho
  isplitl [Hs]; · iexact Hs
  iintro ⟨HT, Hq, Hk, Hv, Ho, Hs⟩
  isplitl [Hrest Hreg HT Hs]
  · isplitl [Hrest]; · iexact Hrest
    isplitl [Hreg]; · iexact Hreg
    isplitl [HT]; · iexact HT
    iexists _; isplitr
    swap; · iexact Hs
    ipureintro; intro _
    exact accStep_found V c t a ha
  isplitl [Howe]; · iexact Howe
  isplitl [Hq]; · iexact Hq
  isplitl [Hk]; · iexact Hk
  isplitl [Hv]; · iexact Hv
  iapply (leaves3 V c t a ha d3)
  iexact Ho

/-- The body obligation of the third call at every grid point. -/
theorem attn_obligation (c : Dev nD) : BodyObligation (adat V c) (defs₀ (F := 𝔽)) Variants.none () Set.univ := fun t => by
  rw [bigSep_W2, bigSep_W2]
  exact attn_point V c t

end Cert.KernelIdeal.Hand

end
-- ==== Proof.AttnPayload.lean ====
/-
  The third call's payloads at an index, at the ideal instance.

  The body stores three values: the zero array (at the first key tile); the accumulator plus the product of the
  scores q k^T with v (a key tile below the diagonal); the same with the scores masked to the strictly lower triangle
  (the diagonal tile). At the extended reals the narrowing conversions and the same-shape casts are the identity, so at
  (r', e) the second is  s[r', e] + sum over c' of (sum over f of q[r', f] k[c', f]) v[c', e]  and the third the same
  with the inner sum replaced by zero unless c' < r'.
-/
import proofs.«425182_j55671366091048_3_alg».proof.Proof.Gen.KernelIdeal.Skeleton
import Idealize.ShloMosaic.Lib.Pipeline.Value
import Idealize.ShloMosaic.Lib.ValueIdx
import Idealize.ShloMosaic.PureOps.Ideal.Laws
import Idealize.ShloMosaic.PureOps.Ideal
import Idealize.ShloMosaic.Lib.StableHlo.Predicate

noncomputable section

namespace Cert.KernelIdeal.Hand

open Idealize.ShloMosaic Idealize.ShloMosaic.StableHlo
open Cert.KernelIdeal Cert.KernelIdeal.Gen

local notation "𝔽" => Idealize.ShloMosaic.Ideal

/-! ### The score contraction: q and k over the 512 features -/

theorem sc_lhs0 (p : S1024x1024.Idx) (k : dot_S1024x512_S1024x512_S1024x1024_1_1_0_0_n_n.contr.Idx) :
    (dot_S1024x512_S1024x512_S1024x1024_1_1_0_0_n_n.lhsIdx p k 0).val = (p 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem sc_lhs1 (p : S1024x1024.Idx) (k : dot_S1024x512_S1024x512_S1024x1024_1_1_0_0_n_n.contr.Idx) :
    (dot_S1024x512_S1024x512_S1024x1024_1_1_0_0_n_n.lhsIdx p k 1).val = (k ⟨0, by decide⟩).val :=
  dot_S1024x512_S1024x512_S1024x1024_1_1_0_0_n_n.lhsIdx_val_of_single rfl p k
theorem sc_rhs0 (p : S1024x1024.Idx) (k : dot_S1024x512_S1024x512_S1024x1024_1_1_0_0_n_n.contr.Idx) :
    (dot_S1024x512_S1024x512_S1024x1024_1_1_0_0_n_n.rhsIdx p k 0).val = (p 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem sc_rhs1 (p : S1024x1024.Idx) (k : dot_S1024x512_S1024x512_S1024x1024_1_1_0_0_n_n.contr.Idx) :
    (dot_S1024x512_S1024x512_S1024x1024_1_1_0_0_n_n.rhsIdx p k 1).val = (k ⟨0, by decide⟩).val :=
  dot_S1024x512_S1024x512_S1024x1024_1_1_0_0_n_n.rhsIdx_val_of_single rfl p k

/-- The scores at (r', c'): query row r' against key row c'. -/
theorem scores_apply (q k : FVec 𝔽 S1024x512 .bf16) (p : S1024x1024.Idx) :
    FloatOps.matmul dot_S1024x512_S1024x512_S1024x1024_1_1_0_0_n_n none q k (constant S1024x1024 .f32 0x00000000#32) p
      = ∑ f : Fin 512, q (ValueIdx.ix2 (p 0) f) * k (ValueIdx.ix2 (p 1) f) := by
  rw [Ideal.matmul_constant_zero_apply,
    ← Equiv.sum_comp (ValueIdx.contrEquiv1 dot_S1024x512_S1024x512_S1024x1024_1_1_0_0_n_n 512 rfl rfl).symm]
  refine Finset.sum_congr rfl fun f _ => ?_
  have hk := ValueIdx.contrEquiv1_symm_val dot_S1024x512_S1024x512_S1024x1024_1_1_0_0_n_n 512 rfl rfl f
  have el : dot_S1024x512_S1024x512_S1024x1024_1_1_0_0_n_n.lhsIdx p
      ((ValueIdx.contrEquiv1 dot_S1024x512_S1024x512_S1024x1024_1_1_0_0_n_n 512 rfl rfl).symm f) = ValueIdx.ix2 (p 0) f :=
    funext fun a => Fin.ext (by
      match a with
      | ⟨0, _⟩ => exact sc_lhs0 _ _
      | ⟨1, _⟩ => exact (sc_lhs1 _ _).trans hk)
  have er : dot_S1024x512_S1024x512_S1024x1024_1_1_0_0_n_n.rhsIdx p
      ((ValueIdx.contrEquiv1 dot_S1024x512_S1024x512_S1024x1024_1_1_0_0_n_n 512 rfl rfl).symm f) = ValueIdx.ix2 (p 1) f :=
    funext fun a => Fin.ext (by
      match a with
      | ⟨0, _⟩ => exact sc_rhs0 _ _
      | ⟨1, _⟩ => exact (sc_rhs1 _ _).trans hk)
  rw [el, er]
  rfl

/-! ### The value contraction: the scores and v over the tile's 1024 keys -/

theorem pv_lhs0 (j : S1024x512.Idx) (k : dot_S1024x1024_S1024x512_S1024x512_1_0_0_1_n_n.contr.Idx) :
    (dot_S1024x1024_S1024x512_S1024x512_1_0_0_1_n_n.lhsIdx j k 0).val = (j 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
theorem pv_lhs1 (j : S1024x512.Idx) (k : dot_S1024x1024_S1024x512_S1024x512_1_0_0_1_n_n.contr.Idx) :
    (dot_S1024x1024_S1024x512_S1024x512_1_0_0_1_n_n.lhsIdx j k 1).val = (k ⟨0, by decide⟩).val :=
  dot_S1024x1024_S1024x512_S1024x512_1_0_0_1_n_n.lhsIdx_val_of_single rfl j k
theorem pv_rhs0 (j : S1024x512.Idx) (k : dot_S1024x1024_S1024x512_S1024x512_1_0_0_1_n_n.contr.Idx) :
    (dot_S1024x1024_S1024x512_S1024x512_1_0_0_1_n_n.rhsIdx j k 0).val = (k ⟨0, by decide⟩).val :=
  dot_S1024x1024_S1024x512_S1024x512_1_0_0_1_n_n.rhsIdx_val_of_single rfl j k
theorem pv_rhs1 (j : S1024x512.Idx) (k : dot_S1024x1024_S1024x512_S1024x512_1_0_0_1_n_n.contr.Idx) :
    (dot_S1024x1024_S1024x512_S1024x512_1_0_0_1_n_n.rhsIdx j k 1).val = (j 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The product of a score tile P with the value tile v at (r', e). -/
theorem pv_apply (P : FVec 𝔽 S1024x1024 .bf16) (v : FVec 𝔽 S1024x512 .bf16) (j : S1024x512.Idx) :
    FloatOps.matmul dot_S1024x1024_S1024x512_S1024x512_1_0_0_1_n_n none P v (constant S1024x512 .f32 0x00000000#32) j
      = ∑ c' : Fin 1024, P (ValueIdx.ix2 (j 0) c') * v (ValueIdx.ix2 c' (j 1)) := by
  rw [Ideal.matmul_constant_zero_apply,
    ← Equiv.sum_comp (ValueIdx.contrEquiv1 dot_S1024x1024_S1024x512_S1024x512_1_0_0_1_n_n 1024 rfl rfl).symm]
  refine Finset.sum_congr rfl fun c' _ => ?_
  have hk := ValueIdx.contrEquiv1_symm_val dot_S1024x1024_S1024x512_S1024x512_1_0_0_1_n_n 1024 rfl rfl c'
  have el : dot_S1024x1024_S1024x512_S1024x512_1_0_0_1_n_n.lhsIdx j
      ((ValueIdx.contrEquiv1 dot_S1024x1024_S1024x512_S1024x512_1_0_0_1_n_n 1024 rfl rfl).symm c') = ValueIdx.ix2 (j 0) c' :=
    funext fun a => Fin.ext (by
      match a with
      | ⟨0, _⟩ => exact pv_lhs0 _ _
      | ⟨1, _⟩ => exact (pv_lhs1 _ _).trans hk)
  have er : dot_S1024x1024_S1024x512_S1024x512_1_0_0_1_n_n.rhsIdx j
      ((ValueIdx.contrEquiv1 dot_S1024x1024_S1024x512_S1024x512_1_0_0_1_n_n 1024 rfl rfl).symm c') = ValueIdx.ix2 c' (j 1) :=
    funext fun a => Fin.ext (by
      match a with
      | ⟨0, _⟩ => exact (pv_rhs0 _ _).trans hk
      | ⟨1, _⟩ => exact pv_rhs1 _ _)
  rw [el, er]
  rfl

/-! ### The diagonal tile's mask -/

/-- The mask's bit: "column < row" as a signed comparison of two words below 2¹⁰ is the comparison of the numbers. -/
theorem lt_bit (r' c' : Fin 1024) :
    IntOp.cmpi .slt (BitVec.ofNat 32 c'.val) (BitVec.ofNat 32 r'.val) = 1#1 ↔ c'.val < r'.val := by
  have hr := r'.isLt
  have hc := c'.isLt
  have tr : (BitVec.ofNat 32 r'.val).toNat = r'.val := by rw [BitVec.toNat_ofNat]; omega
  have tc : (BitVec.ofNat 32 c'.val).toNat = c'.val := by rw [BitVec.toNat_ofNat]; omega
  rw [Predicate.slt_iff_toNat (by omega) (by omega), tr, tc]

/-- A select on that bit is an if on the comparison of the numbers. -/
theorem select_lt {α : Type} (r' c' : Fin 1024) (a b : α) :
    Scalar.select (IntOp.cmpi .slt (BitVec.ofNat 32 c'.val) (BitVec.ofNat 32 r'.val)) a b
      = if c'.val < r'.val then a else b := by
  by_cases h : c'.val < r'.val
  · rw [if_pos h, (lt_bit r' c').2 h, ValueIdx.select_one]
  · rw [if_neg h, ValueIdx.eq_zero_of_ne_one (fun hb => h ((lt_bit r' c').1 hb)), ValueIdx.select_zero]

/-! ### The three payloads at an index -/

/-- The reset value is zero everywhere. -/
theorem pay1_apply (i : S1024x512.Idx) : k2_pay1 (F := 𝔽) i = (0 : EReal) := by
  unfold k2_pay1
  simp only [shapeCast_self]
  exact Ideal.ofBits_zero_f32

/-- Below the diagonal: the accumulator plus the tile's full product. -/
theorem pay2_apply (q k v : Vec 𝔽 S1024x512 .bf16) (s : Vec 𝔽 S1024x512 .f32) (r' : Fin 1024) (e : Fin 512) :
    k2_pay2 (F := 𝔽) q k v s (ValueIdx.ix2 r' e)
      = s (ValueIdx.ix2 r' e)
        + ∑ c' : Fin 1024, (∑ f : Fin 512, q (ValueIdx.ix2 r' f) * k (ValueIdx.ix2 c' f)) * v (ValueIdx.ix2 c' e) := by
  unfold k2_pay2
  simp only [shapeCast_self]
  show (s (ValueIdx.ix2 r' e) : EReal) + FloatOps.matmul (F := 𝔽) dot_S1024x1024_S1024x512_S1024x512_1_0_0_1_n_n none
      (truncf (F := 𝔽) .bf16 (matmul (F := 𝔽) (φ₁ := .bf16) (φ₂ := .bf16) dot_S1024x512_S1024x512_S1024x1024_1_1_0_0_n_n none q k (constant (F := 𝔽) S1024x1024 .f32 0x00000000#32)) bitsLt_bf16_f32)
      v (constant (F := 𝔽) S1024x512 .f32 0x00000000#32) (ValueIdx.ix2 r' e) = _
  rw [pv_apply]
  refine congrArg (s (ValueIdx.ix2 r' e) + ·) (Finset.sum_congr rfl fun c' _ => ?_)
  show (FloatOps.matmul (F := 𝔽) (φ₁ := .bf16) (φ₂ := .bf16) dot_S1024x512_S1024x512_S1024x1024_1_1_0_0_n_n none q k (constant (F := 𝔽) S1024x1024 .f32 0x00000000#32) (ValueIdx.ix2 r' c') : EReal)
      * v (ValueIdx.ix2 c' e) = _
  rw [scores_apply]

/-- On the diagonal: the accumulator plus the product of the scores kept only where c' < r'. -/
theorem pay3_apply (q k v : Vec 𝔽 S1024x512 .bf16) (s : Vec 𝔽 S1024x512 .f32) (r' : Fin 1024) (e : Fin 512) :
    k2_pay3 (F := 𝔽) q k v s (ValueIdx.ix2 r' e)
      = s (ValueIdx.ix2 r' e)
        + ∑ c' : Fin 1024, (if c'.val < r'.val then (∑ f : Fin 512, q (ValueIdx.ix2 r' f) * k (ValueIdx.ix2 c' f)) else (0 : EReal))
            * v (ValueIdx.ix2 c' e) := by
  unfold k2_pay3
  simp only [shapeCast_self]
  show (s (ValueIdx.ix2 r' e) : EReal) + FloatOps.matmul (F := 𝔽) dot_S1024x1024_S1024x512_S1024x512_1_0_0_1_n_n none
      (truncf (F := 𝔽) .bf16 (select (cmpi .slt (iota .tc S1024x1024 32 [1] iota_S1024x1024_d1_w32) (iota .tc S1024x1024 32 [0] iota_S1024x1024_d0_w32))
        (matmul (F := 𝔽) (φ₁ := .bf16) (φ₂ := .bf16) dot_S1024x512_S1024x512_S1024x1024_1_1_0_0_n_n none q k (constant (F := 𝔽) S1024x1024 .f32 0x00000000#32))
        (broadcast S1024x1024 (Scalar.ofBits (F := 𝔽) .f32 0x00000000#32))) bitsLt_bf16_f32)
      v (constant (F := 𝔽) S1024x512 .f32 0x00000000#32) (ValueIdx.ix2 r' e) = _
  rw [pv_apply]
  refine congrArg (s (ValueIdx.ix2 r' e) + ·) (Finset.sum_congr rfl fun c' _ => ?_)
  show (Scalar.select (IntOp.cmpi .slt (iota .tc S1024x1024 32 [1] iota_S1024x1024_d1_w32 (ValueIdx.ix2 r' c'))
        (iota .tc S1024x1024 32 [0] iota_S1024x1024_d0_w32 (ValueIdx.ix2 r' c')))
      (FloatOps.matmul (F := 𝔽) (φ₁ := .bf16) (φ₂ := .bf16) dot_S1024x512_S1024x512_S1024x1024_1_1_0_0_n_n none q k (constant (F := 𝔽) S1024x1024 .f32 0x00000000#32) (ValueIdx.ix2 r' c'))
      (Ideal.ofBits .f32 0x00000000#32) : EReal) * v (ValueIdx.ix2 c' e) = _
  rw [iota_single_apply, iota_single_apply, scores_apply, Ideal.ofBits_zero_f32]
  exact congrArg (· * v (ValueIdx.ix2 c' e)) (select_lt r' c' _ _)

end Cert.KernelIdeal.Hand

end
-- ==== Proof.AttnBlocks.lean ====
/-
  The third call's schedule and blocks, decided once over its 64 grid points.

  Grid point t is grid row g = t / 8 at key tile j = t % 8; row g works on query tile perm(g), perm = 0, 7, 1, 6, 2, 5,
  3, 4. Here: the write-back points of the output window (j = 7), the body's three branch conditions as comparisons of
  j with perm(g), each window's block index (query and output: perm(g); key and value: min(perm(g), j)), and each
  input block read at an index as an entry of the array it is cut from.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import proofs.«425182_j55671366091048_3_alg».proof.Proof.AttnData
import proofs.«425182_j55671366091048_3_alg».proof.Proof.Spec
import Idealize.ShloMosaic.Lib.Pipeline.Value
import Idealize.ShloMosaic.Lib.WholeRead
import Idealize.ShloMosaic.Lib.ValueIdx
import Idealize.ShloMosaic.PureOps.Ideal.Laws
import Idealize.ShloMosaic.PureOps.Ideal
import Idealize.ShloMosaic.Lib.Tactic

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

local notation "𝔽" => Idealize.ShloMosaic.Ideal

variable (V : (c : Dev nD) → (b : Ref sig .tc) → Buf (Elt 𝔽) ((c : Thread nD τ).loc b))

/-! ### The order of the query tiles -/

/-- The query tile of grid row g. -/
def permN : ℕ → ℕ
  | 0 => 0 | 1 => 7 | 2 => 1 | 3 => 6 | 4 => 2 | 5 => 5 | 6 => 3 | 7 => 4 | _ => 0

/-- The grid row of query tile p. -/
def invN : ℕ → ℕ
  | 0 => 0 | 7 => 1 | 1 => 2 | 6 => 3 | 2 => 4 | 5 => 5 | 3 => 6 | 4 => 7 | _ => 0

theorem permN_le (g : ℕ) : permN g ≤ 7 := by
  unfold permN
  split <;> omega

theorem invN_lt (p : ℕ) : invN p < 8 := by
  unfold invN
  split <;> omega

theorem permN_invN (p : ℕ) (hp : p < 8) : permN (invN p) = p := by
  have : p = 0 ∨ p = 1 ∨ p = 2 ∨ p = 3 ∨ p = 4 ∨ p = 5 ∨ p = 6 ∨ p = 7 := by omega
  rcases this with rfl | rfl | rfl | rfl | rfl | rfl | rfl | rfl <;> rfl

/-! ### Decided over the grid -/

theorem N_A : cfgA.N = 64 := by decide +kernel

/-- The output block is written back at the last key tile of each grid row. -/
theorem flush3 : ∀ t : Fin cfgA.N, (cfgA.win 3).flush t = true ↔ t.val % 8 = 7 :=
  (by decide +kernel : ∀ t : Fin cfgA.N, (cfgA.win 3).flush t = true ↔ t.val % 8 = 7)

/-- The accumulator is reset at the first key tile of each grid row. -/
theorem first_iff : ∀ t : Fin cfgA.N, isFirst (cfgA.grid.coords t) ↔ t.val % 8 = 0 :=
  (by decide +kernel : ∀ t : Fin cfgA.N, isFirst (cfgA.grid.coords t) ↔ t.val % 8 = 0)

/-- The table's entry the body loads at grid coordinates i. -/
def qword (i : grid2.Coords) : BitVec 32 :=
  tbl 0 ((Rect.unit (s := S8) (k2_off1 i) S1.size (k2_off1_inb i)).toLoadRect.idx (Shape.Idx.first (numel1_S1.symm ▸ Nat.one_pos)))

/-- The word the body loads from the table held at its contents is that entry. -/
theorem qtile_eq (i : grid2.Coords) : qtile i = qword i :=
  Memref.IsWhole.readAt_unread (Memref.isWhole_whole main_c) (tbl 0) _ _

theorem below_word : ∀ t : Fin cfgA.N, isBelow (cfgA.grid.coords t) (qword (cfgA.grid.coords t)) ↔ t.val % 8 < permN (t.val / 8) :=
  (by decide +kernel : ∀ t : Fin cfgA.N, isBelow (cfgA.grid.coords t) (qword (cfgA.grid.coords t)) ↔ t.val % 8 < permN (t.val / 8))

theorem diag_word : ∀ t : Fin cfgA.N, isDiag (cfgA.grid.coords t) (qword (cfgA.grid.coords t)) ↔ t.val % 8 = permN (t.val / 8) :=
  (by decide +kernel : ∀ t : Fin cfgA.N, isDiag (cfgA.grid.coords t) (qword (cfgA.grid.coords t)) ↔ t.val % 8 = permN (t.val / 8))

/-- The full product is added at the key tiles before the query tile's own. -/
theorem below_iff (t : Fin cfgA.N) : isBelow (cfgA.grid.coords t) (qtile (cfgA.grid.coords t)) ↔ t.val % 8 < permN (t.val / 8) := by
  rw [qtile_eq]
  exact below_word t

/-- The masked product is added at the query tile's own key tile. -/
theorem diag_iff (t : Fin cfgA.N) : isDiag (cfgA.grid.coords t) (qtile (cfgA.grid.coords t)) ↔ t.val % 8 = permN (t.val / 8) := by
  rw [qtile_eq]
  exact diag_word t

/-- The query window's block index. -/
theorem index0 : ∀ t : Fin cfgA.N, (cfgA.win 0).index t 0 = permN (t.val / 8) ∧ (cfgA.win 0).index t 1 = 0 :=
  (by decide +kernel : ∀ t : Fin cfgA.N, (cfgA.win 0).index t 0 = permN (t.val / 8) ∧ (cfgA.win 0).index t 1 = 0)

/-- The key window's block index. -/
theorem index1 : ∀ t : Fin cfgA.N, (cfgA.win 1).index t 0 = min (permN (t.val / 8)) (t.val % 8) ∧ (cfgA.win 1).index t 1 = 0 :=
  (by decide +kernel : ∀ t : Fin cfgA.N, (cfgA.win 1).index t 0 = min (permN (t.val / 8)) (t.val % 8) ∧ (cfgA.win 1).index t 1 = 0)

/-- The value window's block index. -/
theorem index2 : ∀ t : Fin cfgA.N, (cfgA.win 2).index t 0 = min (permN (t.val / 8)) (t.val % 8) ∧ (cfgA.win 2).index t 1 = 0 :=
  (by decide +kernel : ∀ t : Fin cfgA.N, (cfgA.win 2).index t 0 = min (permN (t.val / 8)) (t.val % 8) ∧ (cfgA.win 2).index t 1 = 0)

/-- The output window's block index. -/
theorem index3 : ∀ t : Fin cfgA.N, (cfgA.win 3).index t 0 = permN (t.val / 8) ∧ (cfgA.win 3).index t 1 = 0 :=
  (by decide +kernel : ∀ t : Fin cfgA.N, (cfgA.win 3).index t 0 = permN (t.val / 8) ∧ (cfgA.win 3).index t 1 = 0)

/-! ### Rows of the whole arrays -/

/-- Row r' of grid row g's query tile, as a row of the whole query axis. -/
def row (g : ℕ) (r' : Fin 1024) : Fin 8192 := ⟨1024 * permN g + r'.val, by have := permN_le g; have := r'.isLt; omega⟩

theorem row_div (g : ℕ) (r' : Fin 1024) : (row g r').val / 1024 = permN g := by
  have := r'.isLt
  show (1024 * permN g + r'.val) / 1024 = permN g
  omega

theorem row_mod (g : ℕ) (r' : Fin 1024) : (row g r').val % 1024 = r'.val := by
  have := r'.isLt
  show (1024 * permN g + r'.val) % 1024 = r'.val
  omega

/-! ### The input blocks at an index -/

/-- The query block at grid point t, row r': row r' of query tile perm(t / 8). -/
theorem ablk0_apply (c : Dev nD) (t : Fin cfgA.N) (r' : Fin 1024) (f : Fin 512) :
    ablk V c 0 t (ValueIdx.ix2 r' f) = V c main_v3 (ValueIdx.ix2 (row (t.val / 8) r') f) := by
  obtain ⟨h0, h1⟩ := index0 t
  show V c main_v3 (((cfgA.win 0).blk t).view.emb (ValueIdx.ix2 r' f)) = _
  refine congrArg (V c main_v3) (funext fun a => Fin.ext ?_)
  match a with
  | ⟨0, _⟩ =>
    show (cfgA.win 0).index t 0 * 1024 + 1 * r'.val = 1024 * permN (t.val / 8) + r'.val
    rw [h0]; omega
  | ⟨1, _⟩ =>
    show (cfgA.win 0).index t 1 * 512 + 1 * f.val = f.val
    rw [h1]; omega

/-- The key block at grid point t, when its block index is key tile jj: row c' of the block is key col jj c'. -/
theorem ablk1_apply (c : Dev nD) (t : Fin cfgA.N) (jj : Fin 8) (hjj : min (permN (t.val / 8)) (t.val % 8) = jj.val)
    (c' : Fin 1024) (f : Fin 512) :
    ablk V c 1 t (ValueIdx.ix2 c' f) = V c main_v4_0 (ValueIdx.ix2 (Cert.Spec.col jj c') f) := by
  obtain ⟨h0, h1⟩ := index1 t
  show V c main_v4_0 (((cfgA.win 1).blk t).view.emb (ValueIdx.ix2 c' f)) = _
  refine congrArg (V c main_v4_0) (funext fun a => Fin.ext ?_)
  match a with
  | ⟨0, _⟩ =>
    show (cfgA.win 1).index t 0 * 1024 + 1 * c'.val = 1024 * jj.val + c'.val
    rw [h0, hjj]; omega
  | ⟨1, _⟩ =>
    show (cfgA.win 1).index t 1 * 512 + 1 * f.val = f.val
    rw [h1]; omega

/-- The value block at grid point t, likewise. -/
theorem ablk2_apply (c : Dev nD) (t : Fin cfgA.N) (jj : Fin 8) (hjj : min (permN (t.val / 8)) (t.val % 8) = jj.val)
    (c' : Fin 1024) (e : Fin 512) :
    ablk V c 2 t (ValueIdx.ix2 c' e) = V c main_v4_1 (ValueIdx.ix2 (Cert.Spec.col jj c') e) := by
  obtain ⟨h0, h1⟩ := index2 t
  show V c main_v4_1 (((cfgA.win 2).blk t).view.emb (ValueIdx.ix2 c' e)) = _
  refine congrArg (V c main_v4_1) (funext fun a => Fin.ext ?_)
  match a with
  | ⟨0, _⟩ =>
    show (cfgA.win 2).index t 0 * 1024 + 1 * c'.val = 1024 * jj.val + c'.val
    rw [h0, hjj]; omega
  | ⟨1, _⟩ =>
    show (cfgA.win 2).index t 1 * 512 + 1 * e.val = e.val
    rw [h1]; omega

end Cert.KernelIdeal.Hand

end
-- ==== Proof.AttnValue.lean ====
/-
  What the third call leaves in its output array, at the ideal instance: for every query row r and column e the
  accumulator of r's grid row after its 8 key tiles, which is Spec.attnTiles of the three arrays the call reads.

  Grid point t = 8 g + j works on query tile p = perm(g) and key tile j. Its run of the body leaves, from what the
  reset leaves (zero at j = 0, else what the previous point left), that plus the full product of the tile's rows with
  key tile j when j < p, plus the strictly-lower-triangular product when j = p, and unchanged when j > p: the step of
  Spec.accTiles at whole-array row 1024 p + r'. So after point t row r' holds accTiles (1024 p + r') e (j + 1), by
  induction along the grid (a grid row's first point never reads what came before). The output block of grid row g is
  written back at j = 7, at block row perm(g); perm is onto, so these eight blocks cover the array.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import proofs.«425182_j55671366091048_3_alg».proof.Proof.AttnData
import proofs.«425182_j55671366091048_3_alg».proof.Proof.AttnPayload
import proofs.«425182_j55671366091048_3_alg».proof.Proof.AttnBlocks
import proofs.«425182_j55671366091048_3_alg».proof.Proof.Spec
import Idealize.ShloMosaic.Lib.Pipeline.Value
import Idealize.ShloMosaic.Lib.ValueIdx
import Idealize.ShloMosaic.PureOps.Ideal.Laws
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝔽" => Idealize.ShloMosaic.Ideal
local notation "𝕄" => MT nD τ sig Unit (Elt 𝔽) ℕ (UR sig nD τ) ℕ

variable (V : (c : Dev nD) → (b : Ref sig .tc) → Buf (Elt 𝔽) ((c : Thread nD τ).loc b))

/-! ### One step -/

/-- One run of the body, written out: the three conditions choose among the payloads. -/
theorem accStep_eq (i : grid2.Coords) (a : Vec 𝔽 S1024x512 .f32) (q k v : Vec 𝔽 S1024x512 .bf16) :
    accStep i a q k v
      = if isDiag i (qtile i) then
          k2_pay3 q k v (if isBelow i (qtile i) then k2_pay2 q k v (if isFirst i then k2_pay1 (F := 𝔽) else a)
            else (if isFirst i then k2_pay1 (F := 𝔽) else a))
        else (if isBelow i (qtile i) then k2_pay2 q k v (if isFirst i then k2_pay1 (F := 𝔽) else a)
            else (if isFirst i then k2_pay1 (F := 𝔽) else a)) := rfl

/-- One step of the tiled accumulator. -/
theorem accTiles_succ (qs kk vv : Cert.Spec.SO.Idx → EReal) (r : Fin 8192) (e : Fin 512) (n : ℕ) (h : n < 8) :
    Cert.Spec.accTiles qs kk vv r e (n + 1)
      = if n < r.val / 1024 then Cert.Spec.accTiles qs kk vv r e n + Cert.Spec.tileFull qs kk vv ⟨n, h⟩ r e
        else if n = r.val / 1024 then Cert.Spec.accTiles qs kk vv r e n + Cert.Spec.tileDiag qs kk vv ⟨n, h⟩ r e
        else Cert.Spec.accTiles qs kk vv r e n := by
  rw [Cert.Spec.accTiles, dif_pos h]

/-- The step at grid point t: if the accumulator found there is, row by row, the tiled accumulator after t % 8 key
    tiles (asked only when the point does not reset it), the body leaves the tiled accumulator after t % 8 + 1. -/
theorem step (c : Dev nD) (t : Fin cfgA.N) (a : Vec 𝔽 S1024x512 .f32)
    (ha : t.val % 8 ≠ 0 → ∀ (r' : Fin 1024) (e : Fin 512), a (ValueIdx.ix2 r' e)
      = Cert.Spec.accTiles (V c main_v3) (V c main_v4_0) (V c main_v4_1) (row (t.val / 8) r') e (t.val % 8))
    (r' : Fin 1024) (e : Fin 512) :
    accStep (cfgA.grid.coords t) a (ablk V c 0 t) (ablk V c 1 t) (ablk V c 2 t) (ValueIdx.ix2 r' e)
      = Cert.Spec.accTiles (V c main_v3) (V c main_v4_0) (V c main_v4_1) (row (t.val / 8) r') e (t.val % 8 + 1) := by
  have hj : t.val % 8 < 8 := Nat.mod_lt _ (by decide)
  have hp := permN_le (t.val / 8)
  rw [accStep_eq]
  have hs1 : ∀ (r' : Fin 1024) (e : Fin 512),
      (if isFirst (cfgA.grid.coords t) then k2_pay1 (F := 𝔽) else a) (ValueIdx.ix2 r' e)
        = Cert.Spec.accTiles (V c main_v3) (V c main_v4_0) (V c main_v4_1) (row (t.val / 8) r') e (t.val % 8) := by
    intro r' e
    by_cases hf : t.val % 8 = 0
    · rw [if_pos ((first_iff t).2 hf), pay1_apply, hf]
      rfl
    · rw [if_neg (fun h => hf ((first_iff t).1 h))]
      exact ha hf r' e
  generalize (if isFirst (cfgA.grid.coords t) then k2_pay1 (F := 𝔽) else a) = s1 at hs1 ⊢
  rw [accTiles_succ _ _ _ _ _ _ hj, row_div]
  by_cases hb : t.val % 8 < permN (t.val / 8)
  · have hd : ¬t.val % 8 = permN (t.val / 8) := by omega
    have hjj : min (permN (t.val / 8)) (t.val % 8) = (⟨t.val % 8, hj⟩ : Fin 8).val := by
      show min (permN (t.val / 8)) (t.val % 8) = t.val % 8
      omega
    rw [if_neg (fun h => hd ((diag_iff t).1 h)), if_pos ((below_iff t).2 hb), if_pos hb]
    refine (pay2_apply _ _ _ s1 r' e).trans ?_
    rw [hs1]
    refine congrArg (_ + ·) (Finset.sum_congr rfl fun c' _ => ?_)
    rw [ablk2_apply V c t ⟨t.val % 8, hj⟩ hjj c' e]
    refine congrArg (· * _) (Finset.sum_congr rfl fun f _ => ?_)
    rw [ablk0_apply V c t r' f, ablk1_apply V c t ⟨t.val % 8, hj⟩ hjj c' f]
  · rw [if_neg (fun h => hb ((below_iff t).1 h))]
    by_cases hd : t.val % 8 = permN (t.val / 8)
    · have hjj : min (permN (t.val / 8)) (t.val % 8) = (⟨t.val % 8, hj⟩ : Fin 8).val := by
        show min (permN (t.val / 8)) (t.val % 8) = t.val % 8
        omega
      rw [if_pos ((diag_iff t).2 hd), if_neg hb, if_pos hd]
      refine (pay3_apply _ _ _ s1 r' e).trans ?_
      rw [hs1]
      refine congrArg (_ + ·) (Finset.sum_congr rfl fun c' _ => ?_)
      rw [ablk2_apply V c t ⟨t.val % 8, hj⟩ hjj c' e, row_mod]
      refine congrArg (· * _) ?_
      by_cases hc : c'.val < r'.val
      · rw [if_pos hc, if_pos hc]
        refine Finset.sum_congr rfl fun f _ => ?_
        rw [ablk0_apply V c t r' f, ablk1_apply V c t ⟨t.val % 8, hj⟩ hjj c' f]
      · rw [if_neg hc, if_neg hc]
    · rw [if_neg (fun h => hd ((diag_iff t).1 h)), if_neg hb, if_neg hd]
      exact hs1 r' e

/-! ### Along the grid -/

/-- After grid point n, row r' of the accumulator is the tiled accumulator of whole-array row 1024 perm(n / 8) + r'
    after n % 8 + 1 key tiles. -/
theorem acc_at (c : Dev nD) : ∀ (n : ℕ) (h : n < cfgA.N) (r' : Fin 1024) (e : Fin 512),
    accUpTo V c (n + 1) (ValueIdx.ix2 r' e)
      = Cert.Spec.accTiles (V c main_v3) (V c main_v4_0) (V c main_v4_1) (row (n / 8) r') e (n % 8 + 1)
  | 0, h, r', e => by
    rw [accUpTo_succ V c ⟨0, h⟩]
    exact step V c ⟨0, h⟩ _ (fun hne => absurd rfl hne) r' e
  | n + 1, h, r', e => by
    rw [accUpTo_succ V c ⟨n + 1, h⟩]
    refine step V c ⟨n + 1, h⟩ _ (fun hne r'' e' => ?_) r' e
    have ih := acc_at c n (Nat.lt_of_succ_lt h) r'' e'
    have hne' : (n + 1) % 8 ≠ 0 := hne
    have e1 : n / 8 = (n + 1) / 8 := by omega
    have e2 : n % 8 + 1 = (n + 1) % 8 := by omega
    rw [e1, e2] at ih
    exact ih

/-! ### The output array -/

/-- What a writing-back point writes is its block of the tiled result. -/
theorem flushed3_eq (c : Dev nD) (t : Fin cfgA.N) (hf : (cfgA.win 3).flush t = true) :
    (adat V c).flushed 3 t
      = ((cfgA.win 3).blk t).view.read (Elt 𝔽) (Cert.Spec.attnTiles (V c main_v3) (V c main_v4_0) (V c main_v4_1)) := by
  have h7 := (flush3 t).1 hf
  obtain ⟨h0, h1⟩ := index3 t
  funext y
  show (adat V c).after 3 t ((cfgA.win 3).xinj (cfgA.grid.coords t) y)
    = Cert.Spec.attnTiles (V c main_v3) (V c main_v4_0) (V c main_v4_1) (((cfgA.win 3).blk t).view.emb y)
  rw [adat_after3]
  have hy0 : (y 0).val < 1024 := (y 0).isLt
  have hy1 : (y 1).val < 512 := (y 1).isLt
  have hy : (cfgA.win 3).xinj (cfgA.grid.coords t) y = ValueIdx.ix2 (⟨(y 0).val, hy0⟩ : Fin 1024) (⟨(y 1).val, hy1⟩ : Fin 512) :=
    funext fun a => by
      match a with
      | ⟨0, _⟩ => rfl
      | ⟨1, _⟩ => rfl
  have he : ((cfgA.win 3).blk t).view.emb y
      = ValueIdx.ix2 (row (t.val / 8) ⟨(y 0).val, hy0⟩) (⟨(y 1).val, hy1⟩ : Fin 512) :=
    funext fun a => Fin.ext (by
      match a with
      | ⟨0, _⟩ =>
        show (cfgA.win 3).index t 0 * 1024 + 1 * (y 0).val = 1024 * permN (t.val / 8) + (y 0).val
        rw [h0]; omega
      | ⟨1, _⟩ =>
        show (cfgA.win 3).index t 1 * 512 + 1 * (y 1).val = (y 1).val
        rw [h1]; omega)
  rw [hy, he, acc_at V c t.val t.isLt, h7]
  rfl

/-- Every entry of the output array lies in the block some writing-back point writes. -/
theorem cover3 (i : Cert.Spec.SO.Idx) :
    ∃ t : Fin cfgA.N, (cfgA.win 3).flush t = true ∧ i ∈ ((cfgA.win 3).blk t).view.set := by
  have hi0 : (i 0).val < 8192 := ValueIdx.idx2_lt0 i
  have hi1 : (i 1).val < 512 := ValueIdx.idx2_lt1 i
  have hp : (i 0).val / 1024 < 8 := by omega
  have hg := invN_lt ((i 0).val / 1024)
  have hpi := permN_invN ((i 0).val / 1024) hp
  obtain ⟨t, ht⟩ : ∃ t : Fin cfgA.N, t.val = 8 * invN ((i 0).val / 1024) + 7 :=
    ⟨⟨8 * invN ((i 0).val / 1024) + 7, by rw [N_A]; omega⟩, rfl⟩
  have hq : t.val / 8 = invN ((i 0).val / 1024) := by omega
  obtain ⟨h0, h1⟩ := index3 t
  rw [hq, hpi] at h0
  refine ⟨t, (flush3 t).2 (by omega), ?_⟩
  show i ∈ ((View.whole main_v5).slice ((cfgA.win 3).rect t)).set
  rw [View.set_slice_whole, Rect.mem_set_unit]
  intro a
  match a with
  | ⟨0, _⟩ =>
    show (cfgA.win 3).index t 0 * 1024 ≤ (i 0).val ∧ (i 0).val < (cfgA.win 3).index t 0 * 1024 + 1024
    rw [h0]; omega
  | ⟨1, _⟩ =>
    show (cfgA.win 3).index t 1 * 512 ≤ (i 1).val ∧ (i 1).val < (cfgA.win 3).index t 1 * 512 + 512
    rw [h1]; omega

/-- The output array after the 64 grid points. -/
theorem out_array (c : Dev nD) :
    (adat V c).arrAt 3 cfgA.N = Cert.Spec.attnTiles (V c main_v3) (V c main_v4_0) (V c main_v4_1) :=
  (adat V c).arrAt_eq_of_cover 3 _ (flushed3_eq V c) (fun i => cover3 i)

end Cert.KernelIdeal.Hand

end
-- ==== Proof.ProjFrame.lean ====
/-
  The two projection calls (Q, scaled; K and V, fused) as pipelines over a grid of 16 row blocks: what each
  grid point leaves in every window's staging buffer, and that the kernel body, run at a point on the blocks
  the pipeline hands it, leaves exactly that.  An input window keeps its block; the output window of the Q call
  ends at the body's one stored value, the scaled product of the row block with the whole weight; the two output
  windows of the K/V call at their two stored products.  Stated at any entry contents V of the core's buffers and
  at any float instance.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loading and storing a whole staging buffer -/

/-- The two zero offsets, as the constant function. -/
theorem origin2 : (![0, 0] : Fin 2 → Nat) = fun _ => 0 := funext fun a => by fin_cases a <;> rfl

section WholeBuffer

variable {Val : EltTy → Type} {sg : RefSig} {κ : Kind} {sp : Space} {S : Shape} {e : EltTy}

/-- A load of the whole buffer, through the rectangle of the buffer's own sizes at the origin, reads what the
    buffer reads. -/
theorem readAt_origin (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- One store of the whole buffer, over whatever it held, reads back as the stored value. -/
theorem read_store_origin [∀ e, Nonempty (Val e)] (v : View sg κ sp S e) (f : v.ty.Contents Val) {off : Fin S.rank → Nat}
    (h : off = fun _ => 0) (inb : ∀ a, off a + S.size a ≤ S.size a) (p : S.Idx → Val e) :
    v.read Val (v.writes Val f [(⟨Rect.unit off S.size inb, p⟩ : View.Piece Val S e)]) = p := by
  rw [View.read_writes_eq_canon v f _ (fun y => ⟨_, List.mem_singleton_self _, View.mem_set_unit_zero h inb y⟩),
    View.canon_unit_zero h inb p]

end WholeBuffer

/-! ## The Q projection (pipeline 0) -/

/-- Window w's block at grid point t, read off the array as the call finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Per core: the arrays as found; after the body each input buffer at its block, the output buffer at the
    scaled product of the two input blocks; nothing carried between points. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qblk V c 1 t
    | ⟨2, _⟩ => k0_pay1 (qblk V c 0 t) (qblk V c 1 t)
  Φ _ := Pipeline.ΦA spec0 c
  q _ := fullShare
  owed _ := 0

theorem qdat_A (c : Dev nD) (w : Fin cfg0.W) : (qdat V c).A w = V c (Pipeline.arrRef spec0 w) := by
  dsimp only [qdat]
theorem qdat_after0 (c : Dev nD) (t : Fin cfg0.N) : (qdat V c).after 0 t = qblk V c 0 t := by dsimp only [qdat]
theorem qdat_after1 (c : Dev nD) (t : Fin cfg0.N) : (qdat V c).after 1 t = qblk V c 1 t := by dsimp only [qdat]
theorem qdat_after2 (c : Dev nD) (t : Fin cfg0.N) : (qdat V c).after 2 t = k0_pay1 (qblk V c 0 t) (qblk V c 1 t) := by dsimp only [qdat]

set_option maxHeartbeats 1000000 in
/-- The Q kernel on any three whole buffers: from the row block x, the weight w and the output buffer at anything,
    it runs to its return with x and w as they were and the output at the scaled product of x and w: its two input
    loads read the buffers whole, the load of the output is unused, and its one store overwrites the output whole. -/
theorem q_body (c : Dev nD) (E : Set ℕ) (i : grid0.Coords)
    (xs : Memref sig .tc .vmem S512x2048 .f32) (hxs : xs.IsWhole)
    (ws : Memref sig .tc .vmem S512x2048 .bf16) (hws : ws.IsWhole)
    (os : Memref sig .tc .vmem S512x512 .bf16) (hos : os.IsWhole)
    (x : Vec F S512x2048 .f32) (w : Vec F S512x2048 .bf16) (K : PUnit → sProp 𝕄) :
    iprop(owns (c : Thread nD τ) xs fullShare x ∗ owns (c : Thread nD τ) ws fullShare w
        ∗ (∃ d, owns (c : Thread nD τ) os fullShare d)
        ∗ (iprop(owns (c : Thread nD τ) xs fullShare x ∗ owns (c : Thread nD τ) ws fullShare w
            ∗ owns (c : Thread nD τ) os fullShare (k0_pay1 x w)) -∗ K ⟨⟩))
      ⊢ wp frame (wpE (defs₀ (F := F)) Variants.none c none) E (cc0__linear_kernel i xs hxs ws hws os hos) K := by
  simp only [cc0__linear_kernel_eq_skeleton]; unfold cc0__linear_kernel_skel
  unfold owns
  iintro ⟨⟨%fx, %hfx, Hx⟩, ⟨%fw, %hfw, Hw⟩, ⟨%d, %fo, -, Ho⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  rw [read_store_origin _ _ origin2, readAt_origin _ _ origin2, readAt_origin _ _ origin2]

/-- The row block's buffer holds its block at every point: it is fetched at each. -/
theorem q_before0 (c : Dev nD) (t : Fin cfg0.N) (d) : (qdat V c).before 0 t d = qblk V c 0 t :=
  ((qdat V c).before_in_eq_fetched 0 rfl (fun _ => rfl) (fun _ _ _ => rfl)
    (fun t => by rw [qdat_after0]; unfold Dat.blockOf qblk; rw [qdat_A]) t d).trans
    (by unfold Dat.fetched Dat.blockOf qblk; rw [qdat_A]; rfl)

/-- The weight's buffer holds the weight at every point: fetched at the first, and the body leaves it in place. -/
theorem q_before1 (c : Dev nD) (t : Fin cfg0.N) (d) : (qdat V c).before 1 t d = qblk V c 1 t :=
  ((qdat V c).before_in_eq_fetched 1 rfl (fun _ => rfl) (fun _ _ _ => rfl)
    (fun t => by rw [qdat_after1]; unfold Dat.blockOf qblk; rw [qdat_A]) t d).trans
    (by unfold Dat.fetched Dat.blockOf qblk; rw [qdat_A]; rfl)

/-- The Q call's body at a grid point, window by window: the invariant and what the core owes pass through untouched. -/
theorem q_point (c : Dev nD) (t : Fin cfg0.N) :
    iprop((qdat V c).Φ t.castSucc ∗ (qdat V c).owesAt () t.castSucc
        ∗ (∃ d, owns (c : Thread nD τ) (st0_0 t) fullShare ((qdat V c).before 0 t d))
        ∗ (∃ d, owns (c : Thread nD τ) (st0_1 t) fullShare ((qdat V c).before 1 t d))
        ∗ (∃ d, owns (c : Thread nD τ) (st0_2 t) fullShare ((qdat V c).before 2 t d)))
      ⊢ wp frame (wpE (defs₀ (F := F)) Variants.none c none) Set.univ (bodyAt0 t) (fun _ =>
          iprop((qdat V c).Φ t.succ ∗ (qdat V c).owesAt () t.succ
            ∗ owns (c : Thread nD τ) (st0_0 t) fullShare ((qdat V c).after 0 t)
            ∗ owns (c : Thread nD τ) (st0_1 t) fullShare ((qdat V c).after 1 t)
            ∗ owns (c : Thread nD τ) (st0_2 t) fullShare ((qdat V c).after 2 t))) := by
  unfold bodyAt0
  simp only [q_before0, q_before1]
  rw [show (qdat V c).Φ t.succ = (qdat V c).Φ t.castSucc from rfl,
    show (qdat V c).owesAt () t.succ = (qdat V c).owesAt () t.castSucc from rfl,
    qdat_after0, qdat_after1, qdat_after2]
  iintro ⟨HΦ, Howe, ⟨%d0, Hx⟩, ⟨%d1, Hw⟩, ⟨%d2, Ho⟩⟩
  iapply (q_body c Set.univ _ _ _ _ _ _ _ (qblk V c 0 t) (qblk V c 1 t) _)
  isplitl [Hx]; · iexact Hx
  isplitl [Hw]; · iexact Hw
  isplitl [Ho]; · iexists _; iexact Ho
  iintro ⟨Hx, Hw, Ho⟩
  isplitl [HΦ]; · iexact HΦ
  isplitl [Howe]; · iexact Howe
  isplitl [Hx]; · iexact Hx
  isplitl [Hw]; · iexact Hw
  iexact Ho

/-- The body obligation of the Q call at every grid point. -/
theorem q_obligation (c : Dev nD) : BodyObligation (qdat (F := F) V c) (defs₀ (F := F)) Variants.none () Set.univ := fun t => by
  rw [bigSep_W0, bigSep_W0]
  exact q_point V c t

/-! ## The fused K / V projection (pipeline 1) -/

def kvblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def kvdat (c : Dev nD) : Dat τ (Elt F) Unit ℕ (UR sig nD τ) ℕ cfg1 c where
  A w := V c (Pipeline.arrRef spec1 w)
  after w t := match w with
    | ⟨0, _⟩ => kvblk V c 0 t
    | ⟨1, _⟩ => kvblk V c 1 t
    | ⟨2, _⟩ => kvblk V c 2 t
    | ⟨3, _⟩ => k1_pay2 (kvblk V c 0 t) (kvblk V c 1 t)
    | ⟨4, _⟩ => k1_pay3 (kvblk V c 0 t) (kvblk V c 2 t)
  Φ _ := Pipeline.ΦA spec1 c
  q _ := fullShare
  owed _ := 0

theorem kvdat_A (c : Dev nD) (w : Fin cfg1.W) : (kvdat V c).A w = V c (Pipeline.arrRef spec1 w) := by
  dsimp only [kvdat]
theorem kvdat_after0 (c : Dev nD) (t : Fin cfg1.N) : (kvdat V c).after 0 t = kvblk V c 0 t := by dsimp only [kvdat]
theorem kvdat_after1 (c : Dev nD) (t : Fin cfg1.N) : (kvdat V c).after 1 t = kvblk V c 1 t := by dsimp only [kvdat]
theorem kvdat_after2 (c : Dev nD) (t : Fin cfg1.N) : (kvdat V c).after 2 t = kvblk V c 2 t := by dsimp only [kvdat]
theorem kvdat_after3 (c : Dev nD) (t : Fin cfg1.N) : (kvdat V c).after 3 t = k1_pay2 (kvblk V c 0 t) (kvblk V c 1 t) := by dsimp only [kvdat]
theorem kvdat_after4 (c : Dev nD) (t : Fin cfg1.N) : (kvdat V c).after 4 t = k1_pay3 (kvblk V c 0 t) (kvblk V c 2 t) := by dsimp only [kvdat]

set_option maxHeartbeats 1000000 in
/-- The K / V kernel on any five whole buffers: from the row block y, the two weights a and b and the two output
    buffers at anything, it runs to its return with y, a and b as they were, the first output at the product of y
    and a and the second at the product of y and b: each of its three input loads reads a buffer whole, the loads of
    the outputs are unused, and each of its two stores overwrites one output whole. -/
theorem kv_body (c : Dev nD) (E : Set ℕ) (i : grid1.Coords)
    (ys : Memref sig .tc .vmem S512x2048 .f32) (hys : ys.IsWhole)
    (wk : Memref sig .tc .vmem S512x2048 .bf16) (hwk : wk.IsWhole)
    (wv : Memref sig .tc .vmem S512x2048 .bf16) (hwv : wv.IsWhole)
    (ks : Memref sig .tc .vmem S512x512 .bf16) (hks : ks.IsWhole)
    (vs : Memref sig .tc .vmem S512x512 .bf16) (hvs : vs.IsWhole)
    (y : Vec F S512x2048 .f32) (a b : Vec F S512x2048 .bf16) (K : PUnit → sProp 𝕄) :
    iprop(owns (c : Thread nD τ) ys fullShare y ∗ owns (c : Thread nD τ) wk fullShare a ∗ owns (c : Thread nD τ) wv fullShare b
        ∗ (∃ d, owns (c : Thread nD τ) ks fullShare d) ∗ (∃ d, owns (c : Thread nD τ) vs fullShare d)
        ∗ (iprop(owns (c : Thread nD τ) ys fullShare y ∗ owns (c : Thread nD τ) wk fullShare a ∗ owns (c : Thread nD τ) wv fullShare b
            ∗ owns (c : Thread nD τ) ks fullShare (k1_pay2 y a) ∗ owns (c : Thread nD τ) vs fullShare (k1_pay3 y b)) -∗ K ⟨⟩))
      ⊢ wp frame (wpE (defs₀ (F := F)) Variants.none c none) E (cc1__linear_kv_kernel i ys hys wk hwk wv hwv ks hks vs hvs) K := by
  simp only [cc1__linear_kv_kernel_eq_skeleton]; unfold cc1__linear_kv_kernel_skel
  unfold owns
  iintro ⟨⟨%fy, %hfy, Hy⟩, ⟨%fa, %hfa, Ha⟩, ⟨%fb, %hfb, Hb⟩, ⟨%dk, %fk, -, Hks⟩, ⟨%dv, %fv, -, Hvs⟩, Hk⟩
  subst hfy hfa hfb
  sl_exec
  sl_step
  iapply Hk
  isplitl [Hy]
  · iexists fy; isplitr; · ipureintro; rfl
    iexact Hy
  isplitl [Ha]
  · iexists fa; isplitr; · ipureintro; rfl
    iexact Ha
  isplitl [Hb]
  · iexists fb; isplitr; · ipureintro; rfl
    iexact Hb
  isplitl [Hks]
  · iexists _; isplitr
    swap; · iexact Hks
    ipureintro
    rw [read_store_origin _ _ origin2, readAt_origin _ _ origin2, readAt_origin _ _ origin2]
  iexists _; isplitr
  swap; · iexact Hvs
  ipureintro
  rw [read_store_origin _ _ origin2, readAt_origin _ _ origin2, readAt_origin _ _ origin2]

/-- The row block's buffer holds its block at every point: it is fetched at each. -/
theorem kv_before0 (c : Dev nD) (t : Fin cfg1.N) (d) : (kvdat V c).before 0 t d = kvblk V c 0 t :=
  ((kvdat V c).before_in_eq_fetched 0 rfl (fun _ => rfl) (fun _ _ _ => rfl)
    (fun t => by rw [kvdat_after0]; unfold Dat.blockOf kvblk; rw [kvdat_A]) t d).trans
    (by unfold Dat.fetched Dat.blockOf kvblk; rw [kvdat_A]; rfl)

/-- The K weight's buffer holds the weight at every point: fetched at the first, and the body leaves it in place. -/
theorem kv_before1 (c : Dev nD) (t : Fin cfg1.N) (d) : (kvdat V c).before 1 t d = kvblk V c 1 t :=
  ((kvdat V c).before_in_eq_fetched 1 rfl (fun _ => rfl) (fun _ _ _ => rfl)
    (fun t => by rw [kvdat_after1]; unfold Dat.blockOf kvblk; rw [kvdat_A]) t d).trans
    (by unfold Dat.fetched Dat.blockOf kvblk; rw [kvdat_A]; rfl)

/-- So does the V weight's. -/
theorem kv_before2 (c : Dev nD) (t : Fin cfg1.N) (d) : (kvdat V c).before 2 t d = kvblk V c 2 t :=
  ((kvdat V c).before_in_eq_fetched 2 rfl (fun _ => rfl) (fun _ _ _ => rfl)
    (fun t => by rw [kvdat_after2]; unfold Dat.blockOf kvblk; rw [kvdat_A]) t d).trans
    (by unfold Dat.fetched Dat.blockOf kvblk; rw [kvdat_A]; rfl)

/-- The K / V call's body at a grid point, window by window: the invariant and what the core owes pass through untouched. -/
theorem kv_point (c : Dev nD) (t : Fin cfg1.N) :
    iprop((kvdat V c).Φ t.castSucc ∗ (kvdat V c).owesAt () t.castSucc
        ∗ (∃ d, owns (c : Thread nD τ) (st1_0 t) fullShare ((kvdat V c).before 0 t d))
        ∗ (∃ d, owns (c : Thread nD τ) (st1_1 t) fullShare ((kvdat V c).before 1 t d))
        ∗ (∃ d, owns (c : Thread nD τ) (st1_2 t) fullShare ((kvdat V c).before 2 t d))
        ∗ (∃ d, owns (c : Thread nD τ) (st1_3 t) fullShare ((kvdat V c).before 3 t d))
        ∗ (∃ d, owns (c : Thread nD τ) (st1_4 t) fullShare ((kvdat V c).before 4 t d)))
      ⊢ wp frame (wpE (defs₀ (F := F)) Variants.none c none) Set.univ (bodyAt1 t) (fun _ =>
          iprop((kvdat V c).Φ t.succ ∗ (kvdat V c).owesAt () t.succ
            ∗ owns (c : Thread nD τ) (st1_0 t) fullShare ((kvdat V c).after 0 t)
            ∗ owns (c : Thread nD τ) (st1_1 t) fullShare ((kvdat V c).after 1 t)
            ∗ owns (c : Thread nD τ) (st1_2 t) fullShare ((kvdat V c).after 2 t)
            ∗ owns (c : Thread nD τ) (st1_3 t) fullShare ((kvdat V c).after 3 t)
            ∗ owns (c : Thread nD τ) (st1_4 t) fullShare ((kvdat V c).after 4 t))) := by
  unfold bodyAt1
  simp only [kv_before0, kv_before1, kv_before2]
  rw [show (kvdat V c).Φ t.succ = (kvdat V c).Φ t.castSucc from rfl,
    show (kvdat V c).owesAt () t.succ = (kvdat V c).owesAt () t.castSucc from rfl,
    kvdat_after0, kvdat_after1, kvdat_after2, kvdat_after3, kvdat_after4]
  iintro ⟨HΦ, Howe, ⟨%d0, Hy⟩, ⟨%d1, Ha⟩, ⟨%d2, Hb⟩, ⟨%d3, Hks⟩, ⟨%d4, Hvs⟩⟩
  iapply (kv_body c Set.univ _ _ _ _ _ _ _ _ _ _ _ (kvblk V c 0 t) (kvblk V c 1 t) (kvblk V c 2 t) _)
  isplitl [Hy]; · iexact Hy
  isplitl [Ha]; · iexact Ha
  isplitl [Hb]; · iexact Hb
  isplitl [Hks]; · iexists _; iexact Hks
  isplitl [Hvs]; · iexists _; iexact Hvs
  iintro ⟨Hy, Ha, Hb, Hks, Hvs⟩
  isplitl [HΦ]; · iexact HΦ
  isplitl [Howe]; · iexact Howe
  isplitl [Hy]; · iexact Hy
  isplitl [Ha]; · iexact Ha
  isplitl [Hb]; · iexact Hb
  isplitl [Hks]; · iexact Hks
  iexact Hvs

/-- The body obligation of the K / V call at every grid point. -/
theorem kv_obligation (c : Dev nD) : BodyObligation (kvdat (F := F) V c) (defs₀ (F := F)) Variants.none () Set.univ := fun t => by
  rw [bigSep_W1, bigSep_W1]
  exact kv_point V c t

end Cert.KernelIdeal.Hand

end
-- ==== Proof.Between.lean ====
/-
  The buffers' contents between the program's four items (the host stretch: the table written and the three weights
  cast; the Q projection; the K/V projection; the causal product): the launch memory; then the host stretch applied;
  then, after each call, the call's arrays at what its write-backs leave and every other buffer as before.  The five
  argument arrays are written by no item, so they hold their launch contents at every boundary.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import proofs.«425182_j55671366091048_3_alg».proof.Proof.Gen.KernelIdeal.Regions
import proofs.«425182_j55671366091048_3_alg».proof.Proof.ProjFrame
import proofs.«425182_j55671366091048_3_alg».proof.Proof.AttnData
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝔽" => Idealize.ShloMosaic.Ideal
local notation "𝕄" => MT nD τ sig Unit (Elt 𝔽) ℕ (UR sig nD τ) ℕ

open Idealize.ShloMosaic.Pipeline (RegionSeg HostSeg Seg)

variable (m : (ℓ : Loc nD τ sig) → Buf (Elt 𝔽) ℓ)

/-! ## The buffers' contents between items -/

/-- At launch. -/
abbrev W0 (c : Dev nD) : Valuation τ sig (Elt 𝔽) := fun b => m (c, b)
/-- After the host stretch. -/
abbrev W1 (c : Dev nD) : Valuation τ sig (Elt 𝔽) := StableHlo.after hostOps0 (W0 m c)
abbrev V1 : (c : Dev nD) → (b : Ref sig .tc) → Buf (Elt 𝔽) ((c : Thread nD τ).loc b) := fun c b => W1 m c b
/-- After the Q projection. -/
def W2 (c : Dev nD) : Valuation τ sig (Elt 𝔽) :=
  Pipeline.withArrays spec0 c (W1 m c) fun w => (qdat (V1 m) c).arrAt w cfg0.N
abbrev V2 : (c : Dev nD) → (b : Ref sig .tc) → Buf (Elt 𝔽) ((c : Thread nD τ).loc b) := fun c b => W2 m c b
/-- After the K/V projection. -/
def W3 (c : Dev nD) : Valuation τ sig (Elt 𝔽) :=
  Pipeline.withArrays spec1 c (W2 m c) fun w => (kvdat (V2 m) c).arrAt w cfg1.N
abbrev V3 : (c : Dev nD) → (b : Ref sig .tc) → Buf (Elt 𝔽) ((c : Thread nD τ).loc b) := fun c b => W3 m c b
/-- After the causal product. -/
def W4 (c : Dev nD) : Valuation τ sig (Elt 𝔽) :=
  Pipeline.withArrays cfgA.spec c (W3 m c) fun w => (adat (V3 m) c).arrAt w cfgA.N
abbrev V4 : (c : Dev nD) → (b : Ref sig .tc) → Buf (Elt 𝔽) ((c : Thread nD τ).loc b) := fun c b => W4 m c b

theorem W2_arr (c : Dev nD) (w : Fin cfg0.W) :
    W2 m c (Proc.devRef .tc (Pipeline.arrRef spec0 w)) = (qdat (V1 m) c).arrAt w cfg0.N := by
  unfold W2; exact Pipeline.withArrays_arr spec0 (launch0 (F := 𝔽)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (kvdat (V2 m) c).arrAt w cfg1.N := by
  unfold W3; exact Pipeline.withArrays_arr spec1 (launch1 (F := 𝔽)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W4_arr (c : Dev nD) (w : Fin cfgA.W) :
    W4 m c (Proc.devRef .tc (Pipeline.arrRef cfgA.spec w)) = (adat (V3 m) c).arrAt w cfgA.N := by
  unfold W4; exact Pipeline.withArrays_arr cfgA.spec (launch2 (F := 𝔽)).win.arr_inj c _ _ w
theorem W4_of_ne (c : Dev nD) (b : Ref sig .tc) (hb : ∀ w, Pipeline.arrRef cfgA.spec w ≠ b) :
    W4 m c (Proc.devRef .tc b) = W3 m c (Proc.devRef .tc b) := by
  unfold W4; exact Pipeline.withArrays_of_ne cfgA.spec c _ _ b hb

/-- The table's buffer holds the table from the host stretch on. -/
theorem W1_table (c : Dev nD) : V1 m c main_c = tbl 0 := by
  show StableHlo.after hostOps0 (W0 m c) (Proc.devRef .tc main_c) = _
  after_results; rfl
theorem W3_table (c : Dev nD) : V3 m c main_c = tbl 0 :=
  (W3_of_ne m c main_c (by decide)).trans ((W2_of_ne m c main_c (by decide)).trans (W1_table m c))

/-! ## The proof data of the three calls, each at its entry valuation -/

def pdats : (p : Fin 3) → (c : Dev nD) → Dat τ (Elt 𝔽) Unit ℕ (UR sig nD τ) ℕ (Pipeline.pin (pcfgs (F := 𝔽)) adm p) c
  | ⟨0, _⟩ => fun c => qdat (V1 m) c
  | ⟨1, _⟩ => fun c => kvdat (V2 m) c
  | ⟨2, _⟩ => fun c => adat (V3 m) c

/-! ## The arguments are never written -/

theorem W1_kept (c : Dev nD) (r : Ref sig .tc) (h : r ∉ hostOps0_W) : V1 m c r = m ((c : Thread nD τ).loc r) :=
  Cert.KernelIdeal.Gen.V1_of m c r h

theorem V4_arg0 (c : Dev nD) : V4 m c main_arg0 = m ((c : Thread nD τ).loc main_arg0) :=
  (W4_of_ne m c main_arg0 (by decide)).trans <| (W3_of_ne m c main_arg0 (by decide)).trans <|
    (W2_arr m c 0).trans <| ((qdat (V1 m) c).arrAt_in 0 rfl _).trans <| (qdat_A (V1 m) c 0).trans (W1_kept m c main_arg0 (by decide))
theorem V4_arg1 (c : Dev nD) : V4 m c main_arg1 = m ((c : Thread nD τ).loc main_arg1) :=
  (W4_of_ne m c main_arg1 (by decide)).trans <| (W3_arr m c 0).trans <| ((kvdat (V2 m) c).arrAt_in 0 rfl _).trans <|
    (kvdat_A (V2 m) c 0).trans <| (W2_of_ne m c main_arg1 (by decide)).trans (W1_kept m c main_arg1 (by decide))
theorem V4_arg2 (c : Dev nD) : V4 m c main_arg2 = m ((c : Thread nD τ).loc main_arg2) :=
  (W4_of_ne m c main_arg2 (by decide)).trans <| (W3_of_ne m c main_arg2 (by decide)).trans <|
    (W2_of_ne m c main_arg2 (by decide)).trans (W1_kept m c main_arg2 (by decide))
theorem V4_arg3 (c : Dev nD) : V4 m c main_arg3 = m ((c : Thread nD τ).loc main_arg3) :=
  (W4_of_ne m c main_arg3 (by decide)).trans <| (W3_of_ne m c main_arg3 (by decide)).trans <|
    (W2_of_ne m c main_arg3 (by decide)).trans (W1_kept m c main_arg3 (by decide))
theorem V4_arg4 (c : Dev nD) : V4 m c main_arg4 = m ((c : Thread nD τ).loc main_arg4) :=
  (W4_of_ne m c main_arg4 (by decide)).trans <| (W3_of_ne m c main_arg4 (by decide)).trans <|
    (W2_of_ne m c main_arg4 (by decide)).trans (W1_kept m c main_arg4 (by decide))

end Cert.KernelIdeal.Hand

end
-- ==== Proof.Run.lean ====
/-
  The whole program as its four items in order: the host stretch, the Q projection, the K/V projection, the causal
  product.  Between items a core holds every unscoped buffer at a known valuation (Between.lean) beside its generator
  register and its empty debts.  Each call is entered from the valuation before it and left at the one after it: at
  entry the call's arrays (and, for the third call, its table) are taken out of the unscoped buffers, the scoped
  buffers it does not stage enter its invariant; at exit the arrays return at what the write-backs left.  Run from
  any memory with zero counters, every weakly fair execution terminates with every unscoped buffer at the last
  valuation; read at the arguments that is the frame, read at the result buffer the kernel's value.  The third
  call's body obligation is a hypothesis here.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import proofs.«425182_j55671366091048_3_alg».proof.Proof.Between
import proofs.«425182_j55671366091048_3_alg».proof.Proof.ProjFrame
import proofs.«425182_j55671366091048_3_alg».proof.Proof.AttnData
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝔽" => Idealize.ShloMosaic.Ideal
local notation "𝕄" => MT nD τ sig Unit (Elt 𝔽) ℕ (UR sig nD τ) ℕ

open Idealize.ShloMosaic.Pipeline (RegionSeg HostSeg Seg)

variable (m : (ℓ : Loc nD τ sig) → Buf (Elt 𝔽) ℓ)

/-! ## What rides beside the buffers, and the thread state between items -/

abbrev 𝒱₀ : Variants := Variants.none
/-- No core owes another anything: no pair is recorded, no level assigned. -/
abbrev noPairs : GSem nD τ sig → Finset Unit := fun _ => ∅
abbrev noLevel : GSem nD τ sig → Unit → ℕ := fun _ _ => 0

/-- Beside the buffers: the generator register at some state, and the core owing nothing. -/
abbrev aside (c : Dev nD) : sProp 𝕄 :=
  iprop((∃ r, prngReg c r) ∗ ∃ W, owes (c : Thread nD τ) (0 : CellTallies nD τ sig Unit) W)
/-- Between two items: every unscoped buffer of the core at the valuation, the rest aside. -/
abbrev between (W : Dev nD → Valuation τ sig (Elt 𝔽)) (c : Dev nD) : sProp 𝕄 :=
  iprop(StableHlo.held (c : Thread nD τ) (Pipeline.ucRefs τ sig) (W c) ∗ aside c)

/-! ## The Q projection as a segment -/

theorem q_final (c : Dev nD) (w : Fin cfg0.W) : (qdat (V1 m) c).arrAt w cfg0.N = V2 m c (Pipeline.arrRef spec0 w) :=
  (W2_arr m c w).symm
theorem q_others (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
def qSeg : RegionSeg (pcfgs (F := 𝔽)) adm (pdats m) () defs₀ 𝒱₀ noPairs noLevel 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (q_obligation (V1 m) c).loose
  hwaits := Pipeline.hwaits_of_owed_zero _ _ _ _ noPairs noLevel 0 fun _ _ => rfl
  pre := between (W1 m)
  post := between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    dsimp only [between, aside]
    rw [Pipeline.ownSems0_none]
    have hsplit := Pipeline.arrays_of_unscopedBufs (p := 0) (pcfgs (F := 𝔽)) adm (pdats m) (launch0 (F := 𝔽)).win (launch0 (F := 𝔽)).arr_whole c
      ((pdats m 0 c).share_full fun _ => rfl) (V1 m c) fun _ => rfl
    rw [Pipeline.unscopedBufs_held] at hsplit
    iintro ⟨⟨Hbufs, Hprng, Howes⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m) ((pdats m 0 c).share_full fun _ => rfl)
      (V1 m c) (V2 m c) ((pdats m 0 c).arrAt · cfg0.N) (q_final m c) (q_others m c)
    rw [Pipeline.unscopedBufs_held] at hjoin
    dsimp only [between, aside]
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The K/V projection as a segment -/

theorem kv_final (c : Dev nD) (w : Fin cfg1.W) : (kvdat (V2 m) c).arrAt w cfg1.N = V3 m c (Pipeline.arrRef spec1 w) :=
  (W3_arr m c w).symm
theorem kv_others (c : Dev nD) : ∀ b, b ∉ Finset.univ.image (Pipeline.arrRef spec1) → V3 m c b = V2 m c b :=
  fun b hb => W3_of_ne m c b fun w e => hb (Finset.mem_image.mpr ⟨w, Finset.mem_univ _, e⟩)

set_option backward.isDefEq.respectTransparency.types false in
def kvSeg : RegionSeg (pcfgs (F := 𝔽)) adm (pdats m) () defs₀ 𝒱₀ noPairs noLevel 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (kv_obligation (V2 m) c).loose
  hwaits := Pipeline.hwaits_of_owed_zero _ _ _ _ noPairs noLevel 1 fun _ _ => rfl
  pre := between (W2 m)
  post := between (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    dsimp only [between, aside]
    rw [Pipeline.ownSems0_none]
    have hsplit := Pipeline.arrays_of_unscopedBufs (p := 1) (pcfgs (F := 𝔽)) adm (pdats m) (launch1 (F := 𝔽)).win (launch1 (F := 𝔽)).arr_whole c
      ((pdats m 1 c).share_full fun _ => rfl) (V2 m c) fun _ => rfl
    rw [Pipeline.unscopedBufs_held] at hsplit
    iintro ⟨⟨Hbufs, Hprng, Howes⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m) ((pdats m 1 c).share_full fun _ => rfl)
      (V2 m c) (V3 m c) ((pdats m 1 c).arrAt · cfg1.N) (kv_final m c) (kv_others m c)
    rw [Pipeline.unscopedBufs_held] at hjoin
    dsimp only [between, aside]
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The causal product as a segment -/

theorem a_final (c : Dev nD) (w : Fin cfgA.W) : (adat (V3 m) c).arrAt w cfgA.N = V4 m c (Pipeline.arrRef cfgA.spec w) :=
  (W4_arr m c w).symm
theorem a_others (c : Dev nD) : ∀ b, b ∉ Finset.univ.image (Pipeline.arrRef cfgA.spec) → V4 m c b = V3 m c b :=
  fun b hb => W4_of_ne m c b fun w e => hb (Finset.mem_image.mpr ⟨w, Finset.mem_univ _, e⟩)

/-- The one table of the call, held at the table's contents: its buffer owned at them. -/
theorem tableHeld_eq (c : Dev nD) :
    (Pipeline.prefHeld pre2 c (fun _ => fullShare) tbl : sProp 𝕄) = owns (c : Thread nD τ) tbM fullShare (tbl 0) := by
  unfold Pipeline.prefHeld
  rw [show (Finset.univ : Finset (Fin 1)) = {0} from by decide, bigSep_singleton]
  exact (owns_whole (c : Thread nD τ) main_c fullShare (tbl 0)).symm

/-- The table's buffer at the call's entry holds the table. -/
theorem entry_table (c : Dev nD) : (fun k => V3 m c (pre2.ref k)) = (tbl : pre2.Contents (Elt 𝔽)) :=
  funext fun k => match k with | ⟨0, _⟩ => W3_table m c

/-- The call's scoped rest is the thirteen buffers it does not touch and its accumulator at some contents. -/
theorem scoped_split (c : Dev nD) :
    (Pipeline.scopedRest (Ix := Unit) (Name := ℕ) (U := UR sig nD τ) (Lvl := ℕ) (Val := Elt 𝔽) spec2 c : sProp 𝕄)
      ⊢ iprop(otherScoped c ∗ ∃ a, owns (c : Thread nD τ) scM fullShare a) := by
  rw [scopedRest2_eq]; unfold otherScoped
  simp only [scM, owns_whole]
  iintro ⟨H1, H2, H3, H4, H5, H6, H7, H8, H9, H10, H11, H12, H13, Hs⟩
  isplitr [Hs]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hs
theorem scoped_join (c : Dev nD) :
    iprop(otherScoped c ∗ ∃ a, owns (c : Thread nD τ) scM fullShare a)
      ⊢ (Pipeline.scopedRest (Ix := Unit) (Name := ℕ) (U := UR sig nD τ) (Lvl := ℕ) (Val := Elt 𝔽) spec2 c : sProp 𝕄) := by
  rw [scopedRest2_eq]; unfold otherScoped
  simp only [scM, owns_whole]
  iintro ⟨⟨H1, H2, H3, H4, H5, H6, H7, H8, H9, H10, H11, H12, H13⟩, Hs⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hs

/-- The unscoped buffers that are no array of the call: the table and the rest. -/
theorem rest_split (c : Dev nD) :
    (Pipeline.unscopedRest (Ix := Unit) (Name := ℕ) (U := UR sig nD τ) (Lvl := ℕ) spec2 c (V3 m c) : sProp 𝕄)
      = iprop(owns (c : Thread nD τ) tbM fullShare (tbl 0)
          ∗ Pipeline.unscopedRestP (Ix := Unit) (Name := ℕ) (U := UR sig nD τ) (Lvl := ℕ) pre2 spec2 c (V3 m c)) := by
  rw [Pipeline.unscopedRest_split preFacts2 c (V3 m c), entry_table m c, tableHeld_eq]

set_option backward.isDefEq.respectTransparency.types false in
/-- At entry: the unscoped buffers are the call's arrays, the table, and the rest. -/
theorem attn_entry (c : Dev nD) :
    (StableHlo.held (c : Thread nD τ) (Pipeline.ucRefs τ sig) (W3 m c) : sProp 𝕄)
      ⊢ iprop((adat (V3 m) c).arrays ((adat (V3 m) c).arrAt · 0) ∗ owns (c : Thread nD τ) tbM fullShare (tbl 0)
          ∗ Pipeline.unscopedRestP (Ix := Unit) (Name := ℕ) (U := UR sig nD τ) (Lvl := ℕ) pre2 spec2 c (V3 m c)) := by
  have hsplit := Pipeline.arrays_of_unscopedBufs (p := 2) (pcfgs (F := 𝔽)) adm (pdats m) (launch2 (F := 𝔽)).win (launch2 (F := 𝔽)).arr_whole c
    ((pdats m 2 c).share_full fun _ => rfl) (V3 m c) fun _ => rfl
  rw [Pipeline.unscopedBufs_held] at hsplit
  rw [← rest_split m c]
  exact hsplit

set_option backward.isDefEq.respectTransparency.types false in
/-- At exit: the arrays at what the call leaves, the table and the rest are the unscoped buffers at the next valuation. -/
theorem attn_exit (c : Dev nD) :
    iprop((adat (V3 m) c).arrays ((adat (V3 m) c).arrAt · cfgA.N) ∗ owns (c : Thread nD τ) tbM fullShare (tbl 0)
        ∗ Pipeline.unscopedRestP (Ix := Unit) (Name := ℕ) (U := UR sig nD τ) (Lvl := ℕ) pre2 spec2 c (V3 m c))
      ⊢ (StableHlo.held (c : Thread nD τ) (Pipeline.ucRefs τ sig) (W4 m c) : sProp 𝕄) := by
  have hjoin := Pipeline.unscopedBufs_of_arrays (p := 2) (pcfgs (F := 𝔽)) adm (Ix := Unit) (Name := ℕ) (U := UR sig nD τ) (Lvl := ℕ)
    (launch2 (F := 𝔽)).win (launch2 (F := 𝔽)).arr_whole c (pdats m) ((pdats m 2 c).share_full fun _ => rfl)
    (V3 m c) (V4 m c) ((pdats m 2 c).arrAt · cfgA.N) (a_final m c) (a_others m c)
  rw [Pipeline.unscopedBufs_held] at hjoin
  rw [← rest_split m c]
  exact hjoin

set_option backward.isDefEq.respectTransparency.types false in
def aSeg (hbody : ∀ c, BodyObligation (adat (V3 m) c) (defs₀ (F := 𝔽)) Variants.none () Set.univ) :
    RegionSeg (pcfgs (F := 𝔽)) adm (pdats m) () defs₀ 𝒱₀ noPairs noLevel 2 where
  win := (launch2 (F := 𝔽)).win.to₀
  block_pos := (launch2 (F := 𝔽)).block_pos
  stage_whole := (launch2 (F := 𝔽)).stage_whole
  K := PEmpty
  osem k := k.elim
  ho := Pipeline.OwnSemFacts.none _
  hbody c := (hbody c).loose
  hwaits := Pipeline.hwaits_of_owed_zero _ _ _ _ noPairs noLevel 2 fun _ _ => rfl
  pre := between (W3 m)
  post := between (W4 m)
  X c := iprop(∃ r, prngReg c r)
  Y c := iprop((∃ r, prngReg c r) ∗ owns (c : Thread nD τ) tbM fullShare (tbl 0))
  Z c := Pipeline.unscopedRestP (Ix := Unit) (Name := ℕ) (U := UR sig nD τ) (Lvl := ℕ) pre2 spec2 c (V3 m c)
  hentry c := by
    dsimp only [between, aside]
    rw [Pipeline.ownSems0_none]
    have hsplit := attn_entry m c
    have htbl : (Pipeline.prefHeld (pcfgs (F := 𝔽) 2).pre c (fun _ => fullShare) (adm (2 : Fin 3)).1 : sProp 𝕄)
        = owns (c : Thread nD τ) tbM fullShare (tbl 0) := tableHeld_eq c
    rw [htbl]
    iintro ⟨⟨Hbufs, Hprng, Howes⟩, -, -⟩
    ihave Hparts := hsplit $$ Hbufs
    icases Hparts with ⟨Harr, Htbl, Hrest⟩
    imodintro
    isplitl [Harr]; · iexact Harr
    isplitl [Htbl]; · iexact Htbl
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    have htbl : (Pipeline.prefHeld (pcfgs (F := 𝔽) 2).pre c (fun _ => fullShare) (adm (2 : Fin 3)).1 : sProp 𝕄)
        = owns (c : Thread nD τ) tbM fullShare (tbl 0) := tableHeld_eq c
    rw [htbl, show (pdats m 2 c).Φ 0 = attnInv c (accUpTo (V3 m) c 0) ((0 : ℕ) ≠ 0) from rfl]
    unfold attnInv
    have hsc := scoped_split c
    iintro ⟨Hprng, Htbl, Hscoped⟩
    ihave Hparts := hsc $$ Hscoped
    icases Hparts with ⟨Hother, ⟨%a, Hs⟩⟩
    isplitl [Hother]; · iexact Hother
    isplitl [Hprng]; · iexact Hprng
    isplitl [Htbl]; · iexact Htbl
    iexists a; isplitr; · ipureintro; exact fun h => absurd rfl h
    iexact Hs
  hout c := by
    rw [Pipeline.ownSems0_none, show (pdats m 2 c).Φ (Fin.last _) = attnInv c (accUpTo (V3 m) c cfgA.N) (cfgA.N ≠ 0) from rfl]
    unfold attnInv
    have hsc := scoped_join c
    iintro ⟨Hother, Hprng, Htbl, ⟨%a, -, Hs⟩⟩
    isplitl [Hprng Htbl]
    · isplitl [Hprng]; · iexact Hprng
      iexact Htbl
    isplitr; · iempintro
    iapply hsc
    isplitl [Hother]; · iexact Hother
    iexists a; iexact Hs
  hexit c := by
    have hjoin := attn_exit m c
    dsimp only [between, aside]
    iintro ⟨Harr, Howes, ⟨Hprng, Htbl⟩, Hrest⟩
    imodintro
    isplitl [Harr Htbl Hrest]
    · iapply hjoin
      isplitl [Harr]; · iexact Harr
      isplitl [Htbl]; · iexact Htbl
      iexact Hrest
    isplitl [Hprng]; · iexact Hprng
    unfold Pipeline.Dat.owesAt Pipeline.owesWithin
    icases Howes with ⟨%W, -, Howes⟩; iexists W; iexact Howes

/-! ## The host stretch as a segment, the program as its segments, and the run -/

/-- The host stretch over the unscoped buffers, from the launch memory. -/
def hostSeg : HostSeg (Name := ℕ) (U := UR sig nD τ) (pcfgs (F := 𝔽)) defs₀ 𝒱₀ noPairs noLevel :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) aside

abbrev segs (hbody : ∀ c, BodyObligation (adat (V3 m) c) (defs₀ (F := 𝔽)) Variants.none () Set.univ) : List (Seg (pcfgs (F := 𝔽)) adm (pdats m) () defs₀ 𝒱₀ noPairs noLevel) :=
  [.host (hostSeg m), .region (qSeg m), .region (kvSeg m), .region (aSeg m hbody)]

theorem main_run (hbody : ∀ c, BodyObligation (adat (V3 m) c) (defs₀ (F := 𝔽)) Variants.none () Set.univ) (c : Dev nD) : main (F := 𝔽) c = Seg.run (segs m hbody) :=
  main_segs adm (pdats m) () 𝒱₀ noPairs noLevel (hostSeg m) (qSeg m) (kvSeg m) (aSeg m hbody) rfl c

/-- An unscoped buffer of the TensorCore is among those a thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution terminates, and at the end every unscoped buffer
    holds the last valuation. -/
theorem run_all (hbody : ∀ c, BodyObligation (adat (V3 m) c) (defs₀ (F := 𝔽)) Variants.none () Set.univ) (ρ : Dev nD → PrngReg) :
    θ_run defs (onTc (τ := τ) (main (F := 𝔽))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := 𝔽)) adm (pdats m) () (cellOf_inj adm) emb₁ defs₀ 𝒱₀ noPairs noLevel m ρ main (segs m hbody)
    (fun c Q => by rw [main_run m hbody c])
    (by simp only [segs, Seg.pipes_host, Seg.pipes_region, Seg.pipes_nil]; decide)
    (O₀ := 0) (hL := fun _ _ => rfl) (G := fun _ => iprop(emp))
    (u₀ := initOf (Pipeline.cells (Pipeline.pin (pcfgs (F := 𝔽)) adm) (cellOf_inj adm)) (Pipeline.launchToks (Pipeline.pin (pcfgs (F := 𝔽)) adm) (cellOf_inj adm)))
    (hu₀ := by
      iintro Hu; imodintro
      isplitl [Hu]
      · iapply (show (ownU (initOf (Pipeline.cells (Pipeline.pin (pcfgs (F := 𝔽)) adm) (cellOf_inj adm)) (Pipeline.launchToks (Pipeline.pin (pcfgs (F := 𝔽)) adm) (cellOf_inj adm))) : sProp 𝕄)
            ⊢ BI.own (emb₁ (initOf (Pipeline.cells (Pipeline.pin (pcfgs (F := 𝔽)) adm) (cellOf_inj adm)) (Pipeline.launchToks (Pipeline.pin (pcfgs (F := 𝔽)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := between (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      dsimp only [Seg.post, aSeg, between, aside]
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      dsimp only [between, aside]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five argument arrays end as launched. -/
theorem frame (hbody : ∀ c, BodyObligation (adat (V3 m) c) (defs₀ (F := 𝔽)) Variants.none () Set.univ) (ρ : Dev nD → PrngReg) :
    θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_unscoped main_arg0 (by decide))).trans (V4_arg0 m c),
     (h c _ (mem_unscoped main_arg1 (by decide))).trans (V4_arg1 m c),
     (h c _ (mem_unscoped main_arg2 (by decide))).trans (V4_arg2 m c),
     (h c _ (mem_unscoped main_arg3 (by decide))).trans (V4_arg3 m c),
     (h c _ (mem_unscoped main_arg4 (by decide))).trans (V4_arg4 m c)⟩) (run_all m hbody ρ)

/-- The run read at the result buffer and the arguments. -/
theorem run_result (hbody : ∀ c, BodyObligation (adat (V3 m) c) (defs₀ (F := 𝔽)) Variants.none () Set.univ) (ρ : Dev nD → PrngReg) :
    θ_run defs (onTc (τ := τ) (main (F := 𝔽))) ⟨m, fun _ => 0, ρ⟩ (fun r => ∀ c : Dev nD,
      r.2.mem ((c.tc : Thread nD τ).loc main_v5) = V4 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_unscoped main_v5 (by decide)),
     (h c _ (mem_unscoped main_arg0 (by decide))).trans (V4_arg0 m c),
     (h c _ (mem_unscoped main_arg1 (by decide))).trans (V4_arg1 m c),
     (h c _ (mem_unscoped main_arg2 (by decide))).trans (V4_arg2 m c),
     (h c _ (mem_unscoped main_arg3 (by decide))).trans (V4_arg3 m c),
     (h c _ (mem_unscoped main_arg4 (by decide))).trans (V4_arg4 m c)⟩) (run_all m hbody ρ)

end Cert.KernelIdeal.Hand

end
-- ==== Proof.ProjValue.lean ====
/-
  What the two projection calls leave in their output arrays, at the ideal instance (floats are extended reals, a
  change of float format is the identity): block t of an output array is the product of the input row block t with
  the whole weight, so the arrays end, index by index, at
    Q-call:  out[r, f] = (sum over d of x[r, d] * w[f, d]) * scale,
    K/V-call: out3[r, f] = sum over d of y[r, d] * wk[f, d],  out4[r, f] = sum over d of y[r, d] * wv[f, d],
  over the arrays as the calls find them.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import proofs.«425182_j55671366091048_3_alg».proof.Proof.ProjFrame
import proofs.«425182_j55671366091048_3_alg».proof.Proof.Spec
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## A block product at an index

Both calls contract axis 1 of a [512, 2048] row block with axis 1 of the [512, 2048] weight: entry (p, f) of the
product is the sum over d of lhs[p, d] * rhs[f, d]. -/

/-- The left operand's row is the output's row. -/
theorem lhs_row (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
/-- The left operand's column is the contraction index. -/
theorem lhs_col (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
/-- The right operand's row is the output's column. -/
theorem rhs_row (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
/-- The right operand's column is the contraction index. -/
theorem rhs_col (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The product of two blocks into the zero accumulator, entry by entry. -/
theorem block_product (a : FVec Ideal S512x2048 .bf16) (b : FVec Ideal S512x2048 .bf16) (p : Fin 512) (f : Fin 512) :
    matmul (F := Ideal) dot_S512x2048_S512x2048_S512x512_1_1_0_0_n_n none a b (constant (F := Ideal) S512x512 .f32 0x00000000#32) (ValueIdx.ix2 p f)
      = ∑ d : Fin 2048, a (ValueIdx.ix2 p d) * b (ValueIdx.ix2 f d) := by
  simp only [matmul]
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ValueIdx.ix2 p f) ((ValueIdx.contrEquiv1 dot_S512x2048_S512x2048_S512x512_1_1_0_0_n_n 2048 rfl rfl).symm k) = ValueIdx.ix2 p k := funext fun x => Fin.ext (by
    match x with
    | ⟨0, _⟩ => exact lhs_row _ _
    | ⟨1, _⟩ => exact (lhs_col _ _).trans hk)
  have er : dot_S512x2048_S512x2048_S512x512_1_1_0_0_n_n.rhsIdx (ValueIdx.ix2 p f) ((ValueIdx.contrEquiv1 dot_S512x2048_S512x2048_S512x512_1_1_0_0_n_n 2048 rfl rfl).symm k) = ValueIdx.ix2 f k := funext fun x => Fin.ext (by
    match x with
    | ⟨0, _⟩ => exact rhs_row _ _
    | ⟨1, _⟩ => exact (rhs_col _ _).trans hk)
  rw [el, er]

/-- The Q call's stored value at an index: the product of the row block with the weight, times the scale. -/
theorem q_payload (x0 : Vec Ideal S512x2048 .f32) (x1 : Vec Ideal S512x2048 .bf16) (p : Fin 512) (f : Fin 512) :
    k0_pay1 x0 x1 (ValueIdx.ix2 p f) = (∑ d : Fin 2048, x0 (ValueIdx.ix2 p d) * x1 (ValueIdx.ix2 f d)) * Cert.Spec.scale := by
  unfold k0_pay1
  rw [truncf_apply, mulf_apply, broadcast_apply, shapeCast_self, block_product]
  rfl

/-- The K / V call's first stored value at an index: the product of the row block with the first weight. -/
theorem k_payload (x0 : Vec Ideal S512x2048 .f32) (x1 : Vec Ideal S512x2048 .bf16) (p : Fin 512) (f : Fin 512) :
    k1_pay2 x0 x1 (ValueIdx.ix2 p f) = ∑ d : Fin 2048, x0 (ValueIdx.ix2 p d) * x1 (ValueIdx.ix2 f d) := by
  unfold k1_pay2 k1_pay1
  rw [truncf_apply, shapeCast_self, block_product]
  rfl

/-- The K / V call's second stored value at an index: the product of the row block with the second weight. -/
theorem v_payload (x0 : Vec Ideal S512x2048 .f32) (x1 : Vec Ideal S512x2048 .bf16) (p : Fin 512) (f : Fin 512) :
    k1_pay3 x0 x1 (ValueIdx.ix2 p f) = ∑ d : Fin 2048, x0 (ValueIdx.ix2 p d) * x1 (ValueIdx.ix2 f d) := by
  unfold k1_pay3 k1_pay1
  rw [truncf_apply, shapeCast_self, block_product]
  rfl

variable (V : (c : Dev nD) → (b : Ref sig .tc) → Buf (Elt Ideal) ((c : Thread nD τ).loc b))

/-! ## From blocks to the array

A point t of either call reads rows 512 t .. 512 t + 511 of its [8192, 2048] input, the whole weight, and writes rows
512 t .. 512 t + 511 of its [8192, 512] output; the 16 points' output blocks tile the output array. -/

/-- The projection at an index given by its coordinates. -/
theorem proj_at (a : Cert.Spec.SX.Idx → EReal) (w : Cert.Spec.SW.Idx → EReal) (r : Fin 8192) (f : Fin 512) :
    Cert.Spec.proj a w (ValueIdx.ix2 r f) = ∑ d : Fin 2048, a (ValueIdx.ix2 r d) * w (ValueIdx.ix2 f d) := rfl

/-- The scaled projection at an index given by its coordinates. -/
theorem projS_at (a : Cert.Spec.SX.Idx → EReal) (w : Cert.Spec.SW.Idx → EReal) (r : Fin 8192) (f : Fin 512) :
    Cert.Spec.projS a w (ValueIdx.ix2 r f) = (∑ d : Fin 2048, a (ValueIdx.ix2 r d) * w (ValueIdx.ix2 f d)) * Cert.Spec.scale := rfl

/-- Every row of the output lies in the block of rows of exactly one point: row r in that of point r / 512. -/
theorem row_point (r : Nat) (h : r < 8192) : r / 512 < 16 ∧ r / 512 * 512 ≤ r ∧ r < r / 512 * 512 + 512 := by
  omega

/-! ### The Q call -/

/-- The index maps over the 16 points: the two row-block windows (the input, the output) sit at block row t,
    block column 0; the weight's window at block (0, 0), the whole array. -/
theorem q_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the input block at point t is row 512 t + p of the input array. -/
theorem q_rows (c : Dev nD) (t : Fin cfg0.N) (p : Fin 512) (d : Fin 2048) (h : 512 * t.val + p.val < 8192) :
    (qblk (F := Ideal) V c 0 t : Vec Ideal S512x2048 .f32) (ValueIdx.ix2 p d)
      = (V c main_arg0 : S8192x2048.Idx → EReal) (ValueIdx.ix2 (⟨512 * t.val + p.val, h⟩ : Fin 8192) d) := by
  obtain ⟨e0, e1, -⟩ := q_index t
  unfold qblk
  rw [View.read_apply]
  show V c main_arg0 _ = V c main_arg0 _
  congr 1
  funext a
  apply Fin.ext
  match a with
  | ⟨0, _⟩ => show win0_0.index t (0 : Fin 2) * 512 + 1 * p.val = 512 * t.val + p.val; omega
  | ⟨1, _⟩ => show win0_0.index t (1 : Fin 2) * 2048 + 1 * d.val = d.val; omega

/-- The weight block at any point is the weight array. -/
theorem q_weight (c : Dev nD) (t : Fin cfg0.N) (f : Fin 512) (d : Fin 2048) :
    (qblk (F := Ideal) V c 1 t : Vec Ideal S512x2048 .bf16) (ValueIdx.ix2 f d)
      = (V c main_v0 : S512x2048.Idx → EReal) (ValueIdx.ix2 f d) := by
  obtain ⟨-, -, e0, e1, -⟩ := q_index t
  unfold qblk
  rw [View.read_apply]
  show V c main_v0 _ = V c main_v0 _
  congr 1
  funext a
  apply Fin.ext
  match a with
  | ⟨0, _⟩ => show win0_1.index t (0 : Fin 2) * 512 + 1 * f.val = f.val; omega
  | ⟨1, _⟩ => show win0_1.index t (1 : Fin 2) * 2048 + 1 * d.val = d.val; omega

/-- What point t writes back is block t of the scaled projection of the arrays as the call finds them. -/
theorem q_flushed (c : Dev nD) (t : Fin cfg0.N) :
    (qdat (F := Ideal) V c).flushed 2 t
      = ((cfg0.win 2).blk t).view.read (Elt Ideal) (Cert.Spec.projS (V c main_arg0) (V c main_v0)) := by
  show (cfg0.win 2).cut (grid0.coords t) ((qdat (F := Ideal) V c).after 2 t) = _
  rw [qdat_after2]
  obtain ⟨-, -, -, -, e0, e1⟩ := q_index t
  have hN : grid0.N = 16 := N_0
  have ht : t.val < grid0.N := t.isLt
  funext j
  obtain ⟨p, f, rfl⟩ : ∃ (p : Fin 512) (f : Fin 512), j = ValueIdx.ix2 p f := ⟨j 0, j 1, ValueIdx.eq_ix2 j⟩
  have hp := p.isLt
  have hr : 512 * t.val + p.val < 8192 := by omega
  have he : ((cfg0.win 2).blk t).view.emb (ValueIdx.ix2 p f) = (ValueIdx.ix2 (⟨512 * t.val + p.val, hr⟩ : Fin 8192) f : S8192x512.Idx) := by
    funext a
    apply Fin.ext
    match a with
    | ⟨0, _⟩ => show win0_2.index t (0 : Fin 2) * 512 + 1 * p.val = 512 * t.val + p.val; omega
    | ⟨1, _⟩ => show win0_2.index t (1 : Fin 2) * 512 + 1 * f.val = f.val; omega
  show k0_pay1 (qblk V c 0 t) (qblk V c 1 t) (ValueIdx.ix2 p f)
    = Cert.Spec.projS (V c main_arg0) (V c main_v0) (((cfg0.win 2).blk t).view.emb (ValueIdx.ix2 p f))
  rw [he, q_payload, projS_at]
  congr 1
  refine Finset.sum_congr rfl fun d _ => ?_
  rw [q_rows V c t p d hr, q_weight V c t f d]

/-- An index of the output array is in point t's block iff each coordinate is in the block's range on its axis. -/
theorem q_mem_blk (t : Fin cfg0.N) (i : S8192x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v3).slice (win0_2.rect t)).set ↔ _
  rw [View.set_slice_whole, Rect.mem_set_unit]
  exact Iff.rfl

/-- Every index of the output array is in the block of the point of its row. -/
theorem q_cover (i : S8192x512.Idx) : ∃ t : Fin cfg0.N, (cfg0.win 2).flush t = true ∧ i ∈ ((cfg0.win 2).blk t).view.set := by
  have hN : cfg0.N = 16 := N_0
  have hi0 : (i 0).val < 8192 := (i 0).isLt
  have hi1 : (i 1).val < 512 := (i 1).isLt
  obtain ⟨h16, hlo, hhi⟩ := row_point (i 0).val hi0
  have hlt : (i 0).val / 512 < cfg0.N := by rw [hN]; exact h16
  refine ⟨⟨(i 0).val / 512, hlt⟩, flush0_2 _, ?_⟩
  rw [q_mem_blk]
  obtain ⟨-, -, -, -, e0, e1⟩ := q_index ⟨(i 0).val / 512, hlt⟩
  intro a
  match a with
  | ⟨0, _⟩ => show win0_2.index _ (0 : Fin 2) * 512 ≤ (i 0).val ∧ (i 0).val < win0_2.index _ (0 : Fin 2) * 512 + 512; rw [e0]; exact ⟨hlo, hhi⟩
  | ⟨1, _⟩ => show win0_2.index _ (1 : Fin 2) * 512 ≤ (i 1).val ∧ (i 1).val < win0_2.index _ (1 : Fin 2) * 512 + 512; rw [e1]; omega

/-- The Q call's output array after its 16 points. -/
theorem q_array (c : Dev nD) :
    (qdat (F := Ideal) V c).arrAt 2 cfg0.N = Cert.Spec.projS (V c main_arg0) (V c main_v0) :=
  (qdat (F := Ideal) V c).arrAt_eq_of_cover 2 (Cert.Spec.projS (V c main_arg0) (V c main_v0)) (fun t _ => q_flushed V c t) q_cover

/-! ### The K / V call -/

/-- The index maps over the 16 points: the three row-block windows (the input, the two outputs) sit at block
    row t, block column 0; the two weights' windows at block (0, 0), the whole arrays. -/
theorem kv_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row p of the input block at point t is row 512 t + p of the input array. -/
theorem kv_rows (c : Dev nD) (t : Fin cfg1.N) (p : Fin 512) (d : Fin 2048) (h : 512 * t.val + p.val < 8192) :
    (kvblk (F := Ideal) V c 0 t : Vec Ideal S512x2048 .f32) (ValueIdx.ix2 p d)
      = (V c main_arg1 : S8192x2048.Idx → EReal) (ValueIdx.ix2 (⟨512 * t.val + p.val, h⟩ : Fin 8192) d) := by
  obtain ⟨e0, e1, -⟩ := kv_index t
  unfold kvblk
  rw [View.read_apply]
  show V c main_arg1 _ = V c main_arg1 _
  congr 1
  funext a
  apply Fin.ext
  match a with
  | ⟨0, _⟩ => show win1_0.index t (0 : Fin 2) * 512 + 1 * p.val = 512 * t.val + p.val; omega
  | ⟨1, _⟩ => show win1_0.index t (1 : Fin 2) * 2048 + 1 * d.val = d.val; omega

/-- The first weight's block at any point is the first weight array. -/
theorem k_weight (c : Dev nD) (t : Fin cfg1.N) (f : Fin 512) (d : Fin 2048) :
    (kvblk (F := Ideal) V c 1 t : Vec Ideal S512x2048 .bf16) (ValueIdx.ix2 f d)
      = (V c main_v1 : S512x2048.Idx → EReal) (ValueIdx.ix2 f d) := by
  obtain ⟨-, -, e0, e1, -⟩ := kv_index t
  unfold kvblk
  rw [View.read_apply]
  show V c main_v1 _ = V c main_v1 _
  congr 1
  funext a
  apply Fin.ext
  match a with
  | ⟨0, _⟩ => show win1_1.index t (0 : Fin 2) * 512 + 1 * f.val = f.val; omega
  | ⟨1, _⟩ => show win1_1.index t (1 : Fin 2) * 2048 + 1 * d.val = d.val; omega

/-- The second weight's block at any point is the second weight array. -/
theorem v_weight (c : Dev nD) (t : Fin cfg1.N) (f : Fin 512) (d : Fin 2048) :
    (kvblk (F := Ideal) V c 2 t : Vec Ideal S512x2048 .bf16) (ValueIdx.ix2 f d)
      = (V c main_v2 : S512x2048.Idx → EReal) (ValueIdx.ix2 f d) := by
  obtain ⟨-, -, -, -, e0, e1, -⟩ := kv_index t
  unfold kvblk
  rw [View.read_apply]
  show V c main_v2 _ = V c main_v2 _
  congr 1
  funext a
  apply Fin.ext
  match a with
  | ⟨0, _⟩ => show win1_2.index t (0 : Fin 2) * 512 + 1 * f.val = f.val; omega
  | ⟨1, _⟩ => show win1_2.index t (1 : Fin 2) * 2048 + 1 * d.val = d.val; omega

/-- What point t writes back to the first output is block t of the projection by the first weight. -/
theorem k_flushed (c : Dev nD) (t : Fin cfg1.N) :
    (kvdat (F := Ideal) V c).flushed 3 t
      = ((cfg1.win 3).blk t).view.read (Elt Ideal) (Cert.Spec.proj (V c main_arg1) (V c main_v1)) := by
  show (cfg1.win 3).cut (grid1.coords t) ((kvdat (F := Ideal) V c).after 3 t) = _
  rw [kvdat_after3]
  obtain ⟨-, -, -, -, -, -, e0, e1, -⟩ := kv_index t
  have hN : grid1.N = 16 := N_1
  have ht : t.val < grid1.N := t.isLt
  funext j
  obtain ⟨p, f, rfl⟩ : ∃ (p : Fin 512) (f : Fin 512), j = ValueIdx.ix2 p f := ⟨j 0, j 1, ValueIdx.eq_ix2 j⟩
  have hp := p.isLt
  have hr : 512 * t.val + p.val < 8192 := by omega
  have he : ((cfg1.win 3).blk t).view.emb (ValueIdx.ix2 p f) = (ValueIdx.ix2 (⟨512 * t.val + p.val, hr⟩ : Fin 8192) f : S8192x512.Idx) := by
    funext a
    apply Fin.ext
    match a with
    | ⟨0, _⟩ => show win1_3.index t (0 : Fin 2) * 512 + 1 * p.val = 512 * t.val + p.val; omega
    | ⟨1, _⟩ => show win1_3.index t (1 : Fin 2) * 512 + 1 * f.val = f.val; omega
  show k1_pay2 (kvblk V c 0 t) (kvblk V c 1 t) (ValueIdx.ix2 p f)
    = Cert.Spec.proj (V c main_arg1) (V c main_v1) (((cfg1.win 3).blk t).view.emb (ValueIdx.ix2 p f))
  rw [he, k_payload, proj_at]
  refine Finset.sum_congr rfl fun d _ => ?_
  rw [kv_rows V c t p d hr, k_weight V c t f d]

/-- What point t writes back to the second output is block t of the projection by the second weight. -/
theorem v_flushed (c : Dev nD) (t : Fin cfg1.N) :
    (kvdat (F := Ideal) V c).flushed 4 t
      = ((cfg1.win 4).blk t).view.read (Elt Ideal) (Cert.Spec.proj (V c main_arg1) (V c main_v2)) := by
  show (cfg1.win 4).cut (grid1.coords t) ((kvdat (F := Ideal) V c).after 4 t) = _
  rw [kvdat_after4]
  obtain ⟨-, -, -, -, -, -, -, -, e0, e1⟩ := kv_index t
  have hN : grid1.N = 16 := N_1
  have ht : t.val < grid1.N := t.isLt
  funext j
  obtain ⟨p, f, rfl⟩ : ∃ (p : Fin 512) (f : Fin 512), j = ValueIdx.ix2 p f := ⟨j 0, j 1, ValueIdx.eq_ix2 j⟩
  have hp := p.isLt
  have hr : 512 * t.val + p.val < 8192 := by omega
  have he : ((cfg1.win 4).blk t).view.emb (ValueIdx.ix2 p f) = (ValueIdx.ix2 (⟨512 * t.val + p.val, hr⟩ : Fin 8192) f : S8192x512.Idx) := by
    funext a
    apply Fin.ext
    match a with
    | ⟨0, _⟩ => show win1_4.index t (0 : Fin 2) * 512 + 1 * p.val = 512 * t.val + p.val; omega
    | ⟨1, _⟩ => show win1_4.index t (1 : Fin 2) * 512 + 1 * f.val = f.val; omega
  show k1_pay3 (kvblk V c 0 t) (kvblk V c 2 t) (ValueIdx.ix2 p f)
    = Cert.Spec.proj (V c main_arg1) (V c main_v2) (((cfg1.win 4).blk t).view.emb (ValueIdx.ix2 p f))
  rw [he, v_payload, proj_at]
  refine Finset.sum_congr rfl fun d _ => ?_
  rw [kv_rows V c t p d hr, v_weight V c t f d]

/-- An index of the first output array is in point t's block iff each coordinate is in the block's range on its axis. -/
theorem k_mem_blk (t : Fin cfg1.N) (i : S8192x512.Idx) :
    i ∈ ((cfg1.win 3).blk t).view.set ↔ ∀ a : Fin 2, win1_3.index t a * S512x512.size a ≤ (i a).val ∧ (i a).val < win1_3.index t a * S512x512.size a + S512x512.size a := by
  show i ∈ ((View.whole main_v4_0).slice (win1_3.rect t)).set ↔ _
  rw [View.set_slice_whole, Rect.mem_set_unit]
  exact Iff.rfl

/-- The same for the second output array. -/
theorem v_mem_blk (t : Fin cfg1.N) (i : S8192x512.Idx) :
    i ∈ ((cfg1.win 4).blk t).view.set ↔ ∀ a : Fin 2, win1_4.index t a * S512x512.size a ≤ (i a).val ∧ (i a).val < win1_4.index t a * S512x512.size a + S512x512.size a := by
  show i ∈ ((View.whole main_v4_1).slice (win1_4.rect t)).set ↔ _
  rw [View.set_slice_whole, Rect.mem_set_unit]
  exact Iff.rfl

/-- Every index of the first output array is in the block of the point of its row. -/
theorem k_cover (i : S8192x512.Idx) : ∃ t : Fin cfg1.N, (cfg1.win 3).flush t = true ∧ i ∈ ((cfg1.win 3).blk t).view.set := by
  have hN : cfg1.N = 16 := N_1
  have hi0 : (i 0).val < 8192 := (i 0).isLt
  have hi1 : (i 1).val < 512 := (i 1).isLt
  obtain ⟨h16, hlo, hhi⟩ := row_point (i 0).val hi0
  have hlt : (i 0).val / 512 < cfg1.N := by rw [hN]; exact h16
  refine ⟨⟨(i 0).val / 512, hlt⟩, flush1_3 _, ?_⟩
  rw [k_mem_blk]
  obtain ⟨-, -, -, -, -, -, e0, e1, -⟩ := kv_index ⟨(i 0).val / 512, hlt⟩
  intro a
  match a with
  | ⟨0, _⟩ => show win1_3.index _ (0 : Fin 2) * 512 ≤ (i 0).val ∧ (i 0).val < win1_3.index _ (0 : Fin 2) * 512 + 512; rw [e0]; exact ⟨hlo, hhi⟩
  | ⟨1, _⟩ => show win1_3.index _ (1 : Fin 2) * 512 ≤ (i 1).val ∧ (i 1).val < win1_3.index _ (1 : Fin 2) * 512 + 512; rw [e1]; omega

/-- Every index of the second output array is in the block of the point of its row. -/
theorem v_cover (i : S8192x512.Idx) : ∃ t : Fin cfg1.N, (cfg1.win 4).flush t = true ∧ i ∈ ((cfg1.win 4).blk t).view.set := by
  have hN : cfg1.N = 16 := N_1
  have hi0 : (i 0).val < 8192 := (i 0).isLt
  have hi1 : (i 1).val < 512 := (i 1).isLt
  obtain ⟨h16, hlo, hhi⟩ := row_point (i 0).val hi0
  have hlt : (i 0).val / 512 < cfg1.N := by rw [hN]; exact h16
  refine ⟨⟨(i 0).val / 512, hlt⟩, flush1_4 _, ?_⟩
  rw [v_mem_blk]
  obtain ⟨-, -, -, -, -, -, -, -, e0, e1⟩ := kv_index ⟨(i 0).val / 512, hlt⟩
  intro a
  match a with
  | ⟨0, _⟩ => show win1_4.index _ (0 : Fin 2) * 512 ≤ (i 0).val ∧ (i 0).val < win1_4.index _ (0 : Fin 2) * 512 + 512; rw [e0]; exact ⟨hlo, hhi⟩
  | ⟨1, _⟩ => show win1_4.index _ (1 : Fin 2) * 512 ≤ (i 1).val ∧ (i 1).val < win1_4.index _ (1 : Fin 2) * 512 + 512; rw [e1]; omega

/-- The K / V call's first output array after its 16 points. -/
theorem k_array (c : Dev nD) :
    (kvdat (F := Ideal) V c).arrAt 3 cfg1.N = Cert.Spec.proj (V c main_arg1) (V c main_v1) :=
  (kvdat (F := Ideal) V c).arrAt_eq_of_cover 3 (Cert.Spec.proj (V c main_arg1) (V c main_v1)) (fun t _ => k_flushed V c t) k_cover

/-- The K / V call's second output array after its 16 points. -/
theorem v_array (c : Dev nD) :
    (kvdat (F := Ideal) V c).arrAt 4 cfg1.N = Cert.Spec.proj (V c main_arg1) (V c main_v2) :=
  (kvdat (F := Ideal) V c).arrAt_eq_of_cover 4 (Cert.Spec.proj (V c main_arg1) (V c main_v2)) (fun t _ => v_flushed V c t) v_cover

end Cert.KernelIdeal.Hand

end
-- ==== Proof.RunValue.lean ====
/-
  The last valuation at the result buffer, at the ideal instance: the causal product's output array is
  Spec.attnTiles of the three projected arrays, which are Spec.projS x Wq, Spec.proj y Wk and Spec.proj y Wv of the
  launch contents (a cast of a weight is the identity on extended reals); so the result is Spec.attnK of the inputs.
-/
import proofs.«425182_j55671366091048_3_alg».proof.Proof.Gen.KernelIdeal.Launch
import proofs.«425182_j55671366091048_3_alg».proof.Proof.Gen.KernelIdeal.Skeleton
import proofs.«425182_j55671366091048_3_alg».proof.Proof.Gen.KernelIdeal.Points
import proofs.«425182_j55671366091048_3_alg».proof.Proof.Between
import proofs.«425182_j55671366091048_3_alg».proof.Proof.ProjValue
import proofs.«425182_j55671366091048_3_alg».proof.Proof.Spec
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝔽" => Idealize.ShloMosaic.Ideal
local notation "𝕄" => MT nD τ sig Unit (Elt 𝔽) ℕ (UR sig nD τ) ℕ

variable (m : (ℓ : Loc nD τ sig) → Buf (Elt 𝔽) ℓ)

/-! ## The cast weights after the host stretch

On extended reals a change of float format is the identity, so each cast weight buffer holds its weight argument. -/

/-- The Q weight's cast buffer holds the Q weight. -/
theorem cast_wq (c : Dev nD) :
    (V1 m c main_v0 : S512x2048.Idx → EReal) = m ((c : Thread nD τ).loc main_arg2) := by
  show StableHlo.after hostOps0 (W0 m c) (Proc.devRef .tc main_v0) = _
  after_results; rfl

/-- The K weight's cast buffer holds the K weight. -/
theorem cast_wk (c : Dev nD) :
    (V1 m c main_v1 : S512x2048.Idx → EReal) = m ((c : Thread nD τ).loc main_arg3) := by
  show StableHlo.after hostOps0 (W0 m c) (Proc.devRef .tc main_v1) = _
  after_results; rfl

/-- The V weight's cast buffer holds the V weight. -/
theorem cast_wv (c : Dev nD) :
    (V1 m c main_v2 : S512x2048.Idx → EReal) = m ((c : Thread nD τ).loc main_arg4) := by
  show StableHlo.after hostOps0 (W0 m c) (Proc.devRef .tc main_v2) = _
  after_results; rfl

/-! ## The three projected arrays as the causal product finds them -/

/-- The scaled Q projection: written by the first call, untouched by the second. -/
theorem entry_q (c : Dev nD) :
    (V3 m c main_v3 : S8192x512.Idx → EReal)
      = Cert.Spec.projS (m ((c : Thread nD τ).loc main_arg0)) (m ((c : Thread nD τ).loc main_arg2)) := by
  refine (W3_of_ne m c main_v3 (by decide)).trans <| (W2_arr m c 2).trans <| (q_array (V1 m) c).trans ?_
  rw [W1_kept m c main_arg0 (by decide), cast_wq m c]

/-- The K projection: the second call's first output, over the second input as launched. -/
theorem entry_k (c : Dev nD) :
    (V3 m c main_v4_0 : S8192x512.Idx → EReal)
      = Cert.Spec.proj (m ((c : Thread nD τ).loc main_arg1)) (m ((c : Thread nD τ).loc main_arg3)) := by
  refine (W3_arr m c 3).trans <| (k_array (V2 m) c).trans ?_
  have ha : V2 m c main_arg1 = m ((c : Thread nD τ).loc main_arg1) :=
    (W2_of_ne m c main_arg1 (by decide)).trans (W1_kept m c main_arg1 (by decide))
  have hw : (V2 m c main_v1 : S512x2048.Idx → EReal) = m ((c : Thread nD τ).loc main_arg3) :=
    (W2_of_ne m c main_v1 (by decide)).trans (cast_wk m c)
  rw [ha, hw]

/-- The V projection: the second call's second output, over the second input as launched. -/
theorem entry_v (c : Dev nD) :
    (V3 m c main_v4_1 : S8192x512.Idx → EReal)
      = Cert.Spec.proj (m ((c : Thread nD τ).loc main_arg1)) (m ((c : Thread nD τ).loc main_arg4)) := by
  refine (W3_arr m c 4).trans <| (v_array (V2 m) c).trans ?_
  have ha : V2 m c main_arg1 = m ((c : Thread nD τ).loc main_arg1) :=
    (W2_of_ne m c main_arg1 (by decide)).trans (W1_kept m c main_arg1 (by decide))
  have hw : (V2 m c main_v2 : S512x2048.Idx → EReal) = m ((c : Thread nD τ).loc main_arg4) :=
    (W2_of_ne m c main_v2 (by decide)).trans (cast_wv m c)
  rw [ha, hw]

/-- The result buffer at the end, given what the causal product leaves as a function of its three input arrays. -/
theorem kernel_value
    (hout : ∀ c : Dev nD, (adat (V3 m) c).arrAt 3 cfgA.N = Cert.Spec.attnTiles (V3 m c main_v3) (V3 m c main_v4_0) (V3 m c main_v4_1))
    (c : Dev nD) :
    V4 m c main_v5 = Cert.Spec.attnK (m ((c : Thread nD τ).loc main_arg0)) (m ((c : Thread nD τ).loc main_arg1))
      (m ((c : Thread nD τ).loc main_arg2)) (m ((c : Thread nD τ).loc main_arg3)) (m ((c : Thread nD τ).loc main_arg4)) := by
  have h0 : V4 m c main_v5 = (adat (V3 m) c).arrAt 3 cfgA.N := W4_arr m c 3
  rw [h0, hout c, entry_q m c, entry_k m c, entry_v m c]
  rfl

end Cert.KernelIdeal.Hand

end
-- ==== Proof.Bits.AttnData.lean ====
/-
  The third call: the causal product.  Its grid is 8 x 8; grid row g works on query tile perm(g), where
  perm = 0, 7, 1, 6, 2, 5, 3, 4 is a table the call reads; the inner coordinate j runs over the key tiles.  The body
  keeps an accumulator across the inner axis: zeroed at j = 0, the full product of the query tile with key tile j added
  for j < perm(g), the strictly-lower-triangular product for j = perm(g), nothing after; the output block is stored at
  j = 7 only.  Here: the table, the pipeline at it, the body's branch conditions, one step of the accumulator as a
  function of what it held and the three input blocks, its trajectory over the 64 grid points, and the pipeline's
  proof data (each input buffer keeps its block; the output buffer ends a grid row at the accumulator).
-/
import proofs.«425182_j55671366091048_3_alg».proof.Proof.Gen.Kernel.Launch
import proofs.«425182_j55671366091048_3_alg».proof.Proof.Gen.Kernel.Skeleton
import proofs.«425182_j55671366091048_3_alg».proof.Proof.Gen.Kernel.Points
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝔽" => Idealize.ShloMosaic.Bits
local notation "𝕄" => MT nD τ sig Unit (Elt 𝔽) ℕ (UR sig nD τ) ℕ

/-- The table the third call reads: the balanced order 0, 7, 1, 6, 2, 5, 3, 4 of the query tiles. -/
def tbl : pre2.Contents (Elt 𝔽) := fun | ⟨0, _⟩ => fun i => lit0 (S8.rowMajor i)

theorem tbl_ok : ok2 (F := 𝔽) tbl := by decide +kernel

def adm2 : (pcfg2 (F := 𝔽)).Adm := ⟨tbl, tbl_ok⟩

def adm : (p : Fin 3) → (pcfgs (F := 𝔽) p).Adm
  | ⟨0, _⟩ => cfg0.toPCfg_adm
  | ⟨1, _⟩ => cfg1.toPCfg_adm
  | ⟨2, _⟩ => adm2

abbrev cfgA : Pipeline.Cfg sig Λ₀ := cfg2 (F := 𝔽) adm2

/-- The scratch accumulator as a memref. -/
abbrev scM : Memref sig .tc .vmem S1024x512 .f32 := Memref.whole cc2_scratch0
/-- The table as the body is handed it. -/
abbrev tbM : Memref sig .tc .smem S8 .i32 := Memref.whole main_c

/-- The body's four branch conditions at grid coordinates i, the second and third over the table's word w. -/
abbrev isFirst (i : grid2.Coords) : Prop := Scalar.cmpi .ne (Scalar.extui (Scalar.cmpi .eq (BitVec.ofNat 32 (i 1).val) 0#32)) 0#32 = 1#1
abbrev isBelow (i : grid2.Coords) (w : BitVec 32) : Prop := Scalar.cmpi .ne (Scalar.extui (Scalar.cmpi .slt (BitVec.ofNat 32 (i 1).val) w)) 0#32 = 1#1
abbrev isDiag (i : grid2.Coords) (w : BitVec 32) : Prop := Scalar.cmpi .ne (Scalar.extui (Scalar.cmpi .eq (BitVec.ofNat 32 (i 1).val) w)) 0#32 = 1#1
abbrev isLast (i : grid2.Coords) : Prop := k2_cond4 i = 1#1

/-- The table's word the body loads at grid coordinates i: the query tile this grid row works on. -/
abbrev qtile (i : grid2.Coords) : BitVec 32 :=
  View.readAt (Elt 𝔽) tbM.view (Rect.unit (s := S8) (k2_off1 i) S1.size (k2_off1_inb i)).toLoadRect
    ((Memref.isWhole_whole main_c).unread (tbl 0)) (Shape.Idx.first (numel1_S1.symm ▸ Nat.one_pos))

/-- What one run of the body leaves in the accumulator, from what it found there (a) and the three input blocks:
    reset at the first key tile, the full product added below the diagonal tile, the masked product on it. -/
def accStep (i : grid2.Coords) (a : Vec 𝔽 S1024x512 .f32) (q k v : Vec 𝔽 S1024x512 .bf16) : Vec 𝔽 S1024x512 .f32 :=
  let s1 := if isFirst i then k2_pay1 (F := 𝔽) else a
  let s2 := if isBelow i (qtile i) then k2_pay2 q k v s1 else s1
  if isDiag i (qtile i) then k2_pay3 q k v s2 else s2

variable (V : (c : Dev nD) → (b : Ref sig .tc) → Buf (Elt 𝔽) ((c : Thread nD τ).loc b))

/-- Window w's block at grid point t, read off the array as the call finds it. -/
def ablk (c : Dev nD) (w : Fin cfgA.W) (t : Fin cfgA.N) : ((cfgA.win w).xblock (cfgA.grid.coords t)).Idx → Elt 𝔽 (cfgA.win w).elt :=
  ((cfgA.win w).blk t).view.read (Elt 𝔽) (V c (Pipeline.arrRef cfgA.spec w))

/-- The accumulator after grid points 0 .. n-1 (before point 0 a placeholder: the first point resets it). -/
def accUpTo (c : Dev nD) : ℕ → Vec 𝔽 S1024x512 .f32
  | 0 => k2_pay1 (F := 𝔽)
  | n + 1 =>
    if h : n < cfgA.N then
      accStep (cfgA.grid.coords ⟨n, h⟩) (accUpTo c n) (ablk V c 0 ⟨n, h⟩) (ablk V c 1 ⟨n, h⟩) (ablk V c 2 ⟨n, h⟩)
    else accUpTo c n

theorem accUpTo_succ (c : Dev nD) (t : Fin cfgA.N) :
    accUpTo V c (t.val + 1) = accStep (cfgA.grid.coords t) (accUpTo V c t.val) (ablk V c 0 t) (ablk V c 1 t) (ablk V c 2 t) := by
  rw [accUpTo, dif_pos t.isLt]

/-- The core's scoped buffers that are neither a staging buffer of this call nor its accumulator, each at some contents. -/
def otherScoped (c : Dev nD) : sProp 𝕄 :=
  iprop((∃ f : Buf (Elt 𝔽) ((c : Thread nD τ).loc cc0_stg0_0), ((c : Thread nD τ).loc cc0_stg0_0) ↦{fullShare} f)
      ∗ (∃ f : Buf (Elt 𝔽) ((c : Thread nD τ).loc cc0_stg0_1), ((c : Thread nD τ).loc cc0_stg0_1) ↦{fullShare} f)
      ∗ (∃ f : Buf (Elt 𝔽) ((c : Thread nD τ).loc cc0_stg1_0), ((c : Thread nD τ).loc cc0_stg1_0) ↦{fullShare} f)
      ∗ (∃ f : Buf (Elt 𝔽) ((c : Thread nD τ).loc cc0_stg2_0), ((c : Thread nD τ).loc cc0_stg2_0) ↦{fullShare} f)
      ∗ (∃ f : Buf (Elt 𝔽) ((c : Thread nD τ).loc cc0_stg2_1), ((c : Thread nD τ).loc cc0_stg2_1) ↦{fullShare} f)
      ∗ (∃ f : Buf (Elt 𝔽) ((c : Thread nD τ).loc cc1_stg0_0), ((c : Thread nD τ).loc cc1_stg0_0) ↦{fullShare} f)
      ∗ (∃ f : Buf (Elt 𝔽) ((c : Thread nD τ).loc cc1_stg0_1), ((c : Thread nD τ).loc cc1_stg0_1) ↦{fullShare} f)
      ∗ (∃ f : Buf (Elt 𝔽) ((c : Thread nD τ).loc cc1_stg1_0), ((c : Thread nD τ).loc cc1_stg1_0) ↦{fullShare} f)
      ∗ (∃ f : Buf (Elt 𝔽) ((c : Thread nD τ).loc cc1_stg2_0), ((c : Thread nD τ).loc cc1_stg2_0) ↦{fullShare} f)
      ∗ (∃ f : Buf (Elt 𝔽) ((c : Thread nD τ).loc cc1_stg3_0), ((c : Thread nD τ).loc cc1_stg3_0) ↦{fullShare} f)
      ∗ (∃ f : Buf (Elt 𝔽) ((c : Thread nD τ).loc cc1_stg3_1), ((c : Thread nD τ).loc cc1_stg3_1) ↦{fullShare} f)
      ∗ (∃ f : Buf (Elt 𝔽) ((c : Thread nD τ).loc cc1_stg4_0), ((c : Thread nD τ).loc cc1_stg4_0) ↦{fullShare} f)
      ∗ (∃ f : Buf (Elt 𝔽) ((c : Thread nD τ).loc cc1_stg4_1), ((c : Thread nD τ).loc cc1_stg4_1) ↦{fullShare} f))

/-- What the body carries between grid points: the scoped buffers it does not touch and the generator register at
    anything, the table at its contents, the accumulator at acc once some point has stored it (known). -/
def attnInv (c : Dev nD) (acc : Vec 𝔽 S1024x512 .f32) (known : Prop) : sProp 𝕄 :=
  iprop(otherScoped c ∗ (∃ r, prngReg c r) ∗ owns (c : Thread nD τ) tbM fullShare (tbl 0)
    ∗ ∃ a, ⌜known → a = acc⌝ ∗ owns (c : Thread nD τ) scM fullShare a)

/-- Per core: the arrays as found; after the body each input buffer at its block and the output buffer at the
    accumulator (what the last point of a grid row stores; elsewhere the window is idle); the invariant above with
    the accumulator's trajectory, known from the first point on. -/
def adat (c : Dev nD) : Dat τ (Elt 𝔽) Unit ℕ (UR sig nD τ) ℕ cfgA c where
  A w := V c (Pipeline.arrRef cfgA.spec w)
  after w t := match w with
    | ⟨0, _⟩ => ablk V c 0 t
    | ⟨1, _⟩ => ablk V c 1 t
    | ⟨2, _⟩ => ablk V c 2 t
    | ⟨3, _⟩ => accUpTo V c (t.val + 1)
  Φ t := attnInv c (accUpTo V c t.val) (t.val ≠ 0)
  q _ := fullShare
  owed _ := 0

theorem adat_A (c : Dev nD) (w : Fin cfgA.W) : (adat V c).A w = V c (Pipeline.arrRef cfgA.spec w) := by
  dsimp only [adat]
theorem adat_after0 (c : Dev nD) (t : Fin cfgA.N) : (adat V c).after 0 t = ablk V c 0 t := by dsimp only [adat]
theorem adat_after1 (c : Dev nD) (t : Fin cfgA.N) : (adat V c).after 1 t = ablk V c 1 t := by dsimp only [adat]
theorem adat_after2 (c : Dev nD) (t : Fin cfgA.N) : (adat V c).after 2 t = ablk V c 2 t := by dsimp only [adat]
theorem adat_after3 (c : Dev nD) (t : Fin cfgA.N) : (adat V c).after 3 t = accUpTo V c (t.val + 1) := by dsimp only [adat]
theorem adat_Φ (c : Dev nD) (t : Fin (cfgA.N + 1)) : (adat V c).Φ t = attnInv c (accUpTo V c t.val) (t.val ≠ 0) := by dsimp only [adat]

end Cert.Kernel.Hand

end
-- ==== Proof.Bits.AttnFrame.lean ====
/-
  The third call's body obligation: one run of the body, whatever its four branch conditions, takes the accumulator
  from a to accStep of a and the three input blocks, leaves the inputs and the table alone, and stores the
  accumulator into the output buffer exactly when the key coordinate is the last; so at every grid point the body
  leaves each window's buffer at what the proof data says and the invariant at the next point's.
-/
import proofs.«425182_j55671366091048_3_alg».proof.Proof.Gen.Kernel.Launch
import proofs.«425182_j55671366091048_3_alg».proof.Proof.Gen.Kernel.Skeleton
import proofs.«425182_j55671366091048_3_alg».proof.Proof.Gen.Kernel.Points
import proofs.«425182_j55671366091048_3_alg».proof.Proof.Bits.AttnData
import Idealize.ShloMosaic.Lib.Pipeline.Value
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝔽" => Idealize.ShloMosaic.Bits
local notation "𝕄" => MT nD τ sig Unit (Elt 𝔽) ℕ (UR sig nD τ) ℕ

variable (V : (c : Dev nD) → (b : Ref sig .tc) → Buf (Elt 𝔽) ((c : Thread nD τ).loc b))

/-! ## Loading and storing a whole staging buffer -/

/-- The two zero offsets, as the constant function. -/
theorem origin2 : (![0, 0] : Fin 2 → Nat) = fun _ => 0 := funext fun a => by fin_cases a <;> rfl

section WholeBuffer

variable {Val : EltTy → Type} {sg : RefSig} {κ : Kind} {sp : Space} {S : Shape} {e : EltTy}

/-- A load of the whole buffer, through the rectangle of the buffer's own sizes at the origin, reads what the
    buffer reads. -/
theorem readAt_origin (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- A store of the whole buffer made last reads back as the stored value, whatever was stored before it and
    whatever the buffer held. -/
theorem read_store_last [∀ e, Nonempty (Val e)] (v : View sg κ sp S e) (f : v.ty.Contents Val) {off : Fin S.rank → Nat}
    (h : off = fun _ => 0) (inb : ∀ a, off a + S.size a ≤ S.size a) (p : S.Idx → Val e) (L : List (View.Piece Val S e)) :
    v.read Val (v.writes Val f ((⟨Rect.unit off S.size inb, p⟩ : View.Piece Val S e) :: L)) = p := by
  rw [View.read_writes_eq_canon v f _ (fun y => ⟨_, List.mem_cons_self, View.mem_set_unit_zero h inb y⟩),
    View.canon_cons_unit_zero h inb p L]

end WholeBuffer

/-! ## One run of the body, its four conditions decided

The body's control is four conditionals in sequence, so a run is settled once each condition is: sixteen runs, each
through the same steps. The first condition overwrites the accumulator with zeros, the second and the third load it
(what was just stored, or what it held) and the three inputs and overwrite it with the stepped value, the fourth loads
it and overwrites the output buffer with it. Every load and store is of a whole buffer, so a load after a store reads
that store's value and the last store is what the buffer holds. -/

section Runs

variable (c : Dev nD) (E : Set ℕ) (i : grid2.Coords)
  (arg3 : Memref sig .tc .vmem S1024x512 .bf16) (h3 : arg3.IsWhole) (arg4 : Memref sig .tc .vmem S1024x512 .bf16) (h4 : arg4.IsWhole)
  (arg5 : Memref sig .tc .vmem S1024x512 .bf16) (h5 : arg5.IsWhole) (arg6 : Memref sig .tc .vmem S1024x512 .f32) (h6 : arg6.IsWhole)
  (q k v : Vec 𝔽 S1024x512 .bf16) (a o : Vec 𝔽 S1024x512 .f32) (K : PUnit → sProp 𝕄)

/-- The body's triple, as a proposition of its parameters: what each of the sixteen runs proves. -/
def AttnTriple : Prop :=
  iprop(owns (c : Thread nD τ) tbM fullShare (tbl 0)
      ∗ owns (c : Thread nD τ) arg3 fullShare q ∗ owns (c : Thread nD τ) arg4 fullShare k ∗ owns (c : Thread nD τ) arg5 fullShare v
      ∗ owns (c : Thread nD τ) arg6 fullShare o ∗ owns (c : Thread nD τ) scM fullShare a
      ∗ (iprop(owns (c : Thread nD τ) tbM fullShare (tbl 0)
          ∗ owns (c : Thread nD τ) arg3 fullShare q ∗ owns (c : Thread nD τ) arg4 fullShare k ∗ owns (c : Thread nD τ) arg5 fullShare v
          ∗ owns (c : Thread nD τ) arg6 fullShare (if isLast i then accStep i a q k v else o)
          ∗ owns (c : Thread nD τ) scM fullShare (accStep i a q k v)) -∗ K ⟨⟩))
    ⊢ wp frame (wpE (defs₀ (F := 𝔽)) Variants.none c none) E
        (cc2__attn_kernel i tbM (Memref.isWhole_whole _) arg3 h3 arg4 h4 arg5 h5 arg6 h6 scM (Memref.isWhole_whole _)) K

set_option hygiene false in
/-- One run of the body with its four conditions decided (hc1 … hc4, each either way); e1 … e4 are the matching
    evaluations of the four conditionals. -/
local macro "attn_run " e1:term:max e2:term:max e3:term:max e4:term:max : tactic => `(tactic| (
  unfold AttnTriple
  simp only [cc2__attn_kernel_eq_skeleton]; unfold cc2__attn_kernel_skel
  unfold owns
  iintro ⟨⟨%fT, %hfT, HT⟩, ⟨%f3, %hf3, H3⟩, ⟨%f4, %hf4, H4⟩, ⟨%f5, %hf5, H5⟩, ⟨%f6, %hf6, H6⟩, ⟨%f7, %hf7, H7⟩, Hk⟩
  subst hf3 hf4 hf5 hf6 hf7
  obtain rfl := (Memref.isWhole_whole main_c).eq_unread hfT
  sl_exec (disch := first | sl_exact hc1 | sl_exact hc2 | sl_exact hc3 | sl_exact hc4)
  sl_step
  iapply Hk
  isplitl [HT]
  · iexists _; isplitr; · ipureintro; exact (Memref.isWhole_whole main_c).read_unread _
    iexact HT
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_words
    simp only [accStep, $e1:term, $e2:term, $e3:term, $e4:term, read_store_last (S := S1024x512) _ _ origin2,
      readAt_origin (S := S1024x512) _ _ origin2, View.readCov_cons_toLoadRect]
  iexists _; isplitr
  swap; · iexact H7
  ipureintro
  sl_unfold_words
  simp only [accStep, $e1:term, $e2:term, $e3:term, read_store_last (S := S1024x512) _ _ origin2,
    readAt_origin (S := S1024x512) _ _ origin2, View.readCov_cons_toLoadRect]))

set_option maxHeartbeats 1000000 in
theorem run_tttt (hc1 : isFirst i) (hc2 : isBelow i (qtile i)) (hc3 : isDiag i (qtile i)) (hc4 : isLast i) :
    AttnTriple c E i arg3 h3 arg4 h4 arg5 h5 arg6 h6 q k v a o K := by
  attn_run (if_pos hc1) (if_pos hc2) (if_pos hc3) (if_pos hc4)

set_option maxHeartbeats 1000000 in
theorem run_tttf (hc1 : isFirst i) (hc2 : isBelow i (qtile i)) (hc3 : isDiag i (qtile i)) (hc4 : ¬ isLast i) :
    AttnTriple c E i arg3 h3 arg4 h4 arg5 h5 arg6 h6 q k v a o K := by
  attn_run (if_pos hc1) (if_pos hc2) (if_pos hc3) (if_neg hc4)

set_option maxHeartbeats 1000000 in
theorem run_ttft (hc1 : isFirst i) (hc2 : isBelow i (qtile i)) (hc3 : ¬ isDiag i (qtile i)) (hc4 : isLast i) :
    AttnTriple c E i arg3 h3 arg4 h4 arg5 h5 arg6 h6 q k v a o K := by
  attn_run (if_pos hc1) (if_pos hc2) (if_neg hc3) (if_pos hc4)

set_option maxHeartbeats 1000000 in
theorem run_ttff (hc1 : isFirst i) (hc2 : isBelow i (qtile i)) (hc3 : ¬ isDiag i (qtile i)) (hc4 : ¬ isLast i) :
    AttnTriple c E i arg3 h3 arg4 h4 arg5 h5 arg6 h6 q k v a o K := by
  attn_run (if_pos hc1) (if_pos hc2) (if_neg hc3) (if_neg hc4)

set_option maxHeartbeats 1000000 in
theorem run_tftt (hc1 : isFirst i) (hc2 : ¬ isBelow i (qtile i)) (hc3 : isDiag i (qtile i)) (hc4 : isLast i) :
    AttnTriple c E i arg3 h3 arg4 h4 arg5 h5 arg6 h6 q k v a o K := by
  attn_run (if_pos hc1) (if_neg hc2) (if_pos hc3) (if_pos hc4)

set_option maxHeartbeats 1000000 in
theorem run_tftf (hc1 : isFirst i) (hc2 : ¬ isBelow i (qtile i)) (hc3 : isDiag i (qtile i)) (hc4 : ¬ isLast i) :
    AttnTriple c E i arg3 h3 arg4 h4 arg5 h5 arg6 h6 q k v a o K := by
  attn_run (if_pos hc1) (if_neg hc2) (if_pos hc3) (if_neg hc4)

set_option maxHeartbeats 1000000 in
theorem run_tfft (hc1 : isFirst i) (hc2 : ¬ isBelow i (qtile i)) (hc3 : ¬ isDiag i (qtile i)) (hc4 : isLast i) :
    AttnTriple c E i arg3 h3 arg4 h4 arg5 h5 arg6 h6 q k v a o K := by
  attn_run (if_pos hc1) (if_neg hc2) (if_neg hc3) (if_pos hc4)

set_option maxHeartbeats 1000000 in
theorem run_tfff (hc1 : isFirst i) (hc2 : ¬ isBelow i (qtile i)) (hc3 : ¬ isDiag i (qtile i)) (hc4 : ¬ isLast i) :
    AttnTriple c E i arg3 h3 arg4 h4 arg5 h5 arg6 h6 q k v a o K := by
  attn_run (if_pos hc1) (if_neg hc2) (if_neg hc3) (if_neg hc4)

set_option maxHeartbeats 1000000 in
theorem run_fttt (hc1 : ¬ isFirst i) (hc2 : isBelow i (qtile i)) (hc3 : isDiag i (qtile i)) (hc4 : isLast i) :
    AttnTriple c E i arg3 h3 arg4 h4 arg5 h5 arg6 h6 q k v a o K := by
  attn_run (if_neg hc1) (if_pos hc2) (if_pos hc3) (if_pos hc4)

set_option maxHeartbeats 1000000 in
theorem run_fttf (hc1 : ¬ isFirst i) (hc2 : isBelow i (qtile i)) (hc3 : isDiag i (qtile i)) (hc4 : ¬ isLast i) :
    AttnTriple c E i arg3 h3 arg4 h4 arg5 h5 arg6 h6 q k v a o K := by
  attn_run (if_neg hc1) (if_pos hc2) (if_pos hc3) (if_neg hc4)

set_option maxHeartbeats 1000000 in
theorem run_ftft (hc1 : ¬ isFirst i) (hc2 : isBelow i (qtile i)) (hc3 : ¬ isDiag i (qtile i)) (hc4 : isLast i) :
    AttnTriple c E i arg3 h3 arg4 h4 arg5 h5 arg6 h6 q k v a o K := by
  attn_run (if_neg hc1) (if_pos hc2) (if_neg hc3) (if_pos hc4)

set_option maxHeartbeats 1000000 in
theorem run_ftff (hc1 : ¬ isFirst i) (hc2 : isBelow i (qtile i)) (hc3 : ¬ isDiag i (qtile i)) (hc4 : ¬ isLast i) :
    AttnTriple c E i arg3 h3 arg4 h4 arg5 h5 arg6 h6 q k v a o K := by
  attn_run (if_neg hc1) (if_pos hc2) (if_neg hc3) (if_neg hc4)

set_option maxHeartbeats 1000000 in
theorem run_fftt (hc1 : ¬ isFirst i) (hc2 : ¬ isBelow i (qtile i)) (hc3 : isDiag i (qtile i)) (hc4 : isLast i) :
    AttnTriple c E i arg3 h3 arg4 h4 arg5 h5 arg6 h6 q k v a o K := by
  attn_run (if_neg hc1) (if_neg hc2) (if_pos hc3) (if_pos hc4)

set_option maxHeartbeats 1000000 in
theorem run_fftf (hc1 : ¬ isFirst i) (hc2 : ¬ isBelow i (qtile i)) (hc3 : isDiag i (qtile i)) (hc4 : ¬ isLast i) :
    AttnTriple c E i arg3 h3 arg4 h4 arg5 h5 arg6 h6 q k v a o K := by
  attn_run (if_neg hc1) (if_neg hc2) (if_pos hc3) (if_neg hc4)

set_option maxHeartbeats 1000000 in
theorem run_ffft (hc1 : ¬ isFirst i) (hc2 : ¬ isBelow i (qtile i)) (hc3 : ¬ isDiag i (qtile i)) (hc4 : isLast i) :
    AttnTriple c E i arg3 h3 arg4 h4 arg5 h5 arg6 h6 q k v a o K := by
  attn_run (if_neg hc1) (if_neg hc2) (if_neg hc3) (if_pos hc4)

set_option maxHeartbeats 1000000 in
theorem run_ffff (hc1 : ¬ isFirst i) (hc2 : ¬ isBelow i (qtile i)) (hc3 : ¬ isDiag i (qtile i)) (hc4 : ¬ isLast i) :
    AttnTriple c E i arg3 h3 arg4 h4 arg5 h5 arg6 h6 q k v a o K := by
  attn_run (if_neg hc1) (if_neg hc2) (if_neg hc3) (if_neg hc4)

end Runs

/-- The body on whole staging memrefs: the table at its contents, the three inputs at q, k, v, the output buffer at o,
    the accumulator at a; it runs to the continuation with the inputs and the table as they were, the accumulator
    stepped, and the output buffer at the stepped accumulator when the key coordinate is the last, else as it was. -/
theorem attn_body (c : Dev nD) (E : Set ℕ) (i : grid2.Coords)
    (arg3 : Memref sig .tc .vmem S1024x512 .bf16) (h3 : arg3.IsWhole) (arg4 : Memref sig .tc .vmem S1024x512 .bf16) (h4 : arg4.IsWhole)
    (arg5 : Memref sig .tc .vmem S1024x512 .bf16) (h5 : arg5.IsWhole) (arg6 : Memref sig .tc .vmem S1024x512 .f32) (h6 : arg6.IsWhole)
    (q k v : Vec 𝔽 S1024x512 .bf16) (a o : Vec 𝔽 S1024x512 .f32) (K : PUnit → sProp 𝕄) :
    iprop(owns (c : Thread nD τ) tbM fullShare (tbl 0)
        ∗ owns (c : Thread nD τ) arg3 fullShare q ∗ owns (c : Thread nD τ) arg4 fullShare k ∗ owns (c : Thread nD τ) arg5 fullShare v
        ∗ owns (c : Thread nD τ) arg6 fullShare o ∗ owns (c : Thread nD τ) scM fullShare a
        ∗ (iprop(owns (c : Thread nD τ) tbM fullShare (tbl 0)
            ∗ owns (c : Thread nD τ) arg3 fullShare q ∗ owns (c : Thread nD τ) arg4 fullShare k ∗ owns (c : Thread nD τ) arg5 fullShare v
            ∗ owns (c : Thread nD τ) arg6 fullShare (if isLast i then accStep i a q k v else o)
            ∗ owns (c : Thread nD τ) scM fullShare (accStep i a q k v)) -∗ K ⟨⟩))
      ⊢ wp frame (wpE (defs₀ (F := 𝔽)) Variants.none c none) E
          (cc2__attn_kernel i tbM (Memref.isWhole_whole _) arg3 h3 arg4 h4 arg5 h5 arg6 h6 scM (Memref.isWhole_whole _)) K := by
  by_cases hc1 : isFirst i <;> by_cases hc2 : isBelow i (qtile i) <;> by_cases hc3 : isDiag i (qtile i) <;>
    by_cases hc4 : isLast i
  · exact run_tttt c E i arg3 h3 arg4 h4 arg5 h5 arg6 h6 q k v a o K hc1 hc2 hc3 hc4
  · exact run_tttf c E i arg3 h3 arg4 h4 arg5 h5 arg6 h6 q k v a o K hc1 hc2 hc3 hc4
  · exact run_ttft c E i arg3 h3 arg4 h4 arg5 h5 arg6 h6 q k v a o K hc1 hc2 hc3 hc4
  · exact run_ttff c E i arg3 h3 arg4 h4 arg5 h5 arg6 h6 q k v a o K hc1 hc2 hc3 hc4
  · exact run_tftt c E i arg3 h3 arg4 h4 arg5 h5 arg6 h6 q k v a o K hc1 hc2 hc3 hc4
  · exact run_tftf c E i arg3 h3 arg4 h4 arg5 h5 arg6 h6 q k v a o K hc1 hc2 hc3 hc4
  · exact run_tfft c E i arg3 h3 arg4 h4 arg5 h5 arg6 h6 q k v a o K hc1 hc2 hc3 hc4
  · exact run_tfff c E i arg3 h3 arg4 h4 arg5 h5 arg6 h6 q k v a o K hc1 hc2 hc3 hc4
  · exact run_fttt c E i arg3 h3 arg4 h4 arg5 h5 arg6 h6 q k v a o K hc1 hc2 hc3 hc4
  · exact run_fttf c E i arg3 h3 arg4 h4 arg5 h5 arg6 h6 q k v a o K hc1 hc2 hc3 hc4
  · exact run_ftft c E i arg3 h3 arg4 h4 arg5 h5 arg6 h6 q k v a o K hc1 hc2 hc3 hc4
  · exact run_ftff c E i arg3 h3 arg4 h4 arg5 h5 arg6 h6 q k v a o K hc1 hc2 hc3 hc4
  · exact run_fftt c E i arg3 h3 arg4 h4 arg5 h5 arg6 h6 q k v a o K hc1 hc2 hc3 hc4
  · exact run_fftf c E i arg3 h3 arg4 h4 arg5 h5 arg6 h6 q k v a o K hc1 hc2 hc3 hc4
  · exact run_ffft c E i arg3 h3 arg4 h4 arg5 h5 arg6 h6 q k v a o K hc1 hc2 hc3 hc4
  · exact run_ffff c E i arg3 h3 arg4 h4 arg5 h5 arg6 h6 q k v a o K hc1 hc2 hc3 hc4

/-! ## The schedule at the pinned table, decided over the 64 grid points -/

/-- A grid point is the last of its row exactly when its number is 7 modulo 8. -/
theorem isLast_iff : ∀ t : Fin cfgA.N, isLast (cfgA.grid.coords t) ↔ t.val % 8 = 7 :=
  (by decide +kernel : ∀ t : Fin cfgA.N, k2_cond4 (cfgA.grid.coords t) = 1#1 ↔ t.val % 8 = 7)

/-- The output window is not written back at a point that is not the last of its row. -/
theorem flush3_of_not_last : ∀ t : Fin cfgA.N, ¬ isLast (cfgA.grid.coords t) → (cfgA.win 3).flush t = false :=
  (by decide +kernel : ∀ t : Fin cfgA.N, ¬ (k2_cond4 (cfgA.grid.coords t) = 1#1) → (cfgA.win 3).flush t = false)

/-- The first grid point is the first of its row. -/
theorem isFirst_of_zero : ∀ t : Fin cfgA.N, t.val = 0 → isFirst (cfgA.grid.coords t) :=
  (by decide +kernel : ∀ t : Fin cfgA.N, t.val = 0 →
    Scalar.cmpi .ne (Scalar.extui (Scalar.cmpi .eq (BitVec.ofNat 32 ((cfgA.grid.coords t) 1).val) 0#32)) 0#32 = 1#1)

/-- The output window is idle exactly where the key coordinate is not the last. -/
theorem idle3_of_not_last {i : grid2.Coords} (h : ¬ isLast i) : cfgA.idle 3 i = true := by
  show (!(k2_cond4 i == 1#1)) = true
  rw [Bool.not_eq_true', beq_eq_false_iff_ne]; exact h

theorem idle3_of_last {i : grid2.Coords} (h : isLast i) : cfgA.idle 3 i = false := by
  show (!(k2_cond4 i == 1#1)) = false
  rw [show k2_cond4 i = 1#1 from h]; rfl

/-- At the first key tile the step forgets what the accumulator held. -/
theorem accStep_first {i : grid2.Coords} (hf : isFirst i) (a a' : Vec 𝔽 S1024x512 .f32) (q k v : Vec 𝔽 S1024x512 .bf16) :
    accStep i a q k v = accStep i a' q k v := by
  simp only [accStep, if_pos hf]

/-- The accumulator found at point t, the one the invariant describes from the second point on, steps to the
    trajectory's next value: at the first point the step resets it. -/
theorem accStep_found (c : Dev nD) (t : Fin cfgA.N) (a : Vec 𝔽 S1024x512 .f32) (ha : t.val ≠ 0 → a = accUpTo V c t.val) :
    accStep (cfgA.grid.coords t) a (ablk V c 0 t) (ablk V c 1 t) (ablk V c 2 t) = accUpTo V c (t.val + 1) := by
  rw [accUpTo_succ]
  by_cases h0 : t.val = 0
  · exact accStep_first (isFirst_of_zero t h0) _ _ _ _ _
  · rw [ha h0]

/-! ## The three input windows: each buffer holds its block at every point -/

theorem a_before0 (c : Dev nD) (t : Fin cfgA.N) (d) : (adat V c).before 0 t d = ablk V c 0 t :=
  ((adat V c).before_in_eq_fetched 0 rfl (fun _ => rfl) (fun _ _ _ => rfl)
    (fun t => by rw [adat_after0]; unfold Dat.blockOf ablk; rw [adat_A]) t d).trans
    (by unfold Dat.fetched Dat.blockOf ablk; rw [adat_A]; rfl)

theorem a_before1 (c : Dev nD) (t : Fin cfgA.N) (d) : (adat V c).before 1 t d = ablk V c 1 t :=
  ((adat V c).before_in_eq_fetched 1 rfl (fun _ => rfl) (fun _ _ _ => rfl)
    (fun t => by rw [adat_after1]; unfold Dat.blockOf ablk; rw [adat_A]) t d).trans
    (by unfold Dat.fetched Dat.blockOf ablk; rw [adat_A]; rfl)

theorem a_before2 (c : Dev nD) (t : Fin cfgA.N) (d) : (adat V c).before 2 t d = ablk V c 2 t :=
  ((adat V c).before_in_eq_fetched 2 rfl (fun _ => rfl) (fun _ _ _ => rfl)
    (fun t => by rw [adat_after2]; unfold Dat.blockOf ablk; rw [adat_A]) t d).trans
    (by unfold Dat.fetched Dat.blockOf ablk; rw [adat_A]; rfl)

/-! ## The body obligation at a grid point -/

/-- Window w's current staging buffer at point t. -/
abbrev st2 (w : Fin cfgA.W) (t : Fin cfgA.N) := (cfgA.win w).stage (cfgA.slots t w)

/-- The body as the pipeline calls it at point t. -/
abbrev bodyAt2 (t : Fin cfgA.N) : Prog (TpuEff nD τ sig (Elt 𝔽) Λ₀ .tc) PUnit :=
  cc2__attn_kernel (grid2.coords t) tbM (Memref.isWhole_whole _)
    (spec2_0.stage (cfgA.slots t 0)) (hstage2_0 ((cfgA.slots t 0).cast nbuf2_0))
    (spec2_1.stage (cfgA.slots t 1)) (hstage2_1 ((cfgA.slots t 1).cast nbuf2_1))
    (spec2_2.stage (cfgA.slots t 2)) (hstage2_2 ((cfgA.slots t 2).cast nbuf2_2))
    (spec2_3.stage (cfgA.slots t 3)) (hstage2_3 ((cfgA.slots t 3).cast nbuf2_3))
    scM (Memref.isWhole_whole _)

/-- What the output window's buffer is left at: the accumulator at the last point of a row, else what it held. -/
theorem leaves3 (c : Dev nD) (t : Fin cfgA.N) (a : Vec 𝔽 S1024x512 .f32) (ha : t.val ≠ 0 → a = accUpTo V c t.val) (d) :
    owns (c : Thread nD τ) (st2 3 t) fullShare
        (if isLast (cfgA.grid.coords t) then accStep (cfgA.grid.coords t) a (ablk V c 0 t) (ablk V c 1 t) (ablk V c 2 t)
          else (adat V c).before 3 t d)
      ⊢ ((adat V c).leavesExact 3 t : sProp 𝕄) := by
  by_cases hl : isLast (cfgA.grid.coords t)
  · rw [if_pos hl, accStep_found V c t a ha]
    unfold Dat.leavesExact
    rw [idle3_of_last hl, adat_after3]
  · rw [if_neg hl, (adat V c).leavesExact_idle 3 t (idle3_of_not_last hl) (flush3_of_not_last t hl)]
    iintro H; iexists d; iexact H

theorem attn_point (c : Dev nD) (t : Fin cfgA.N) :
    iprop((adat V c).Φ t.castSucc ∗ (adat V c).owesAt () t.castSucc
        ∗ (∃ d, owns (c : Thread nD τ) (st2 0 t) fullShare ((adat V c).before 0 t d))
        ∗ (∃ d, owns (c : Thread nD τ) (st2 1 t) fullShare ((adat V c).before 1 t d))
        ∗ (∃ d, owns (c : Thread nD τ) (st2 2 t) fullShare ((adat V c).before 2 t d))
        ∗ (∃ d, owns (c : Thread nD τ) (st2 3 t) fullShare ((adat V c).before 3 t d)))
      ⊢ wp frame (wpE (defs₀ (F := 𝔽)) Variants.none c none) Set.univ (bodyAt2 t) (fun _ =>
          iprop((adat V c).Φ t.succ ∗ (adat V c).owesAt () t.succ
            ∗ owns (c : Thread nD τ) (st2 0 t) fullShare ((adat V c).after 0 t)
            ∗ owns (c : Thread nD τ) (st2 1 t) fullShare ((adat V c).after 1 t)
            ∗ owns (c : Thread nD τ) (st2 2 t) fullShare ((adat V c).after 2 t)
            ∗ (adat V c).leavesExact 3 t)) := by
  unfold bodyAt2
  simp only [a_before0, a_before1, a_before2]
  rw [adat_Φ, adat_Φ, show (adat V c).owesAt () t.succ = (adat V c).owesAt () t.castSucc from rfl,
    adat_after0, adat_after1, adat_after2]
  unfold attnInv
  iintro ⟨⟨Hrest, Hreg, HT, ⟨%a, %ha, Hs⟩⟩, Howe, ⟨%d0, Hq⟩, ⟨%d1, Hk⟩, ⟨%d2, Hv⟩, ⟨%d3, Ho⟩⟩
  iapply (attn_body c Set.univ (cfgA.grid.coords t) _ _ _ _ _ _ _ _ (ablk V c 0 t) (ablk V c 1 t) (ablk V c 2 t) a
    ((adat V c).before 3 t d3) _)
  isplitl [HT]; · iexact HT
  isplitl [Hq]; · iexact Hq
  isplitl [Hk]; · iexact Hk
  isplitl [Hv]; · iexact Hv
  isplitl [Ho]; · iexact Ho
  isplitl [Hs]; · iexact Hs
  iintro ⟨HT, Hq, Hk, Hv, Ho, Hs⟩
  isplitl [Hrest Hreg HT Hs]
  · isplitl [Hrest]; · iexact Hrest
    isplitl [Hreg]; · iexact Hreg
    isplitl [HT]; · iexact HT
    iexists _; isplitr
    swap; · iexact Hs
    ipureintro; intro _
    exact accStep_found V c t a ha
  isplitl [Howe]; · iexact Howe
  isplitl [Hq]; · iexact Hq
  isplitl [Hk]; · iexact Hk
  isplitl [Hv]; · iexact Hv
  iapply (leaves3 V c t a ha d3)
  iexact Ho

/-- The body obligation of the third call at every grid point. -/
theorem attn_obligation (c : Dev nD) : BodyObligation (adat V c) (defs₀ (F := 𝔽)) Variants.none () Set.univ := fun t => by
  rw [bigSep_W2, bigSep_W2]
  exact attn_point V c t

end Cert.Kernel.Hand

end
-- ==== Proof.Bits.ProjFrame.lean ====
/-
  The two projection calls (Q, scaled; K and V, fused) as pipelines over a grid of 16 row blocks: what each
  grid point leaves in every window's staging buffer, and that the kernel body, run at a point on the blocks
  the pipeline hands it, leaves exactly that.  An input window keeps its block; the output window of the Q call
  ends at the body's one stored value, the scaled product of the row block with the whole weight; the two output
  windows of the K/V call at their two stored products.  Stated at any entry contents V of the core's buffers and
  at any float instance.
-/
import proofs.«425182_j55671366091048_3_alg».proof.Proof.Gen.Kernel.Launch
import proofs.«425182_j55671366091048_3_alg».proof.Proof.Gen.Kernel.Skeleton
import proofs.«425182_j55671366091048_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Loading and storing a whole staging buffer -/

/-- The two zero offsets, as the constant function. -/
theorem origin2 : (![0, 0] : Fin 2 → Nat) = fun _ => 0 := funext fun a => by fin_cases a <;> rfl

section WholeBuffer

variable {Val : EltTy → Type} {sg : RefSig} {κ : Kind} {sp : Space} {S : Shape} {e : EltTy}

/-- A load of the whole buffer, through the rectangle of the buffer's own sizes at the origin, reads what the
    buffer reads. -/
theorem readAt_origin (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f (Rect.unit off S.size inb)).trans (View.ld_unit_zero h inb _)

/-- One store of the whole buffer, over whatever it held, reads back as the stored value. -/
theorem read_store_origin [∀ e, Nonempty (Val e)] (v : View sg κ sp S e) (f : v.ty.Contents Val) {off : Fin S.rank → Nat}
    (h : off = fun _ => 0) (inb : ∀ a, off a + S.size a ≤ S.size a) (p : S.Idx → Val e) :
    v.read Val (v.writes Val f [(⟨Rect.unit off S.size inb, p⟩ : View.Piece Val S e)]) = p := by
  rw [View.read_writes_eq_canon v f _ (fun y => ⟨_, List.mem_singleton_self _, View.mem_set_unit_zero h inb y⟩),
    View.canon_unit_zero h inb p]

end WholeBuffer

/-! ## The Q projection (pipeline 0) -/

/-- Window w's block at grid point t, read off the array as the call finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Per core: the arrays as found; after the body each input buffer at its block, the output buffer at the
    scaled product of the two input blocks; nothing carried between points. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qblk V c 1 t
    | ⟨2, _⟩ => k0_pay1 (qblk V c 0 t) (qblk V c 1 t)
  Φ _ := Pipeline.ΦA spec0 c
  q _ := fullShare
  owed _ := 0

theorem qdat_A (c : Dev nD) (w : Fin cfg0.W) : (qdat V c).A w = V c (Pipeline.arrRef spec0 w) := by
  dsimp only [qdat]
theorem qdat_after0 (c : Dev nD) (t : Fin cfg0.N) : (qdat V c).after 0 t = qblk V c 0 t := by dsimp only [qdat]
theorem qdat_after1 (c : Dev nD) (t : Fin cfg0.N) : (qdat V c).after 1 t = qblk V c 1 t := by dsimp only [qdat]
theorem qdat_after2 (c : Dev nD) (t : Fin cfg0.N) : (qdat V c).after 2 t = k0_pay1 (qblk V c 0 t) (qblk V c 1 t) := by dsimp only [qdat]

set_option maxHeartbeats 1000000 in
/-- The Q kernel on any three whole buffers: from the row block x, the weight w and the output buffer at anything,
    it runs to its return with x and w as they were and the output at the scaled product of x and w: its two input
    loads read the buffers whole, the load of the output is unused, and its one store overwrites the output whole. -/
theorem q_body (c : Dev nD) (E : Set ℕ) (i : grid0.Coords)
    (xs : Memref sig .tc .vmem S512x2048 .f32) (hxs : xs.IsWhole)
    (ws : Memref sig .tc .vmem S512x2048 .bf16) (hws : ws.IsWhole)
    (os : Memref sig .tc .vmem S512x512 .bf16) (hos : os.IsWhole)
    (x : Vec F S512x2048 .f32) (w : Vec F S512x2048 .bf16) (K : PUnit → sProp 𝕄) :
    iprop(owns (c : Thread nD τ) xs fullShare x ∗ owns (c : Thread nD τ) ws fullShare w
        ∗ (∃ d, owns (c : Thread nD τ) os fullShare d)
        ∗ (iprop(owns (c : Thread nD τ) xs fullShare x ∗ owns (c : Thread nD τ) ws fullShare w
            ∗ owns (c : Thread nD τ) os fullShare (k0_pay1 x w)) -∗ K ⟨⟩))
      ⊢ wp frame (wpE (defs₀ (F := F)) Variants.none c none) E (cc0__linear_kernel i xs hxs ws hws os hos) K := by
  simp only [cc0__linear_kernel_eq_skeleton]; unfold cc0__linear_kernel_skel
  unfold owns
  iintro ⟨⟨%fx, %hfx, Hx⟩, ⟨%fw, %hfw, Hw⟩, ⟨%d, %fo, -, Ho⟩, Hk⟩
  subst hfx hfw
  sl_exec
  sl_step
  iapply Hk
  isplitl [Hx]
  · iexists fx; isplitr; · ipureintro; rfl
    iexact Hx
  isplitl [Hw]
  · iexists fw; isplitr; · ipureintro; rfl
    iexact Hw
  iexists _; isplitr
  swap; · iexact Ho
  ipureintro
  rw [read_store_origin _ _ origin2, readAt_origin _ _ origin2, readAt_origin _ _ origin2]

/-- The row block's buffer holds its block at every point: it is fetched at each. -/
theorem q_before0 (c : Dev nD) (t : Fin cfg0.N) (d) : (qdat V c).before 0 t d = qblk V c 0 t :=
  ((qdat V c).before_in_eq_fetched 0 rfl (fun _ => rfl) (fun _ _ _ => rfl)
    (fun t => by rw [qdat_after0]; unfold Dat.blockOf qblk; rw [qdat_A]) t d).trans
    (by unfold Dat.fetched Dat.blockOf qblk; rw [qdat_A]; rfl)

/-- The weight's buffer holds the weight at every point: fetched at the first, and the body leaves it in place. -/
theorem q_before1 (c : Dev nD) (t : Fin cfg0.N) (d) : (qdat V c).before 1 t d = qblk V c 1 t :=
  ((qdat V c).before_in_eq_fetched 1 rfl (fun _ => rfl) (fun _ _ _ => rfl)
    (fun t => by rw [qdat_after1]; unfold Dat.blockOf qblk; rw [qdat_A]) t d).trans
    (by unfold Dat.fetched Dat.blockOf qblk; rw [qdat_A]; rfl)

/-- The Q call's body at a grid point, window by window: the invariant and what the core owes pass through untouched. -/
theorem q_point (c : Dev nD) (t : Fin cfg0.N) :
    iprop((qdat V c).Φ t.castSucc ∗ (qdat V c).owesAt () t.castSucc
        ∗ (∃ d, owns (c : Thread nD τ) (st0_0 t) fullShare ((qdat V c).before 0 t d))
        ∗ (∃ d, owns (c : Thread nD τ) (st0_1 t) fullShare ((qdat V c).before 1 t d))
        ∗ (∃ d, owns (c : Thread nD τ) (st0_2 t) fullShare ((qdat V c).before 2 t d)))
      ⊢ wp frame (wpE (defs₀ (F := F)) Variants.none c none) Set.univ (bodyAt0 t) (fun _ =>
          iprop((qdat V c).Φ t.succ ∗ (qdat V c).owesAt () t.succ
            ∗ owns (c : Thread nD τ) (st0_0 t) fullShare ((qdat V c).after 0 t)
            ∗ owns (c : Thread nD τ) (st0_1 t) fullShare ((qdat V c).after 1 t)
            ∗ owns (c : Thread nD τ) (st0_2 t) fullShare ((qdat V c).after 2 t))) := by
  unfold bodyAt0
  simp only [q_before0, q_before1]
  rw [show (qdat V c).Φ t.succ = (qdat V c).Φ t.castSucc from rfl,
    show (qdat V c).owesAt () t.succ = (qdat V c).owesAt () t.castSucc from rfl,
    qdat_after0, qdat_after1, qdat_after2]
  iintro ⟨HΦ, Howe, ⟨%d0, Hx⟩, ⟨%d1, Hw⟩, ⟨%d2, Ho⟩⟩
  iapply (q_body c Set.univ _ _ _ _ _ _ _ (qblk V c 0 t) (qblk V c 1 t) _)
  isplitl [Hx]; · iexact Hx
  isplitl [Hw]; · iexact Hw
  isplitl [Ho]; · iexists _; iexact Ho
  iintro ⟨Hx, Hw, Ho⟩
  isplitl [HΦ]; · iexact HΦ
  isplitl [Howe]; · iexact Howe
  isplitl [Hx]; · iexact Hx
  isplitl [Hw]; · iexact Hw
  iexact Ho

/-- The body obligation of the Q call at every grid point. -/
theorem q_obligation (c : Dev nD) : BodyObligation (qdat (F := F) V c) (defs₀ (F := F)) Variants.none () Set.univ := fun t => by
  rw [bigSep_W0, bigSep_W0]
  exact q_point V c t

/-! ## The fused K / V projection (pipeline 1) -/

def kvblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def kvdat (c : Dev nD) : Dat τ (Elt F) Unit ℕ (UR sig nD τ) ℕ cfg1 c where
  A w := V c (Pipeline.arrRef spec1 w)
  after w t := match w with
    | ⟨0, _⟩ => kvblk V c 0 t
    | ⟨1, _⟩ => kvblk V c 1 t
    | ⟨2, _⟩ => kvblk V c 2 t
    | ⟨3, _⟩ => k1_pay2 (kvblk V c 0 t) (kvblk V c 1 t)
    | ⟨4, _⟩ => k1_pay3 (kvblk V c 0 t) (kvblk V c 2 t)
  Φ _ := Pipeline.ΦA spec1 c
  q _ := fullShare
  owed _ := 0

theorem kvdat_A (c : Dev nD) (w : Fin cfg1.W) : (kvdat V c).A w = V c (Pipeline.arrRef spec1 w) := by
  dsimp only [kvdat]
theorem kvdat_after0 (c : Dev nD) (t : Fin cfg1.N) : (kvdat V c).after 0 t = kvblk V c 0 t := by dsimp only [kvdat]
theorem kvdat_after1 (c : Dev nD) (t : Fin cfg1.N) : (kvdat V c).after 1 t = kvblk V c 1 t := by dsimp only [kvdat]
theorem kvdat_after2 (c : Dev nD) (t : Fin cfg1.N) : (kvdat V c).after 2 t = kvblk V c 2 t := by dsimp only [kvdat]
theorem kvdat_after3 (c : Dev nD) (t : Fin cfg1.N) : (kvdat V c).after 3 t = k1_pay2 (kvblk V c 0 t) (kvblk V c 1 t) := by dsimp only [kvdat]
theorem kvdat_after4 (c : Dev nD) (t : Fin cfg1.N) : (kvdat V c).after 4 t = k1_pay3 (kvblk V c 0 t) (kvblk V c 2 t) := by dsimp only [kvdat]

set_option maxHeartbeats 1000000 in
/-- The K / V kernel on any five whole buffers: from the row block y, the two weights a and b and the two output
    buffers at anything, it runs to its return with y, a and b as they were, the first output at the product of y
    and a and the second at the product of y and b: each of its three input loads reads a buffer whole, the loads of
    the outputs are unused, and each of its two stores overwrites one output whole. -/
theorem kv_body (c : Dev nD) (E : Set ℕ) (i : grid1.Coords)
    (ys : Memref sig .tc .vmem S512x2048 .f32) (hys : ys.IsWhole)
    (wk : Memref sig .tc .vmem S512x2048 .bf16) (hwk : wk.IsWhole)
    (wv : Memref sig .tc .vmem S512x2048 .bf16) (hwv : wv.IsWhole)
    (ks : Memref sig .tc .vmem S512x512 .bf16) (hks : ks.IsWhole)
    (vs : Memref sig .tc .vmem S512x512 .bf16) (hvs : vs.IsWhole)
    (y : Vec F S512x2048 .f32) (a b : Vec F S512x2048 .bf16) (K : PUnit → sProp 𝕄) :
    iprop(owns (c : Thread nD τ) ys fullShare y ∗ owns (c : Thread nD τ) wk fullShare a ∗ owns (c : Thread nD τ) wv fullShare b
        ∗ (∃ d, owns (c : Thread nD τ) ks fullShare d) ∗ (∃ d, owns (c : Thread nD τ) vs fullShare d)
        ∗ (iprop(owns (c : Thread nD τ) ys fullShare y ∗ owns (c : Thread nD τ) wk fullShare a ∗ owns (c : Thread nD τ) wv fullShare b
            ∗ owns (c : Thread nD τ) ks fullShare (k1_pay2 y a) ∗ owns (c : Thread nD τ) vs fullShare (k1_pay3 y b)) -∗ K ⟨⟩))
      ⊢ wp frame (wpE (defs₀ (F := F)) Variants.none c none) E (cc1__linear_kv_kernel i ys hys wk hwk wv hwv ks hks vs hvs) K := by
  simp only [cc1__linear_kv_kernel_eq_skeleton]; unfold cc1__linear_kv_kernel_skel
  unfold owns
  iintro ⟨⟨%fy, %hfy, Hy⟩, ⟨%fa, %hfa, Ha⟩, ⟨%fb, %hfb, Hb⟩, ⟨%dk, %fk, -, Hks⟩, ⟨%dv, %fv, -, Hvs⟩, Hk⟩
  subst hfy hfa hfb
  sl_exec
  sl_step
  iapply Hk
  isplitl [Hy]
  · iexists fy; isplitr; · ipureintro; rfl
    iexact Hy
  isplitl [Ha]
  · iexists fa; isplitr; · ipureintro; rfl
    iexact Ha
  isplitl [Hb]
  · iexists fb; isplitr; · ipureintro; rfl
    iexact Hb
  isplitl [Hks]
  · iexists _; isplitr
    swap; · iexact Hks
    ipureintro
    rw [read_store_origin _ _ origin2, readAt_origin _ _ origin2, readAt_origin _ _ origin2]
  iexists _; isplitr
  swap; · iexact Hvs
  ipureintro
  rw [read_store_origin _ _ origin2, readAt_origin _ _ origin2, readAt_origin _ _ origin2]

/-- The row block's buffer holds its block at every point: it is fetched at each. -/
theorem kv_before0 (c : Dev nD) (t : Fin cfg1.N) (d) : (kvdat V c).before 0 t d = kvblk V c 0 t :=
  ((kvdat V c).before_in_eq_fetched 0 rfl (fun _ => rfl) (fun _ _ _ => rfl)
    (fun t => by rw [kvdat_after0]; unfold Dat.blockOf kvblk; rw [kvdat_A]) t d).trans
    (by unfold Dat.fetched Dat.blockOf kvblk; rw [kvdat_A]; rfl)

/-- The K weight's buffer holds the weight at every point: fetched at the first, and the body leaves it in place. -/
theorem kv_before1 (c : Dev nD) (t : Fin cfg1.N) (d) : (kvdat V c).before 1 t d = kvblk V c 1 t :=
  ((kvdat V c).before_in_eq_fetched 1 rfl (fun _ => rfl) (fun _ _ _ => rfl)
    (fun t => by rw [kvdat_after1]; unfold Dat.blockOf kvblk; rw [kvdat_A]) t d).trans
    (by unfold Dat.fetched Dat.blockOf kvblk; rw [kvdat_A]; rfl)

/-- So does the V weight's. -/
theorem kv_before2 (c : Dev nD) (t : Fin cfg1.N) (d) : (kvdat V c).before 2 t d = kvblk V c 2 t :=
  ((kvdat V c).before_in_eq_fetched 2 rfl (fun _ => rfl) (fun _ _ _ => rfl)
    (fun t => by rw [kvdat_after2]; unfold Dat.blockOf kvblk; rw [kvdat_A]) t d).trans
    (by unfold Dat.fetched Dat.blockOf kvblk; rw [kvdat_A]; rfl)

/-- The K / V call's body at a grid point, window by window: the invariant and what the core owes pass through untouched. -/
theorem kv_point (c : Dev nD) (t : Fin cfg1.N) :
    iprop((kvdat V c).Φ t.castSucc ∗ (kvdat V c).owesAt () t.castSucc
        ∗ (∃ d, owns (c : Thread nD τ) (st1_0 t) fullShare ((kvdat V c).before 0 t d))
        ∗ (∃ d, owns (c : Thread nD τ) (st1_1 t) fullShare ((kvdat V c).before 1 t d))
        ∗ (∃ d, owns (c : Thread nD τ) (st1_2 t) fullShare ((kvdat V c).before 2 t d))
        ∗ (∃ d, owns (c : Thread nD τ) (st1_3 t) fullShare ((kvdat V c).before 3 t d))
        ∗ (∃ d, owns (c : Thread nD τ) (st1_4 t) fullShare ((kvdat V c).before 4 t d)))
      ⊢ wp frame (wpE (defs₀ (F := F)) Variants.none c none) Set.univ (bodyAt1 t) (fun _ =>
          iprop((kvdat V c).Φ t.succ ∗ (kvdat V c).owesAt () t.succ
            ∗ owns (c : Thread nD τ) (st1_0 t) fullShare ((kvdat V c).after 0 t)
            ∗ owns (c : Thread nD τ) (st1_1 t) fullShare ((kvdat V c).after 1 t)
            ∗ owns (c : Thread nD τ) (st1_2 t) fullShare ((kvdat V c).after 2 t)
            ∗ owns (c : Thread nD τ) (st1_3 t) fullShare ((kvdat V c).after 3 t)
            ∗ owns (c : Thread nD τ) (st1_4 t) fullShare ((kvdat V c).after 4 t))) := by
  unfold bodyAt1
  simp only [kv_before0, kv_before1, kv_before2]
  rw [show (kvdat V c).Φ t.succ = (kvdat V c).Φ t.castSucc from rfl,
    show (kvdat V c).owesAt () t.succ = (kvdat V c).owesAt () t.castSucc from rfl,
    kvdat_after0, kvdat_after1, kvdat_after2, kvdat_after3, kvdat_after4]
  iintro ⟨HΦ, Howe, ⟨%d0, Hy⟩, ⟨%d1, Ha⟩, ⟨%d2, Hb⟩, ⟨%d3, Hks⟩, ⟨%d4, Hvs⟩⟩
  iapply (kv_body c Set.univ _ _ _ _ _ _ _ _ _ _ _ (kvblk V c 0 t) (kvblk V c 1 t) (kvblk V c 2 t) _)
  isplitl [Hy]; · iexact Hy
  isplitl [Ha]; · iexact Ha
  isplitl [Hb]; · iexact Hb
  isplitl [Hks]; · iexists _; iexact Hks
  isplitl [Hvs]; · iexists _; iexact Hvs
  iintro ⟨Hy, Ha, Hb, Hks, Hvs⟩
  isplitl [HΦ]; · iexact HΦ
  isplitl [Howe]; · iexact Howe
  isplitl [Hy]; · iexact Hy
  isplitl [Ha]; · iexact Ha
  isplitl [Hb]; · iexact Hb
  isplitl [Hks]; · iexact Hks
  iexact Hvs

/-- The body obligation of the K / V call at every grid point. -/
theorem kv_obligation (c : Dev nD) : BodyObligation (kvdat (F := F) V c) (defs₀ (F := F)) Variants.none () Set.univ := fun t => by
  rw [bigSep_W1, bigSep_W1]
  exact kv_point V c t

end Cert.Kernel.Hand

end
-- ==== Proof.Bits.Between.lean ====
/-
  The buffers' contents between the program's four items (the host stretch: the table written and the three weights
  cast; the Q projection; the K/V projection; the causal product): the launch memory; then the host stretch applied;
  then, after each call, the call's arrays at what its write-backs leave and every other buffer as before.  The five
  argument arrays are written by no item, so they hold their launch contents at every boundary.
-/
import proofs.«425182_j55671366091048_3_alg».proof.Proof.Gen.Kernel.Launch
import proofs.«425182_j55671366091048_3_alg».proof.Proof.Gen.Kernel.Skeleton
import proofs.«425182_j55671366091048_3_alg».proof.Proof.Gen.Kernel.Points
import proofs.«425182_j55671366091048_3_alg».proof.Proof.Gen.Kernel.Regions
import proofs.«425182_j55671366091048_3_alg».proof.Proof.Bits.ProjFrame
import proofs.«425182_j55671366091048_3_alg».proof.Proof.Bits.AttnData
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝔽" => Idealize.ShloMosaic.Bits
local notation "𝕄" => MT nD τ sig Unit (Elt 𝔽) ℕ (UR sig nD τ) ℕ

open Idealize.ShloMosaic.Pipeline (RegionSeg HostSeg Seg)

variable (m : (ℓ : Loc nD τ sig) → Buf (Elt 𝔽) ℓ)

/-! ## The buffers' contents between items -/

/-- At launch. -/
abbrev W0 (c : Dev nD) : Valuation τ sig (Elt 𝔽) := fun b => m (c, b)
/-- After the host stretch. -/
abbrev W1 (c : Dev nD) : Valuation τ sig (Elt 𝔽) := StableHlo.after hostOps0 (W0 m c)
abbrev V1 : (c : Dev nD) → (b : Ref sig .tc) → Buf (Elt 𝔽) ((c : Thread nD τ).loc b) := fun c b => W1 m c b
/-- After the Q projection. -/
def W2 (c : Dev nD) : Valuation τ sig (Elt 𝔽) :=
  Pipeline.withArrays spec0 c (W1 m c) fun w => (qdat (V1 m) c).arrAt w cfg0.N
abbrev V2 : (c : Dev nD) → (b : Ref sig .tc) → Buf (Elt 𝔽) ((c : Thread nD τ).loc b) := fun c b => W2 m c b
/-- After the K/V projection. -/
def W3 (c : Dev nD) : Valuation τ sig (Elt 𝔽) :=
  Pipeline.withArrays spec1 c (W2 m c) fun w => (kvdat (V2 m) c).arrAt w cfg1.N
abbrev V3 : (c : Dev nD) → (b : Ref sig .tc) → Buf (Elt 𝔽) ((c : Thread nD τ).loc b) := fun c b => W3 m c b
/-- After the causal product. -/
def W4 (c : Dev nD) : Valuation τ sig (Elt 𝔽) :=
  Pipeline.withArrays cfgA.spec c (W3 m c) fun w => (adat (V3 m) c).arrAt w cfgA.N
abbrev V4 : (c : Dev nD) → (b : Ref sig .tc) → Buf (Elt 𝔽) ((c : Thread nD τ).loc b) := fun c b => W4 m c b

theorem W2_arr (c : Dev nD) (w : Fin cfg0.W) :
    W2 m c (Proc.devRef .tc (Pipeline.arrRef spec0 w)) = (qdat (V1 m) c).arrAt w cfg0.N := by
  unfold W2; exact Pipeline.withArrays_arr spec0 (launch0 (F := 𝔽)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (kvdat (V2 m) c).arrAt w cfg1.N := by
  unfold W3; exact Pipeline.withArrays_arr spec1 (launch1 (F := 𝔽)).win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W4_arr (c : Dev nD) (w : Fin cfgA.W) :
    W4 m c (Proc.devRef .tc (Pipeline.arrRef cfgA.spec w)) = (adat (V3 m) c).arrAt w cfgA.N := by
  unfold W4; exact Pipeline.withArrays_arr cfgA.spec (launch2 (F := 𝔽)).win.arr_inj c _ _ w
theorem W4_of_ne (c : Dev nD) (b : Ref sig .tc) (hb : ∀ w, Pipeline.arrRef cfgA.spec w ≠ b) :
    W4 m c (Proc.devRef .tc b) = W3 m c (Proc.devRef .tc b) := by
  unfold W4; exact Pipeline.withArrays_of_ne cfgA.spec c _ _ b hb

/-- The table's buffer holds the table from the host stretch on. -/
theorem W1_table (c : Dev nD) : V1 m c main_c = tbl 0 := by
  show StableHlo.after hostOps0 (W0 m c) (Proc.devRef .tc main_c) = _
  after_results; rfl
theorem W3_table (c : Dev nD) : V3 m c main_c = tbl 0 :=
  (W3_of_ne m c main_c (by decide)).trans ((W2_of_ne m c main_c (by decide)).trans (W1_table m c))

/-! ## The proof data of the three calls, each at its entry valuation -/

def pdats : (p : Fin 3) → (c : Dev nD) → Dat τ (Elt 𝔽) Unit ℕ (UR sig nD τ) ℕ (Pipeline.pin (pcfgs (F := 𝔽)) adm p) c
  | ⟨0, _⟩ => fun c => qdat (V1 m) c
  | ⟨1, _⟩ => fun c => kvdat (V2 m) c
  | ⟨2, _⟩ => fun c => adat (V3 m) c

/-! ## The arguments are never written -/

theorem W1_kept (c : Dev nD) (r : Ref sig .tc) (h : r ∉ hostOps0_W) : V1 m c r = m ((c : Thread nD τ).loc r) :=
  Cert.Kernel.Gen.V1_of m c r h

theorem V4_arg0 (c : Dev nD) : V4 m c main_arg0 = m ((c : Thread nD τ).loc main_arg0) :=
  (W4_of_ne m c main_arg0 (by decide)).trans <| (W3_of_ne m c main_arg0 (by decide)).trans <|
    (W2_arr m c 0).trans <| ((qdat (V1 m) c).arrAt_in 0 rfl _).trans <| (qdat_A (V1 m) c 0).trans (W1_kept m c main_arg0 (by decide))
theorem V4_arg1 (c : Dev nD) : V4 m c main_arg1 = m ((c : Thread nD τ).loc main_arg1) :=
  (W4_of_ne m c main_arg1 (by decide)).trans <| (W3_arr m c 0).trans <| ((kvdat (V2 m) c).arrAt_in 0 rfl _).trans <|
    (kvdat_A (V2 m) c 0).trans <| (W2_of_ne m c main_arg1 (by decide)).trans (W1_kept m c main_arg1 (by decide))
theorem V4_arg2 (c : Dev nD) : V4 m c main_arg2 = m ((c : Thread nD τ).loc main_arg2) :=
  (W4_of_ne m c main_arg2 (by decide)).trans <| (W3_of_ne m c main_arg2 (by decide)).trans <|
    (W2_of_ne m c main_arg2 (by decide)).trans (W1_kept m c main_arg2 (by decide))
theorem V4_arg3 (c : Dev nD) : V4 m c main_arg3 = m ((c : Thread nD τ).loc main_arg3) :=
  (W4_of_ne m c main_arg3 (by decide)).trans <| (W3_of_ne m c main_arg3 (by decide)).trans <|
    (W2_of_ne m c main_arg3 (by decide)).trans (W1_kept m c main_arg3 (by decide))
theorem V4_arg4 (c : Dev nD) : V4 m c main_arg4 = m ((c : Thread nD τ).loc main_arg4) :=
  (W4_of_ne m c main_arg4 (by decide)).trans <| (W3_of_ne m c main_arg4 (by decide)).trans <|
    (W2_of_ne m c main_arg4 (by decide)).trans (W1_kept m c main_arg4 (by decide))

end Cert.Kernel.Hand

end
-- ==== Proof.Bits.Run.lean ====
/-
  The whole program as its four items in order: the host stretch, the Q projection, the K/V projection, the causal
  product.  Between items a core holds every unscoped buffer at a known valuation (Between.lean) beside its generator
  register and its empty debts.  Each call is entered from the valuation before it and left at the one after it: at
  entry the call's arrays (and, for the third call, its table) are taken out of the unscoped buffers, the scoped
  buffers it does not stage enter its invariant; at exit the arrays return at what the write-backs left.  Run from
  any memory with zero counters, every weakly fair execution terminates with every unscoped buffer at the last
  valuation; read at the arguments that is the frame, read at the result buffer the kernel's value.  The third
  call's body obligation is a hypothesis here.
-/
import proofs.«425182_j55671366091048_3_alg».proof.Proof.Gen.Kernel.Launch
import proofs.«425182_j55671366091048_3_alg».proof.Proof.Gen.Kernel.Skeleton
import proofs.«425182_j55671366091048_3_alg».proof.Proof.Gen.Kernel.Points
import proofs.«425182_j55671366091048_3_alg».proof.Proof.Bits.Between
import proofs.«425182_j55671366091048_3_alg».proof.Proof.Bits.ProjFrame
import proofs.«425182_j55671366091048_3_alg».proof.Proof.Bits.AttnData
import Idealize.ShloMosaic.PureOps.Ideal
import Idealize.ShloMosaic.PureOps.BitExact
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

local notation "𝔽" => Idealize.ShloMosaic.Bits
local notation "𝕄" => MT nD τ sig Unit (Elt 𝔽) ℕ (UR sig nD τ) ℕ

open Idealize.ShloMosaic.Pipeline (RegionSeg HostSeg Seg)

variable (m : (ℓ : Loc nD τ sig) → Buf (Elt 𝔽) ℓ)

/-! ## What rides beside the buffers, and the thread state between items -/

abbrev 𝒱₀ : Variants := Variants.none
/-- No core owes another anything: no pair is recorded, no level assigned. -/
abbrev noPairs : GSem nD τ sig → Finset Unit := fun _ => ∅
abbrev noLevel : GSem nD τ sig → Unit → ℕ := fun _ _ => 0

/-- Beside the buffers: the generator register at some state, and the core owing nothing. -/
abbrev aside (c : Dev nD) : sProp 𝕄 :=
  iprop((∃ r, prngReg c r) ∗ ∃ W, owes (c : Thread nD τ) (0 : CellTallies nD τ sig Unit) W)
/-- Between two items: every unscoped buffer of the core at the valuation, the rest aside. -/
abbrev between (W : Dev nD → Valuation τ sig (Elt 𝔽)) (c : Dev nD) : sProp 𝕄 :=
  iprop(StableHlo.held (c : Thread nD τ) (Pipeline.ucRefs τ sig) (W c) ∗ aside c)

/-! ## The Q projection as a segment -/

theorem q_final (c : Dev nD) (w : Fin cfg0.W) : (qdat (V1 m) c).arrAt w cfg0.N = V2 m c (Pipeline.arrRef spec0 w) :=
  (W2_arr m c w).symm
theorem q_others (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
def qSeg : RegionSeg (pcfgs (F := 𝔽)) adm (pdats m) () defs₀ 𝒱₀ noPairs noLevel 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (q_obligation (V1 m) c).loose
  hwaits := Pipeline.hwaits_of_owed_zero _ _ _ _ noPairs noLevel 0 fun _ _ => rfl
  pre := between (W1 m)
  post := between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    dsimp only [between, aside]
    rw [Pipeline.ownSems0_none]
    have hsplit := Pipeline.arrays_of_unscopedBufs (p := 0) (pcfgs (F := 𝔽)) adm (pdats m) (launch0 (F := 𝔽)).win (launch0 (F := 𝔽)).arr_whole c
      ((pdats m 0 c).share_full fun _ => rfl) (V1 m c) fun _ => rfl
    rw [Pipeline.unscopedBufs_held] at hsplit
    iintro ⟨⟨Hbufs, Hprng, Howes⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 0 c).Φ 0 = Pipeline.ΦA spec0 c from rfl]; unfold Pipeline.ΦA
    iintro ⟨Hprng, -, Hscoped⟩
    isplitl [Hscoped]; · iexact Hscoped
    iexact Hprng
  hout c := by
    rw [Pipeline.ownSems0_none, show (pdats m 0 c).Φ (Fin.last _) = Pipeline.ΦA spec0 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m) ((pdats m 0 c).share_full fun _ => rfl)
      (V1 m c) (V2 m c) ((pdats m 0 c).arrAt · cfg0.N) (q_final m c) (q_others m c)
    rw [Pipeline.unscopedBufs_held] at hjoin
    dsimp only [between, aside]
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The K/V projection as a segment -/

theorem kv_final (c : Dev nD) (w : Fin cfg1.W) : (kvdat (V2 m) c).arrAt w cfg1.N = V3 m c (Pipeline.arrRef spec1 w) :=
  (W3_arr m c w).symm
theorem kv_others (c : Dev nD) : ∀ b, b ∉ Finset.univ.image (Pipeline.arrRef spec1) → V3 m c b = V2 m c b :=
  fun b hb => W3_of_ne m c b fun w e => hb (Finset.mem_image.mpr ⟨w, Finset.mem_univ _, e⟩)

set_option backward.isDefEq.respectTransparency.types false in
def kvSeg : RegionSeg (pcfgs (F := 𝔽)) adm (pdats m) () defs₀ 𝒱₀ noPairs noLevel 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (kv_obligation (V2 m) c).loose
  hwaits := Pipeline.hwaits_of_owed_zero _ _ _ _ noPairs noLevel 1 fun _ _ => rfl
  pre := between (W2 m)
  post := between (W3 m)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    dsimp only [between, aside]
    rw [Pipeline.ownSems0_none]
    have hsplit := Pipeline.arrays_of_unscopedBufs (p := 1) (pcfgs (F := 𝔽)) adm (pdats m) (launch1 (F := 𝔽)).win (launch1 (F := 𝔽)).arr_whole c
      ((pdats m 1 c).share_full fun _ => rfl) (V2 m c) fun _ => rfl
    rw [Pipeline.unscopedBufs_held] at hsplit
    iintro ⟨⟨Hbufs, Hprng, Howes⟩, -, -⟩
    ihave Hparts := hsplit $$ Hbufs
    icases Hparts with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    rw [show (pdats m 1 c).Φ 0 = Pipeline.ΦA spec1 c from rfl]; unfold Pipeline.ΦA
    iintro ⟨Hprng, -, Hscoped⟩
    isplitl [Hscoped]; · iexact Hscoped
    iexact Hprng
  hout c := by
    rw [Pipeline.ownSems0_none, show (pdats m 1 c).Φ (Fin.last _) = Pipeline.ΦA spec1 c from rfl]; unfold Pipeline.ΦA
    iintro ⟨Hscoped, Hprng⟩
    isplitl [Hprng]; · iexact Hprng
    isplitr; · iempintro
    iexact Hscoped
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m) ((pdats m 1 c).share_full fun _ => rfl)
      (V2 m c) (V3 m c) ((pdats m 1 c).arrAt · cfg1.N) (kv_final m c) (kv_others m c)
    rw [Pipeline.unscopedBufs_held] at hjoin
    dsimp only [between, aside]
    iintro ⟨Harr, Howes, Hprng, Hrest⟩
    imodintro
    isplitl [Harr Hrest]
    · iapply hjoin; isplitl [Harr] <;> iassumption
    isplitl [Hprng]; · iexact Hprng
    unfold Pipeline.Dat.owesAt Pipeline.owesWithin
    icases Howes with ⟨%W, -, Howes⟩; iexists W; iexact Howes

/-! ## The causal product as a segment -/

theorem a_final (c : Dev nD) (w : Fin cfgA.W) : (adat (V3 m) c).arrAt w cfgA.N = V4 m c (Pipeline.arrRef cfgA.spec w) :=
  (W4_arr m c w).symm
theorem a_others (c : Dev nD) : ∀ b, b ∉ Finset.univ.image (Pipeline.arrRef cfgA.spec) → V4 m c b = V3 m c b :=
  fun b hb => W4_of_ne m c b fun w e => hb (Finset.mem_image.mpr ⟨w, Finset.mem_univ _, e⟩)

/-- The one table of the call, held at the table's contents: its buffer owned at them. -/
theorem tableHeld_eq (c : Dev nD) :
    (Pipeline.prefHeld pre2 c (fun _ => fullShare) tbl : sProp 𝕄) = owns (c : Thread nD τ) tbM fullShare (tbl 0) := by
  unfold Pipeline.prefHeld
  rw [show (Finset.univ : Finset (Fin 1)) = {0} from by decide, bigSep_singleton]
  exact (owns_whole (c : Thread nD τ) main_c fullShare (tbl 0)).symm

/-- The table's buffer at the call's entry holds the table. -/
theorem entry_table (c : Dev nD) : (fun k => V3 m c (pre2.ref k)) = (tbl : pre2.Contents (Elt 𝔽)) :=
  funext fun k => match k with | ⟨0, _⟩ => W3_table m c

/-- The call's scoped rest is the thirteen buffers it does not touch and its accumulator at some contents. -/
theorem scoped_split (c : Dev nD) :
    (Pipeline.scopedRest (Ix := Unit) (Name := ℕ) (U := UR sig nD τ) (Lvl := ℕ) (Val := Elt 𝔽) spec2 c : sProp 𝕄)
      ⊢ iprop(otherScoped c ∗ ∃ a, owns (c : Thread nD τ) scM fullShare a) := by
  rw [scopedRest2_eq]; unfold otherScoped
  simp only [scM, owns_whole]
  iintro ⟨H1, H2, H3, H4, H5, H6, H7, H8, H9, H10, H11, H12, H13, Hs⟩
  isplitr [Hs]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iexact Hs
theorem scoped_join (c : Dev nD) :
    iprop(otherScoped c ∗ ∃ a, owns (c : Thread nD τ) scM fullShare a)
      ⊢ (Pipeline.scopedRest (Ix := Unit) (Name := ℕ) (U := UR sig nD τ) (Lvl := ℕ) (Val := Elt 𝔽) spec2 c : sProp 𝕄) := by
  rw [scopedRest2_eq]; unfold otherScoped
  simp only [scM, owns_whole]
  iintro ⟨⟨H1, H2, H3, H4, H5, H6, H7, H8, H9, H10, H11, H12, H13⟩, Hs⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hs

/-- The unscoped buffers that are no array of the call: the table and the rest. -/
theorem rest_split (c : Dev nD) :
    (Pipeline.unscopedRest (Ix := Unit) (Name := ℕ) (U := UR sig nD τ) (Lvl := ℕ) spec2 c (V3 m c) : sProp 𝕄)
      = iprop(owns (c : Thread nD τ) tbM fullShare (tbl 0)
          ∗ Pipeline.unscopedRestP (Ix := Unit) (Name := ℕ) (U := UR sig nD τ) (Lvl := ℕ) pre2 spec2 c (V3 m c)) := by
  rw [Pipeline.unscopedRest_split preFacts2 c (V3 m c), entry_table m c, tableHeld_eq]

set_option backward.isDefEq.respectTransparency.types false in
/-- At entry: the unscoped buffers are the call's arrays, the table, and the rest. -/
theorem attn_entry (c : Dev nD) :
    (StableHlo.held (c : Thread nD τ) (Pipeline.ucRefs τ sig) (W3 m c) : sProp 𝕄)
      ⊢ iprop((adat (V3 m) c).arrays ((adat (V3 m) c).arrAt · 0) ∗ owns (c : Thread nD τ) tbM fullShare (tbl 0)
          ∗ Pipeline.unscopedRestP (Ix := Unit) (Name := ℕ) (U := UR sig nD τ) (Lvl := ℕ) pre2 spec2 c (V3 m c)) := by
  have hsplit := Pipeline.arrays_of_unscopedBufs (p := 2) (pcfgs (F := 𝔽)) adm (pdats m) (launch2 (F := 𝔽)).win (launch2 (F := 𝔽)).arr_whole c
    ((pdats m 2 c).share_full fun _ => rfl) (V3 m c) fun _ => rfl
  rw [Pipeline.unscopedBufs_held] at hsplit
  rw [← rest_split m c]
  exact hsplit

set_option backward.isDefEq.respectTransparency.types false in
/-- At exit: the arrays at what the call leaves, the table and the rest are the unscoped buffers at the next valuation. -/
theorem attn_exit (c : Dev nD) :
    iprop((adat (V3 m) c).arrays ((adat (V3 m) c).arrAt · cfgA.N) ∗ owns (c : Thread nD τ) tbM fullShare (tbl 0)
        ∗ Pipeline.unscopedRestP (Ix := Unit) (Name := ℕ) (U := UR sig nD τ) (Lvl := ℕ) pre2 spec2 c (V3 m c))
      ⊢ (StableHlo.held (c : Thread nD τ) (Pipeline.ucRefs τ sig) (W4 m c) : sProp 𝕄) := by
  have hjoin := Pipeline.unscopedBufs_of_arrays (p := 2) (pcfgs (F := 𝔽)) adm (Ix := Unit) (Name := ℕ) (U := UR sig nD τ) (Lvl := ℕ)
    (launch2 (F := 𝔽)).win (launch2 (F := 𝔽)).arr_whole c (pdats m) ((pdats m 2 c).share_full fun _ => rfl)
    (V3 m c) (V4 m c) ((pdats m 2 c).arrAt · cfgA.N) (a_final m c) (a_others m c)
  rw [Pipeline.unscopedBufs_held] at hjoin
  rw [← rest_split m c]
  exact hjoin

set_option backward.isDefEq.respectTransparency.types false in
def aSeg (hbody : ∀ c, BodyObligation (adat (V3 m) c) (defs₀ (F := 𝔽)) Variants.none () Set.univ) :
    RegionSeg (pcfgs (F := 𝔽)) adm (pdats m) () defs₀ 𝒱₀ noPairs noLevel 2 where
  win := (launch2 (F := 𝔽)).win.to₀
  block_pos := (launch2 (F := 𝔽)).block_pos
  stage_whole := (launch2 (F := 𝔽)).stage_whole
  K := PEmpty
  osem k := k.elim
  ho := Pipeline.OwnSemFacts.none _
  hbody c := (hbody c).loose
  hwaits := Pipeline.hwaits_of_owed_zero _ _ _ _ noPairs noLevel 2 fun _ _ => rfl
  pre := between (W3 m)
  post := between (W4 m)
  X c := iprop(∃ r, prngReg c r)
  Y c := iprop((∃ r, prngReg c r) ∗ owns (c : Thread nD τ) tbM fullShare (tbl 0))
  Z c := Pipeline.unscopedRestP (Ix := Unit) (Name := ℕ) (U := UR sig nD τ) (Lvl := ℕ) pre2 spec2 c (V3 m c)
  hentry c := by
    dsimp only [between, aside]
    rw [Pipeline.ownSems0_none]
    have hsplit := attn_entry m c
    have htbl : (Pipeline.prefHeld (pcfgs (F := 𝔽) 2).pre c (fun _ => fullShare) (adm (2 : Fin 3)).1 : sProp 𝕄)
        = owns (c : Thread nD τ) tbM fullShare (tbl 0) := tableHeld_eq c
    rw [htbl]
    iintro ⟨⟨Hbufs, Hprng, Howes⟩, -, -⟩
    ihave Hparts := hsplit $$ Hbufs
    icases Hparts with ⟨Harr, Htbl, Hrest⟩
    imodintro
    isplitl [Harr]; · iexact Harr
    isplitl [Htbl]; · iexact Htbl
    isplitl [Howes]
    · unfold Pipeline.Dat.owesAt Pipeline.owesWithin
      icases Howes with ⟨%W, Howes⟩; iexists W; isplitr; · ipureintro; exact fun _ _ => Or.inl trivial
      iexact Howes
    isplitl [Hprng]; · iexact Hprng
    iexact Hrest
  hin c := by
    have htbl : (Pipeline.prefHeld (pcfgs (F := 𝔽) 2).pre c (fun _ => fullShare) (adm (2 : Fin 3)).1 : sProp 𝕄)
        = owns (c : Thread nD τ) tbM fullShare (tbl 0) := tableHeld_eq c
    rw [htbl, show (pdats m 2 c).Φ 0 = attnInv c (accUpTo (V3 m) c 0) ((0 : ℕ) ≠ 0) from rfl]
    unfold attnInv
    have hsc := scoped_split c
    iintro ⟨Hprng, Htbl, Hscoped⟩
    ihave Hparts := hsc $$ Hscoped
    icases Hparts with ⟨Hother, ⟨%a, Hs⟩⟩
    isplitl [Hother]; · iexact Hother
    isplitl [Hprng]; · iexact Hprng
    isplitl [Htbl]; · iexact Htbl
    iexists a; isplitr; · ipureintro; exact fun h => absurd rfl h
    iexact Hs
  hout c := by
    rw [Pipeline.ownSems0_none, show (pdats m 2 c).Φ (Fin.last _) = attnInv c (accUpTo (V3 m) c cfgA.N) (cfgA.N ≠ 0) from rfl]
    unfold attnInv
    have hsc := scoped_join c
    iintro ⟨Hother, Hprng, Htbl, ⟨%a, -, Hs⟩⟩
    isplitl [Hprng Htbl]
    · isplitl [Hprng]; · iexact Hprng
      iexact Htbl
    isplitr; · iempintro
    iapply hsc
    isplitl [Hother]; · iexact Hother
    iexists a; iexact Hs
  hexit c := by
    have hjoin := attn_exit m c
    dsimp only [between, aside]
    iintro ⟨Harr, Howes, ⟨Hprng, Htbl⟩, Hrest⟩
    imodintro
    isplitl [Harr Htbl Hrest]
    · iapply hjoin
      isplitl [Harr]; · iexact Harr
      isplitl [Htbl]; · iexact Htbl
      iexact Hrest
    isplitl [Hprng]; · iexact Hprng
    unfold Pipeline.Dat.owesAt Pipeline.owesWithin
    icases Howes with ⟨%W, -, Howes⟩; iexists W; iexact Howes

/-! ## The host stretch as a segment, the program as its segments, and the run -/

/-- The host stretch over the unscoped buffers, from the launch memory. -/
def hostSeg : HostSeg (Name := ℕ) (U := UR sig nD τ) (pcfgs (F := 𝔽)) defs₀ 𝒱₀ noPairs noLevel :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) aside

abbrev segs (hbody : ∀ c, BodyObligation (adat (V3 m) c) (defs₀ (F := 𝔽)) Variants.none () Set.univ) : List (Seg (pcfgs (F := 𝔽)) adm (pdats m) () defs₀ 𝒱₀ noPairs noLevel) :=
  [.host (hostSeg m), .region (qSeg m), .region (kvSeg m), .region (aSeg m hbody)]

theorem main_run (hbody : ∀ c, BodyObligation (adat (V3 m) c) (defs₀ (F := 𝔽)) Variants.none () Set.univ) (c : Dev nD) : main (F := 𝔽) c = Seg.run (segs m hbody) :=
  main_segs adm (pdats m) () 𝒱₀ noPairs noLevel (hostSeg m) (qSeg m) (kvSeg m) (aSeg m hbody) rfl c

/-- An unscoped buffer of the TensorCore is among those a thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with zero counters every weakly fair execution terminates, and at the end every unscoped buffer
    holds the last valuation. -/
theorem run_all (hbody : ∀ c, BodyObligation (adat (V3 m) c) (defs₀ (F := 𝔽)) Variants.none () Set.univ) (ρ : Dev nD → PrngReg) :
    θ_run defs (onTc (τ := τ) (main (F := 𝔽))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := 𝔽)) adm (pdats m) () (cellOf_inj adm) emb₁ defs₀ 𝒱₀ noPairs noLevel m ρ main (segs m hbody)
    (fun c Q => by rw [main_run m hbody c])
    (by simp only [segs, Seg.pipes_host, Seg.pipes_region, Seg.pipes_nil]; decide)
    (O₀ := 0) (hL := fun _ _ => rfl) (G := fun _ => iprop(emp))
    (u₀ := initOf (Pipeline.cells (Pipeline.pin (pcfgs (F := 𝔽)) adm) (cellOf_inj adm)) (Pipeline.launchToks (Pipeline.pin (pcfgs (F := 𝔽)) adm) (cellOf_inj adm)))
    (hu₀ := by
      iintro Hu; imodintro
      isplitl [Hu]
      · iapply (show (ownU (initOf (Pipeline.cells (Pipeline.pin (pcfgs (F := 𝔽)) adm) (cellOf_inj adm)) (Pipeline.launchToks (Pipeline.pin (pcfgs (F := 𝔽)) adm) (cellOf_inj adm))) : sProp 𝕄)
            ⊢ BI.own (emb₁ (initOf (Pipeline.cells (Pipeline.pin (pcfgs (F := 𝔽)) adm) (cellOf_inj adm)) (Pipeline.launchToks (Pipeline.pin (pcfgs (F := 𝔽)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := between (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      dsimp only [Seg.post, aSeg, between, aside]
      iintro ⟨Hh, Hp, Ho⟩
      isplitl [Hh Hp]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      dsimp only [between, aside]
      iintro ⟨⟨Hh, -, Ho, -, Hp, -⟩, -⟩
      imodintro
      isplitl [Hh]; · iexact Hh
      isplitl [Hp]; · iexists _; iexact Hp
      iexists ∅; iexact Ho)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The frame: the five argument arrays end as launched. -/
theorem frame (hbody : ∀ c, BodyObligation (adat (V3 m) c) (defs₀ (F := 𝔽)) Variants.none () Set.univ) (ρ : Dev nD → PrngReg) :
    θ_run defs (onTc (τ := τ) (main (F := 𝔽))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_unscoped main_arg0 (by decide))).trans (V4_arg0 m c),
     (h c _ (mem_unscoped main_arg1 (by decide))).trans (V4_arg1 m c),
     (h c _ (mem_unscoped main_arg2 (by decide))).trans (V4_arg2 m c),
     (h c _ (mem_unscoped main_arg3 (by decide))).trans (V4_arg3 m c),
     (h c _ (mem_unscoped main_arg4 (by decide))).trans (V4_arg4 m c)⟩) (run_all m hbody ρ)

/-- The run read at the result buffer and the arguments. -/
theorem run_result (hbody : ∀ c, BodyObligation (adat (V3 m) c) (defs₀ (F := 𝔽)) Variants.none () Set.univ) (ρ : Dev nD → PrngReg) :
    θ_run defs (onTc (τ := τ) (main (F := 𝔽))) ⟨m, fun _ => 0, ρ⟩ (fun r => ∀ c : Dev nD,
      r.2.mem ((c.tc : Thread nD τ).loc main_v5) = V4 m c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_unscoped main_v5 (by decide)),
     (h c _ (mem_unscoped main_arg0 (by decide))).trans (V4_arg0 m c),
     (h c _ (mem_unscoped main_arg1 (by decide))).trans (V4_arg1 m c),
     (h c _ (mem_unscoped main_arg2 (by decide))).trans (V4_arg2 m c),
     (h c _ (mem_unscoped main_arg3 (by decide))).trans (V4_arg3 m c),
     (h c _ (mem_unscoped main_arg4 (by decide))).trans (V4_arg4 m c)⟩) (run_all m hbody ρ)

end Cert.Kernel.Hand

end
-- ==== Proof.lean ====
/-
  The certificate's claim: the three frames, the (empty) idealization ledger, and the equivalence over the extended
  reals of the kernel (three pallas_calls: a scaled Q projection, a fused K/V projection, a causal masked product
  accumulated over 8 key tiles in a balanced order of the query tiles) with its reference.

  Both programs end at one function of the five inputs.  The kernel's result array is, row by row, the accumulator
  of that row's query tile after its 8 key tiles: Spec.attnK, over q * s, k, v.  The reference's is the masked,
  scaled score matrix times v: Spec.attnR.  They agree when the inputs are real numbers: the scale moves out of the
  inner product (the one law used that needs finiteness), the key axis splits into its 8 tiles, and a masked score
  contributes zero.  The frames are the same runs read at the argument arrays.
-/
import proofs.«425182_j55671366091048_3_alg».proof.Defs
import proofs.«425182_j55671366091048_3_alg».proof.Proof.Gen.Kernel
import proofs.«425182_j55671366091048_3_alg».proof.Proof.Gen.KernelIdeal
import proofs.«425182_j55671366091048_3_alg».proof.Proof.Gen.ReferenceIdeal
import proofs.«425182_j55671366091048_3_alg».proof.Proof.Gen.Pre_finite_inputs
import proofs.«425182_j55671366091048_3_alg».proof.Proof.Gen.ReferenceIdeal.Run
import proofs.«425182_j55671366091048_3_alg».proof.Proof.Spec
import proofs.«425182_j55671366091048_3_alg».proof.Proof.Finite
import proofs.«425182_j55671366091048_3_alg».proof.Proof.RefValue
import proofs.«425182_j55671366091048_3_alg».proof.Proof.AttnFrame
import proofs.«425182_j55671366091048_3_alg».proof.Proof.AttnValue
import proofs.«425182_j55671366091048_3_alg».proof.Proof.Run
import proofs.«425182_j55671366091048_3_alg».proof.Proof.RunValue
import proofs.«425182_j55671366091048_3_alg».proof.Proof.Bits.AttnFrame
import proofs.«425182_j55671366091048_3_alg».proof.Proof.Bits.Run
import Idealize.ShloMosaic.Adequacy
import Idealize.ShloMosaic.Init

noncomputable section

namespace Cert.Proof

open Idealize.ShloMosaic Idealize.ShloMosaic.TcCoe Idealize.SL.Sem

/-- The word-level kernel runs to the end and leaves its arguments alone. -/
theorem frame_kernel : Cert.frame_Kernel := fun m ρ _ =>
  Cert.Kernel.Hand.frame m (fun c => Cert.Kernel.Hand.attn_obligation (Cert.Kernel.Hand.V3 m) c) ρ

/-- So does the idealized kernel. -/
theorem frame_ideal : Cert.frame_KernelIdeal := fun m ρ _ =>
  Cert.KernelIdeal.Hand.frame m (fun c => Cert.KernelIdeal.Hand.attn_obligation (Cert.KernelIdeal.Hand.V3 m) c) ρ

/-- And the reference: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- The two idealized programs end with one result: the kernel's array is Spec.attnK of the inputs, the reference's
    Spec.attnR, and the two agree on real inputs. -/
theorem algebraic : Cert.algebraic_KernelIdeal_ReferenceIdeal := by
  intro m ρ m' ρ' hpre hagree
  refine ⟨fun c => Cert.Spec.attnK (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3))
      (m ((c.tc : Thread _ _).loc Cert.KernelIdeal.main_arg4)), ?_, ?_⟩
  · refine (θ_run Cert.KernelIdeal.defs _ _).mono (fun _ h c => ⟨(h c).1.trans ?_, (h c).2⟩)
      (Cert.KernelIdeal.Hand.run_result m (fun c => Cert.KernelIdeal.Hand.attn_obligation (Cert.KernelIdeal.Hand.V3 m) c) ρ)
    exact Cert.KernelIdeal.Hand.kernel_value m (fun c => Cert.KernelIdeal.Hand.out_array (Cert.KernelIdeal.Hand.V3 m) c) c
  · refine (θ_run Cert.ReferenceIdeal.defs _ _).mono (fun _ h c => ⟨(h c).1.trans ?_, (h c).2⟩)
      (Cert.ReferenceIdeal.RefValue.run_attnR m' ρ')
    obtain ⟨hx, hy, hq, hk, hv⟩ := Cert.Finite.real_of_pre m hpre c
    rw [(hagree c).1, (hagree c).2.1, (hagree c).2.2.1, (hagree c).2.2.2.1, (hagree c).2.2.2.2]
    exact (Cert.Spec.attnK_eq_attnR _ _ _ _ _ hx hy hq hk hv).symm

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
